-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S320000x1 : Shape := ⟨2, ![320000, 1]⟩
abbrev S10000 : Shape := ⟨1, ![10000]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S256x128 : Shape := ⟨2, ![256, 128]⟩
abbrev S128 : Shape := ⟨1, ![128]⟩
abbrev S128x128 : Shape := ⟨2, ![128, 128]⟩
abbrev S256x1 : Shape := ⟨2, ![256, 1]⟩
abbrev S1 : Shape := ⟨1, ![1]⟩
abbrev S_ : Shape := ⟨0, ![]⟩
abbrev S1x320000 : Shape := ⟨2, ![1, 320000]⟩
abbrev S320000 : Shape := ⟨1, ![320000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x1 : S_.BroadcastsInDim S320000x1 (![] : Fin 0 → Fin S320000x1.rank)
  reducesTo_S320000x1_S_d0_1 : S320000x1.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  reducesTo_S320000_S_d0 : S320000.ReducesTo [0] S_

variable [Facts]

def fn_part9 {F : FTy → Type} [FloatOps F] (main_arg1 : IVec S2x320000 32) (main_v153 : IVec S_ 1) : IVec S_ 1 :=
  let main_v154 : IVec S1x320000 32 := (extractStridedSlice S1x320000 ![0, 0] · slices_S2x320000_S1x320000_0_0) main_arg1
  let main_v155 : IVec S320000 32 := shapeCast S320000 main_v154 shapeCasts_S1x320000_S320000
  let main_c_60 : IVec S_ 32 := constantI S_ 32 4294957296#32
  let main_v156 : IVec S320000 32 := broadcastInDim S320000 ![] bcast_S_S320000 main_c_60
  let main_v157 : IVec S320000 1 := cmpi .sge main_v155 main_v156
  let main_v158 : IVec S1x320000 32 := (extractStridedSlice S1x320000 ![0, 0] · slices_S2x320000_S1x320000_0_0) main_arg1
  let main_v159 : IVec S320000 32 := shapeCast S320000 main_v158 shapeCasts_S1x320000_S320000
  let main_c_61 : IVec S_ 32 := constantI S_ 32 10000#32
  let main_v160 : IVec S320000 32 := broadcastInDim S320000 ![] bcast_S_S320000 main_c_61
  let main_v161 : IVec S320000 1 := cmpi .slt main_v159 main_v160
  let main_v162 : IVec S320000 1 := andi main_v157 main_v161
  let main_c_62 : IVec S_ 1 := constantI S_ 1 1#1
  let main_v163 : IVec S_ 1 := (fun x v => Host.reduce IntOp.andi x v reducesTo_S320000_S_d0 h_S_) main_v162 main_c_62
  let main_v164 : IVec S_ 1 := andi main_v153 main_v163
  main_v164

def fn_part8 {F : FTy → Type} [FloatOps F] (main_arg1 : IVec S2x320000 32) (main_arg30 : FVec F S1 .f32) (main_arg31 : FVec F S256 .f32) (main_arg32 : FVec F S256 .f32) (main_v133 : IVec S_ 1) (main_v136 : IVec S256x1 1) : IVec S_ 1 :=
  let main_c_53 : IVec S_ 1 := constantI S_ 1 1#1
  let main_v137 : IVec S_ 1 := (fun x v => Host.reduce IntOp.andi x v reducesTo_S256x1_S_d0_1 h_S_) main_v136 main_c_53
  let main_v138 : IVec S_ 1 := andi main_v133 main_v137
  let main_v139 : FVec F S1 .f32 := Host.absf main_arg30
  let main_cst_54 : FVec F S_ .f32 := constant S_ .f32 0x7F800000#32
  let main_v140 : FVec F S1 .f32 := broadcastInDim S1 ![] bcast_S_S1 main_cst_54
  let main_v141 : IVec S1 1 := cmpf .olt main_v139 main_v140
  let main_c_55 : IVec S_ 1 := constantI S_ 1 1#1
  let main_v142 : IVec S_ 1 := (fun x v => Host.reduce IntOp.andi x v reducesTo_S1_S_d0 h_S_) main_v141 main_c_55
  let main_v143 : IVec S_ 1 := andi main_v138 main_v142
  let main_v144 : FVec F S256 .f32 := Host.absf main_arg31
  let main_cst_56 : FVec F S_ .f32 := constant S_ .f32 0x7F800000#32
  let main_v145 : FVec F S256 .f32 := broadcastInDim S256 ![] bcast_S_S256 main_cst_56
  let main_v146 : IVec S256 1 := cmpf .olt main_v144 main_v145
  let main_c_57 : IVec S_ 1 := constantI S_ 1 1#1
  let main_v147 : IVec S_ 1 := (fun x v => Host.reduce IntOp.andi x v reducesTo_S256_S_d0 h_S_) main_v146 main_c_57
  let main_v148 : IVec S_ 1 := andi main_v143 main_v147
  let main_v149 : FVec F S256 .f32 := Host.absf main_arg32
  let main_cst_58 : FVec F S_ .f32 := constant S_ .f32 0x7F800000#32
  let main_v150 : FVec F S256 .f32 := broadcastInDim S256 ![] bcast_S_S256 main_cst_58
  let main_v151 : IVec S256 1 := cmpf .olt main_v149 main_v150
  let main_c_59 : IVec S_ 1 := constantI S_ 1 1#1
  let main_v152 : IVec S_ 1 := (fun x v => Host.reduce IntOp.andi x v reducesTo_S256_S_d0 h_S_) main_v151 main_c_59
  let main_v153 : IVec S_ 1 := andi main_v148 main_v152
  fn_part9 (F := F) main_arg1 main_v153

def fn_part7 {F : FTy → Type} [FloatOps F] (main_arg1 : IVec S2x320000 32) (main_arg27 : FVec F S128x256 .f32) (main_arg28 : FVec F S256 .f32) (main_arg29 : FVec F S256x1 .f32) (main_arg30 : FVec F S1 .f32) (main_arg31 : FVec F S256 .f32) (main_arg32 : FVec F S256 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x256 .f32 := Host.absf main_arg27
  let main_cst_48 : FVec F S_ .f32 := constant S_ .f32 0x7F800000#32
  let main_v125 : FVec F S128x256 .f32 := broadcastInDim S128x256 ![] bcast_S_S128x256 main_cst_48
  let main_v126 : IVec S128x256 1 := cmpf .olt main_v124 main_v125
  let main_c_49 : IVec S_ 1 := constantI S_ 1 1#1
  let main_v127 : IVec S_ 1 := (fun x v => Host.reduce IntOp.andi x v reducesTo_S128x256_S_d0_1 h_S_) main_v126 main_c_49
  let main_v128 : IVec S_ 1 := andi main_v123 main_v127
  let main_v129 : FVec F S256 .f32 := Host.absf main_arg28
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  let main_v134 : FVec F S256x1 .f32 := Host.absf main_arg29
  let main_cst_52 : FVec F S_ .f32 := constant S_ .f32 0x7F800000#32
  let main_v135 : FVec F S256x1 .f32 := broadcastInDim S256x1 ![] bcast_S_S256x1 main_cst_52
  let main_v136 : IVec S256x1 1 := cmpf .olt main_v134 main_v135
  fn_part8 (F := F) main_arg1 main_arg30 main_arg31 main_arg32 main_v133 main_v136

def fn_part6 {F : FTy → Type} [FloatOps F] (main_arg1 : IVec S2x320000 32) (main_arg23 : FVec F S256x256 .f32) (main_arg24 : FVec F S256 .f32) (main_arg25 : FVec F S128x128 .f32) (main_arg26 : FVec F S128 .f32) (main_arg27 : FVec F S128x256 .f32) (main_arg28 : FVec F S256 .f32) (main_arg29 : FVec F S256x1 .f32) (main_arg30 : FVec F S1 .f32) (main_arg31 : FVec F S256 .f32) (main_arg32 : FVec F S256 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x256 .f32 := Host.absf main_arg23
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256 .f32 := Host.absf main_arg24
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S128x128 .f32 := Host.absf main_arg25
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg26
  fn_part7 (F := F) main_arg1 main_arg27 main_arg28 main_arg29 main_arg30 main_arg31 main_arg32 main_v118 main_v119

def fn_part5 {F : FTy → Type} [FloatOps F] (main_arg1 : IVec S2x320000 32) (main_arg20 : FVec F S256 .f32) (main_arg21 : FVec F S256x256 .f32) (main_arg22 : FVec F S256 .f32) (main_arg23 : FVec F S256x256 .f32) (main_arg24 : FVec F S256 .f32) (main_arg25 : FVec F S128x128 .f32) (main_arg26 : FVec F S128 .f32) (main_arg27 : FVec F S128x256 .f32) (main_arg28 : FVec F S256 .f32) (main_arg29 : FVec F S256x1 .f32) (main_arg30 : FVec F S1 .f32) (main_arg31 : FVec F S256 .f32) (main_arg32 : FVec F S256 .f32) (main_v83 : IVec S_ 1) (main_v84 : FVec F S1x256 .f32) (main_cst_32 : FVec F S_ .f32) : IVec S_ 1 :=
  let main_v85 : FVec F S1x256 .f32 := broadcastInDim S1x256 ![] bcast_S_S1x256 main_cst_32
  let main_v86 : IVec S1x256 1 := cmpf .olt main_v84 main_v85
  let main_c_33 : IVec S_ 1 := constantI S_ 1 1#1
  let main_v87 : IVec S_ 1 := (fun x v => Host.reduce IntOp.andi x v reducesTo_S1x256_S_d0_1 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg21
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg1 main_arg23 main_arg24 main_arg25 main_arg26 main_arg27 main_arg28 main_arg29 main_arg30 main_arg31 main_arg32 main_v98 main_v101 main_c_39

def fn_part4 {F : FTy → Type} [FloatOps F] (main_arg1 : IVec S2x320000 32) (main_arg16 : FVec F S256x128 .f32) (main_arg17 : FVec F S128 .f32) (main_arg18 : FVec F S256x128 .f32) (main_arg19 : FVec F S1x256 .f32) (main_arg20 : FVec F S256 .f32) (main_arg21 : FVec F S256x256 .f32) (main_arg22 : FVec F S256 .f32) (main_arg23 : FVec F S256x256 .f32) (main_arg24 : FVec F S256 .f32) (main_arg25 : FVec F S128x128 .f32) (main_arg26 : FVec F S128 .f32) (main_arg27 : FVec F S128x256 .f32) (main_arg28 : FVec F S256 .f32) (main_arg29 : FVec F S256x1 .f32) (main_arg30 : FVec F S1 .f32) (main_arg31 : FVec F S256 .f32) (main_arg32 : FVec F S256 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x128 .f32 := Host.absf main_arg18
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S1x256 .f32 := Host.absf main_arg19
  let main_cst_32 : FVec F S_ .f32 := constant S_ .f32 0x7F800000#32
  fn_part5 (F := F) main_arg1 main_arg20 main_arg21 main_arg22 main_arg23 main_arg24 main_arg25 main_arg26 main_arg27 main_arg28 main_arg29 main_arg30 main_arg31 main_arg32 main_v83 main_v84 main_cst_32

def fn_part3 {F : FTy → Type} [FloatOps F] (main_arg1 : IVec S2x320000 32) (main_arg13 : FVec F S256x256 .f32) (main_arg14 : FVec F S1x256 .f32) (main_arg15 : FVec F S256 .f32) (main_arg16 : FVec F S256x128 .f32) (main_arg17 : FVec F S128 .f32) (main_arg18 : FVec F S256x128 .f32) (main_arg19 : FVec F S1x256 .f32) (main_arg20 : FVec F S256 .f32) (main_arg21 : FVec F S256x256 .f32) (main_arg22 : FVec F S256 .f32) (main_arg23 : FVec F S256x256 .f32) (main_arg24 : FVec F S256 .f32) (main_arg25 : FVec F S128x128 .f32) (main_arg26 : FVec F S128 .f32) (main_arg27 : FVec F S128x256 .f32) (main_arg28 : FVec F S256 .f32) (main_arg29 : FVec F S256x1 .f32) (main_arg30 : FVec F S1 .f32) (main_arg31 : FVec F S256 .f32) (main_arg32 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S1x256 .f32 := Host.absf main_arg14
  let main_cst_22 : FVec F S_ .f32 := constant S_ .f32 0x7F800000#32
  let main_v60 : FVec F S1x256 .f32 := broadcastInDim S1x256 ![] bcast_S_S1x256 main_cst_22
  let main_v61 : IVec S1x256 1 := cmpf .olt main_v59 main_v60
  let main_c_23 : IVec S_ 1 := constantI S_ 1 1#1
  let main_v62 : IVec S_ 1 := (fun x v => Host.reduce IntOp.andi x v reducesTo_S1x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_arg16 main_arg17 main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg1 : IVec S2x320000 32) (main_arg9 : FVec F S1x256 .f32) (main_arg10 : FVec F S256 .f32) (main_arg11 : FVec F S256x256 .f32) (main_arg12 : FVec F S256 .f32) (main_arg13 : FVec F S256x256 .f32) (main_arg14 : FVec F S1x256 .f32) (main_arg15 : FVec F S256 .f32) (main_arg16 : FVec F S256x128 .f32) (main_arg17 : FVec F S128 .f32) (main_arg18 : FVec F S256x128 .f32) (main_arg19 : FVec F S1x256 .f32) (main_arg20 : FVec F S256 .f32) (main_arg21 : FVec F S256x256 .f32) (main_arg22 : FVec F S256 .f32) (main_arg23 : FVec F S256x256 .f32) (main_arg24 : FVec F S256 .f32) (main_arg25 : FVec F S128x128 .f32) (main_arg26 : FVec F S128 .f32) (main_arg27 : FVec F S128x256 .f32) (main_arg28 : FVec F S256 .f32) (main_arg29 : FVec F S256x1 .f32) (main_arg30 : FVec F S1 .f32) (main_arg31 : FVec F S256 .f32) (main_arg32 : FVec F S256 .f32) (main_v33 : IVec S_ 1) : IVec S_ 1 :=
  let main_v34 : FVec F S1x256 .f32 := Host.absf main_arg9
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg1 main_arg13 main_arg14 main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg1 : IVec S2x320000 32) (main_arg6 : FVec F S256x256 .f32) (main_arg7 : FVec F S256 .f32) (main_arg8 : FVec F S256x256 .f32) (main_arg9 : FVec F S1x256 .f32) (main_arg10 : FVec F S256 .f32) (main_arg11 : FVec F S256x256 .f32) (main_arg12 : FVec F S256 .f32) (main_arg13 : FVec F S256x256 .f32) (main_arg14 : FVec F S1x256 .f32) (main_arg15 : FVec F S256 .f32) (main_arg16 : FVec F S256x128 .f32) (main_arg17 : FVec F S128 .f32) (main_arg18 : FVec F S256x128 .f32) (main_arg19 : FVec F S1x256 .f32) (main_arg20 : FVec F S256 .f32) (main_arg21 : FVec F S256x256 .f32) (main_arg22 : FVec F S256 .f32) (main_arg23 : FVec F S256x256 .f32) (main_arg24 : FVec F S256 .f32) (main_arg25 : FVec F S128x128 .f32) (main_arg26 : FVec F S128 .f32) (main_arg27 : FVec F S128x256 .f32) (main_arg28 : FVec F S256 .f32) (main_arg29 : FVec F S256x1 .f32) (main_arg30 : FVec F S1 .f32) (main_arg31 : FVec F S256 .f32) (main_arg32 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : FVec F S10000x128 .f32) (main_arg1 : IVec S2x320000 32) (main_arg2 : FVec F S320000x1 .f32) (main_arg3 : IVec S10000 32) (main_arg4 : FVec F S128x256 .f32) (main_arg5 : FVec F S256 .f32) (main_arg6 : FVec F S256x256 .f32) (main_arg7 : FVec F S256 .f32) (main_arg8 : FVec F S256x256 .f32) (main_arg9 : FVec F S1x256 .f32) (main_arg10 : FVec F S256 .f32) (main_arg11 : FVec F S256x256 .f32) (main_arg12 : FVec F S256 .f32) (main_arg13 : FVec F S256x256 .f32) (main_arg14 : FVec F S1x256 .f32) (main_arg15 : FVec F S256 .f32) (main_arg16 : FVec F S256x128 .f32) (main_arg17 : FVec F S128 .f32) (main_arg18 : FVec F S256x128 .f32) (main_arg19 : FVec F S1x256 .f32) (main_arg20 : FVec F S256 .f32) (main_arg21 : FVec F S256x256 .f32) (main_arg22 : FVec F S256 .f32) (main_arg23 : FVec F S256x256 .f32) (main_arg24 : FVec F S256 .f32) (main_arg25 : FVec F S128x128 .f32) (main_arg26 : FVec F S128 .f32) (main_arg27 : FVec F S128x256 .f32) (main_arg28 : FVec F S256 .f32) (main_arg29 : FVec F S256x1 .f32) (main_arg30 : FVec F S1 .f32) (main_arg31 : FVec F S256 .f32) (main_arg32 : FVec F S256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x1 .f32 := Host.absf main_arg2
  let main_cst_0 : FVec F S_ .f32 := constant S_ .f32 0x7F800000#32
  let main_v5 : FVec F S320000x1 .f32 := broadcastInDim S320000x1 ![] bcast_S_S320000x1 main_cst_0
  let main_v6 : IVec S320000x1 1 := cmpf .olt main_v4 main_v5
  let main_c_1 : IVec S_ 1 := constantI S_ 1 1#1
  let main_v7 : IVec S_ 1 := (fun x v => Host.reduce IntOp.andi x v reducesTo_S320000x1_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S10000x128 : Shape := ⟨2, ![10000, 128]⟩
abbrev S2x320000 : Shape := ⟨2, ![2, 320000]⟩
abbrev S320000x1 : Shape := ⟨2, ![320000, 1]⟩
abbrev S10000 : Shape := ⟨1, ![10000]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S256x128 : Shape := ⟨2, ![256, 128]⟩
abbrev S128 : Shape := ⟨1, ![128]⟩
abbrev S128x128 : Shape := ⟨2, ![128, 128]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S10000x1 : Shape := ⟨2, ![10000, 1]⟩
abbrev S10000x256 : Shape := ⟨2, ![10000, 256]⟩
abbrev S1000x128 : Shape := ⟨2, ![1000, 128]⟩
abbrev S1000x256 : Shape := ⟨2, ![1000, 256]⟩
abbrev S1x1 : Shape := ⟨2, ![1, 1]⟩
abbrev S320000x256 : Shape := ⟨2, ![320000, 256]⟩
abbrev S1000x1 : Shape := ⟨2, ![1000, 1]⟩
abbrev S1x128 : Shape := ⟨2, ![1, 128]⟩
abbrev S64x128 : Shape := ⟨2, ![64, 128]⟩
abbrev S64x1 : Shape := ⟨2, ![64, 1]⟩
abbrev S64x256 : Shape := ⟨2, ![64, 256]⟩

abbrev nBuf : Space → Nat
  | .hbm => 228
  | .vmem => 45
  | .smem => 0
  | _ => 0

abbrev hbmTy0_0 (i : Nat) : BufTy := match i % 128 with
  | 0 => ⟨S10000x128, .f32⟩
  | 1 => ⟨S2x320000, .i32⟩
  | 2 => ⟨S320000x1, .f32⟩
  | 3 => ⟨S10000, .i32⟩
  | 4 => ⟨S128x256, .f32⟩
  | 5 => ⟨S256, .f32⟩
  | 6 => ⟨S256x256, .f32⟩
  | 7 => ⟨S256, .f32⟩
  | 8 => ⟨S256x256, .f32⟩
  | 9 => ⟨S1x256, .f32⟩
  | 10 => ⟨S256, .f32⟩
  | 11 => ⟨S256x256, .f32⟩
  | 12 => ⟨S256, .f32⟩
  | 13 => ⟨S256x256, .f32⟩
  | 14 => ⟨S1x256, .f32⟩
  | 15 => ⟨S256, .f32⟩
  | 16 => ⟨S256x128, .f32⟩
  | 17 => ⟨S128, .f32⟩
  | 18 => ⟨S256x128, .f32⟩
  | 19 => ⟨S1x256, .f32⟩
  | 20 => ⟨S256, .f32⟩
  | 21 => ⟨S256x256, .f32⟩
  | 22 => ⟨S256, .f32⟩
  | 23 => ⟨S256x256, .f32⟩
  | 24 => ⟨S256, .f32⟩
  | 25 => ⟨S128x128, .f32⟩
  | 26 => ⟨S128, .f32⟩
  | 27 => ⟨S128x256, .f32⟩
  | 28 => ⟨S256, .f32⟩
  | 29 => ⟨S256x1, .f32⟩
  | 30 => ⟨S1, .f32⟩
  | 31 => ⟨S256, .f32⟩
  | 32 => ⟨S256, .f32⟩
  | 33 => ⟨S1x320000, .i32⟩
  | 34 => ⟨S320000, .i32⟩
  | 35 => ⟨S1x320000, .i32⟩
  | 36 => ⟨S320000, .i32⟩
  | 37 => ⟨S_, .f32⟩
  | 38 => ⟨S320000x1, .f32⟩
  | 39 => ⟨S_, .f32⟩
  | 40 => ⟨S10000x1, .f32⟩
  | 41 => ⟨S320000x1, .i32⟩
  | 42 => ⟨S10000x1, .f32⟩
  | 43 => ⟨S_, .f32⟩
  | 44 => ⟨S10000x1, .f32⟩
  | 45 => ⟨S10000x1, .f32⟩
  | 46 => ⟨S_, .f32⟩
  | 47 => ⟨S10000x1, .f32⟩
  | 48 => ⟨S10000x1, .f32⟩
  | 49 => ⟨S1x256, .f32⟩
  | 50 => ⟨S10000x256, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S1, .i32⟩
  | 60 => ⟨S_, .i32⟩
  | 61 => ⟨S320000x1, .i32⟩
  | 62 => ⟨S320000x1, .i1⟩
  | 63 => ⟨S1x1, .i32⟩
  | 64 => ⟨S320000x1, .i32⟩
  | 65 => ⟨S320000x1, .i1⟩
  | 66 => ⟨S320000x1, .i1⟩
  | 67 => ⟨S_, .i1⟩
  | 68 => ⟨S320000, .i1⟩
  | 69 => ⟨S320000x256, .f32⟩
  | 70 => ⟨S320000x256, .i1⟩
  | 71 => ⟨S_, .f32⟩
  | 72 => ⟨S320000x256, .f32⟩
  | 73 => ⟨S320000x256, .f32⟩
  | 74 => ⟨S320000x256, .f32⟩
  | 75 => ⟨S1x256, .f32⟩
  | 76 => ⟨S320000x256, .f32⟩
  | 77 => ⟨S320000x256, .f32⟩
  | 78 => ⟨S320000x256, .f32⟩
  | 79 => ⟨S_, .f32⟩
  | 80 => ⟨S320000x256, .f32⟩
  | 81 => ⟨S320000x256, .f32⟩
  | 82 => ⟨S_, .f32⟩
  | 83 => ⟨S10000x256, .f32⟩
  | 84 => ⟨S320000x1, .i32⟩
  | 85 => ⟨S10000x256, .f32⟩
  | 86 => ⟨S1x256, .f32⟩
  | 87 => ⟨S1x256, .f32⟩
  | 88 => ⟨S10000x256, .f32⟩
  | 89 => ⟨S_, .i32⟩
  | 90 => ⟨S320000, .i32⟩
  | 91 => ⟨S320000, .i1⟩
  | 92 => ⟨S_, .i32⟩
  | 93 => ⟨S320000, .i32⟩
  | 94 => ⟨S320000, .i32⟩
  | 95 => ⟨S320000, .i32⟩
  | 96 => ⟨S320000x1, .i32⟩
  | 97 => ⟨S1, .i32⟩
  | 98 => ⟨S_, .i32⟩
  | 99 => ⟨S320000x1, .i32⟩
  | 100 => ⟨S320000x1, .i1⟩
  | 101 => ⟨S1x1, .i32⟩
  | 102 => ⟨S320000x1, .i32⟩
  | 103 => ⟨S320000x1, .i1⟩
  | 104 => ⟨S320000x1, .i1⟩
  | 105 => ⟨S_, .i1⟩
  | 106 => ⟨S320000, .i1⟩
  | 107 => ⟨S320000x256, .f32⟩
  | 108 => ⟨S320000x256, .i1⟩
  | 109 => ⟨S_, .f32⟩
  | 110 => ⟨S320000x256, .f32⟩
  | 111 => ⟨S320000x256, .f32⟩
  | 112 => ⟨S320000x256, .f32⟩
  | 113 => ⟨S1x256, .f32⟩
  | 114 => ⟨S320000x256, .f32⟩
  | 115 => ⟨S320000x256, .f32⟩
  | 116 => ⟨S320000x256, .f32⟩
  | 117 => ⟨S_, .f32⟩
  | 118 => ⟨S320000x256, .f32⟩
  | 119 => ⟨S320000x256, .f32⟩
  | 120 => ⟨S_, .f32⟩
  | 121 => ⟨S10000x256, .f32⟩
  | 122 => ⟨S320000x1, .i32⟩
  | 123 => ⟨S10000x256, .f32⟩
  | 124 => ⟨S1x256, .f32⟩
  | 125 => ⟨S1x256, .f32⟩
  | 126 => ⟨S10000x256, .f32⟩
  | 127 => ⟨S_, .i32⟩
  | _ => ⟨S10000x128, .f32⟩

abbrev hbmTy0_1 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S1, .i32⟩
  | 8 => ⟨S_, .i32⟩
  | 9 => ⟨S320000x1, .i32⟩
  | 10 => ⟨S320000x1, .i1⟩
  | 11 => ⟨S1x1, .i32⟩
  | 12 => ⟨S320000x1, .i32⟩
  | 13 => ⟨S320000x1, .i1⟩
  | 14 => ⟨S320000x1, .i1⟩
  | 15 => ⟨S_, .i1⟩
  | 16 => ⟨S320000, .i1⟩
  | 17 => ⟨S320000x256, .f32⟩
  | 18 => ⟨S320000x256, .i1⟩
  | 19 => ⟨S_, .f32⟩
  | 20 => ⟨S320000x256, .f32⟩
  | 21 => ⟨S320000x256, .f32⟩
  | 22 => ⟨S320000x256, .f32⟩
  | 23 => ⟨S1x256, .f32⟩
  | 24 => ⟨S320000x256, .f32⟩
  | 25 => ⟨S320000x256, .f32⟩
  | 26 => ⟨S320000x256, .f32⟩
  | 27 => ⟨S_, .f32⟩
  | 28 => ⟨S320000x256, .f32⟩
  | 29 => ⟨S320000x256, .f32⟩
  | 30 => ⟨S_, .f32⟩
  | 31 => ⟨S10000x256, .f32⟩
  | 32 => ⟨S320000x1, .i32⟩
  | 33 => ⟨S10000x256, .f32⟩
  | 34 => ⟨S1x128, .f32⟩
  | 35 => ⟨S1x128, .f32⟩
  | 36 => ⟨S10000x128, .f32⟩
  | 37 => ⟨S_, .f32⟩
  | 38 => ⟨S64x128, .f32⟩
  | 39 => ⟨S10000x1, .i32⟩
  | 40 => ⟨S64x128, .f32⟩
  | 41 => ⟨S_, .f32⟩
  | 42 => ⟨S10000x1, .f32⟩
  | 43 => ⟨S_, .f32⟩
  | 44 => ⟨S64x1, .f32⟩
  | 45 => ⟨S10000x1, .i32⟩
  | 46 => ⟨S64x1, .f32⟩
  | 47 => ⟨S_, .f32⟩
  | 48 => ⟨S64x1, .f32⟩
  | 49 => ⟨S64x1, .f32⟩
  | 50 => ⟨S64x128, .f32⟩
  | 51 => ⟨S64x128, .f32⟩
  | 52 => ⟨S64x256, .f32⟩
  | 53 => ⟨S1x256, .f32⟩
  | 54 => ⟨S64x256, .f32⟩
  | 55 => ⟨S64x256, .f32⟩
  | 56 => ⟨S_, .f32⟩
  | 57 => ⟨S256, .f32⟩
  | 58 => ⟨S_, .f32⟩
  | 59 => ⟨S256, .f32⟩
  | 60 => ⟨S256, .f32⟩
  | 61 => ⟨S1x256, .f32⟩
  | 62 => ⟨S64x256, .f32⟩
  | 63 => ⟨S64x256, .f32⟩
  | 64 => ⟨S64x256, .f32⟩
  | 65 => ⟨S_, .f32⟩
  | 66 => ⟨S256, .f32⟩
  | 67 => ⟨S_, .f32⟩
  | 68 => ⟨S256, .f32⟩
  | 69 => ⟨S256, .f32⟩
  | 70 => ⟨S1x256, .f32⟩
  | 71 => ⟨S64x256, .f32⟩
  | 72 => ⟨S64x256, .f32⟩
  | 73 => ⟨S1x256, .f32⟩
  | 74 => ⟨S64x256, .f32⟩
  | 75 => ⟨S64x256, .f32⟩
  | 76 => ⟨S_, .f32⟩
  | 77 => ⟨S256, .f32⟩
  | 78 => ⟨S256, .f32⟩
  | 79 => ⟨S256, .f32⟩
  | 80 => ⟨S1x256, .f32⟩
  | 81 => ⟨S64x256, .f32⟩
  | 82 => ⟨S64x256, .f32⟩
  | 83 => ⟨S1x256, .f32⟩
  | 84 => ⟨S64x256, .f32⟩
  | 85 => ⟨S64x256, .f32⟩
  | 86 => ⟨S_, .f32⟩
  | 87 => ⟨S64x256, .f32⟩
  | 88 => ⟨S64x256, .i1⟩
  | 89 => ⟨S_, .f32⟩
  | 90 => ⟨S64x256, .f32⟩
  | 91 => ⟨S64x256, .f32⟩
  | 92 => ⟨S64x256, .f32⟩
  | 93 => ⟨S64x1, .f32⟩
  | 94 => ⟨S1x1, .f32⟩
  | 95 => ⟨S64x1, .f32⟩
  | 96 => ⟨S64x1, .f32⟩
  | 97 => ⟨S_, .f32⟩
  | 98 => ⟨S64x1, .f32⟩
  | 99 => ⟨S64x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x1, .f32⟩
  | .local _ .vmem, ⟨9, _⟩ => ⟨S1000x1, .f32⟩
  | .local _ .vmem, ⟨10, _⟩ => ⟨S256x256, .f32⟩
  | .local _ .vmem, ⟨11, _⟩ => ⟨S1x256, .f32⟩
  | .local _ .vmem, ⟨12, _⟩ => ⟨S1000x256, .f32⟩
  | .local _ .vmem, ⟨13, _⟩ => ⟨S1000x256, .f32⟩
  | .local _ .vmem, ⟨14, _⟩ => ⟨S256x256, .f32⟩
  | .local _ .vmem, ⟨15, _⟩ => ⟨S256x256, .f32⟩
  | .local _ .vmem, ⟨16, _⟩ => ⟨S1x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S1000x256, .f32⟩
  | .local _ .vmem, ⟨21, _⟩ => ⟨S1000x1, .f32⟩
  | .local _ .vmem, ⟨22, _⟩ => ⟨S1000x1, .f32⟩
  | .local _ .vmem, ⟨23, _⟩ => ⟨S256x256, .f32⟩
  | .local _ .vmem, ⟨24, _⟩ => ⟨S1x256, .f32⟩
  | .local _ .vmem, ⟨25, _⟩ => ⟨S1000x256, .f32⟩
  | .local _ .vmem, ⟨26, _⟩ => ⟨S1000x256, .f32⟩
  | .local _ .vmem, ⟨27, _⟩ => ⟨S256x256, .f32⟩
  | .local _ .vmem, ⟨28, _⟩ => ⟨S256x256, .f32⟩
  | .local _ .vmem, ⟨29, _⟩ => ⟨S1x256, .f32⟩
  | .local _ .vmem, ⟨30, _⟩ => ⟨S1000x256, .f32⟩
  | .local _ .vmem, ⟨31, _⟩ => ⟨S1000x256, .f32⟩
  | .local _ .vmem, ⟨32, _⟩ => ⟨S1000x256, .f32⟩
  | .local _ .vmem, ⟨33, _⟩ => ⟨S1000x256, .f32⟩
  | .local _ .vmem, ⟨34, _⟩ => ⟨S1000x1, .f32⟩
  | .local _ .vmem, ⟨35, _⟩ => ⟨S1000x1, .f32⟩
  | .local _ .vmem, ⟨36, _⟩ => ⟨S256x128, .f32⟩
  | .local _ .vmem, ⟨37, _⟩ => ⟨S1x128, .f32⟩
  | .local _ .vmem, ⟨38, _⟩ => ⟨S1000x256, .f32⟩
  | .local _ .vmem, ⟨39, _⟩ => ⟨S1000x256, .f32⟩
  | .local _ .vmem, ⟨40, _⟩ => ⟨S256x128, .f32⟩
  | .local _ .vmem, ⟨41, _⟩ => ⟨S128x128, .f32⟩
  | .local _ .vmem, ⟨42, _⟩ => ⟨S1x128, .f32⟩
  | .local _ .vmem, ⟨43, _⟩ => ⟨S1000x128, .f32⟩
  | .local _ .vmem, ⟨44, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_cst : Ref sig .tc := ⟨.hbm, 37, rfl⟩
abbrev main_v4 : Ref sig .tc := ⟨.hbm, 38, rfl⟩
abbrev main_cst_0 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_1 : Ref sig .tc := ⟨.hbm, 43, rfl⟩
abbrev main_v8 : Ref sig .tc := ⟨.hbm, 44, rfl⟩
abbrev main_v9 : Ref sig .tc := ⟨.hbm, 45, rfl⟩
abbrev main_cst_2 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_call0_c : Ref sig .tc := ⟨.hbm, 51, rfl⟩
abbrev main_call0_v0 : Ref sig .tc := ⟨.hbm, 52, rfl⟩
abbrev main_call0_v1 : Ref sig .tc := ⟨.hbm, 53, rfl⟩
abbrev main_call0_c_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_c_1 : Ref sig .tc := ⟨.hbm, 59, rfl⟩
abbrev main_call0_c_2 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_3 : Ref sig .tc := ⟨.hbm, 67, rfl⟩
abbrev main_call0_v12 : Ref sig .tc := ⟨.hbm, 68, rfl⟩
abbrev main_call0_v13 : Ref sig .tc := ⟨.hbm, 69, rfl⟩
abbrev main_call0_v14 : Ref sig .tc := ⟨.hbm, 70, rfl⟩
abbrev main_call0_cst : Ref sig .tc := ⟨.hbm, 71, rfl⟩
abbrev main_call0_v15 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_cst_3 : Ref sig .tc := ⟨.hbm, 79, rfl⟩
abbrev main_v20 : Ref sig .tc := ⟨.hbm, 80, rfl⟩
abbrev main_v21 : Ref sig .tc := ⟨.hbm, 81, rfl⟩
abbrev main_cst_4 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_call1_c : Ref sig .tc := ⟨.hbm, 89, rfl⟩
abbrev main_call1_v0 : Ref sig .tc := ⟨.hbm, 90, rfl⟩
abbrev main_call1_v1 : Ref sig .tc := ⟨.hbm, 91, rfl⟩
abbrev main_call1_c_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_c_1 : Ref sig .tc := ⟨.hbm, 97, rfl⟩
abbrev main_call1_c_2 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_c_3 : Ref sig .tc := ⟨.hbm, 105, rfl⟩
abbrev main_call1_v12 : Ref sig .tc := ⟨.hbm, 106, rfl⟩
abbrev main_call1_v13 : Ref sig .tc := ⟨.hbm, 107, rfl⟩
abbrev main_call1_v14 : Ref sig .tc := ⟨.hbm, 108, rfl⟩
abbrev main_call1_cst : Ref sig .tc := ⟨.hbm, 109, rfl⟩
abbrev main_call1_v15 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_v33 : Ref sig .tc := ⟨.hbm, 116, rfl⟩
abbrev main_cst_5 : Ref sig .tc := ⟨.hbm, 117, rfl⟩
abbrev main_v34 : Ref sig .tc := ⟨.hbm, 118, rfl⟩
abbrev main_v35 : Ref sig .tc := ⟨.hbm, 119, rfl⟩
abbrev main_cst_6 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_call2_c : Ref sig .tc := ⟨.hbm, 127, rfl⟩
abbrev main_call2_v0 : Ref sig .tc := ⟨.hbm, 128, rfl⟩
abbrev main_call2_v1 : Ref sig .tc := ⟨.hbm, 129, rfl⟩
abbrev main_call2_c_0 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_v5 : Ref sig .tc := ⟨.hbm, 134, rfl⟩
abbrev main_call2_c_1 : Ref sig .tc := ⟨.hbm, 135, rfl⟩
abbrev main_call2_c_2 : Ref sig .tc := ⟨.hbm, 136, rfl⟩
abbrev main_call2_v6 : Ref sig .tc := ⟨.hbm, 137, rfl⟩
abbrev main_call2_v7 : Ref sig .tc := ⟨.hbm, 138, rfl⟩
abbrev main_call2_v8 : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_c_3 : Ref sig .tc := ⟨.hbm, 143, rfl⟩
abbrev main_call2_v12 : Ref sig .tc := ⟨.hbm, 144, rfl⟩
abbrev main_call2_v13 : Ref sig .tc := ⟨.hbm, 145, rfl⟩
abbrev main_call2_v14 : Ref sig .tc := ⟨.hbm, 146, rfl⟩
abbrev main_call2_cst : Ref sig .tc := ⟨.hbm, 147, rfl⟩
abbrev main_call2_v15 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_cst_7 : Ref sig .tc := ⟨.hbm, 155, rfl⟩
abbrev main_v48 : Ref sig .tc := ⟨.hbm, 156, rfl⟩
abbrev main_v49 : Ref sig .tc := ⟨.hbm, 157, rfl⟩
abbrev main_cst_8 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_cst_9 : Ref sig .tc := ⟨.hbm, 165, rfl⟩
abbrev main_v56 : Ref sig .tc := ⟨.hbm, 166, rfl⟩
abbrev main_v57 : Ref sig .tc := ⟨.hbm, 167, rfl⟩
abbrev main_v58 : Ref sig .tc := ⟨.hbm, 168, rfl⟩
abbrev main_cst_10 : Ref sig .tc := ⟨.hbm, 169, rfl⟩
abbrev main_v59 : Ref sig .tc := ⟨.hbm, 170, rfl⟩
abbrev main_cst_11 : Ref sig .tc := ⟨.hbm, 171, rfl⟩
abbrev main_v60 : Ref sig .tc := ⟨.hbm, 172, rfl⟩
abbrev main_v61 : Ref sig .tc := ⟨.hbm, 173, rfl⟩
abbrev main_v62 : Ref sig .tc := ⟨.hbm, 174, rfl⟩
abbrev main_cst_12 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_cst_13 : Ref sig .tc := ⟨.hbm, 184, rfl⟩
abbrev main_v71 : Ref sig .tc := ⟨.hbm, 185, rfl⟩
abbrev main_cst_14 : Ref sig .tc := ⟨.hbm, 186, rfl⟩
abbrev main_v72 : Ref sig .tc := ⟨.hbm, 187, rfl⟩
abbrev main_v73 : Ref sig .tc := ⟨.hbm, 188, rfl⟩
abbrev main_v74 : Ref sig .tc := ⟨.hbm, 189, rfl⟩
abbrev main_v75 : Ref sig .tc := ⟨.hbm, 190, rfl⟩
abbrev main_v76 : Ref sig .tc := ⟨.hbm, 191, rfl⟩
abbrev main_v77 : Ref sig .tc := ⟨.hbm, 192, rfl⟩
abbrev main_cst_15 : Ref sig .tc := ⟨.hbm, 193, rfl⟩
abbrev main_v78 : Ref sig .tc := ⟨.hbm, 194, rfl⟩
abbrev main_cst_16 : Ref sig .tc := ⟨.hbm, 195, rfl⟩
abbrev main_v79 : Ref sig .tc := ⟨.hbm, 196, rfl⟩
abbrev main_v80 : Ref sig .tc := ⟨.hbm, 197, rfl⟩
abbrev main_v81 : Ref sig .tc := ⟨.hbm, 198, rfl⟩
abbrev main_v82 : Ref sig .tc := ⟨.hbm, 199, rfl⟩
abbrev main_v83 : Ref sig .tc := ⟨.hbm, 200, rfl⟩
abbrev main_v84 : Ref sig .tc := ⟨.hbm, 201, rfl⟩
abbrev main_v85 : Ref sig .tc := ⟨.hbm, 202, rfl⟩
abbrev main_v86 : Ref sig .tc := ⟨.hbm, 203, rfl⟩
abbrev main_cst_17 : Ref sig .tc := ⟨.hbm, 204, rfl⟩
abbrev main_v87 : Ref sig .tc := ⟨.hbm, 205, rfl⟩
abbrev main_v88 : Ref sig .tc := ⟨.hbm, 206, rfl⟩
abbrev main_v89 : Ref sig .tc := ⟨.hbm, 207, rfl⟩
abbrev main_v90 : Ref sig .tc := ⟨.hbm, 208, rfl⟩
abbrev main_v91 : Ref sig .tc := ⟨.hbm, 209, rfl⟩
abbrev main_v92 : Ref sig .tc := ⟨.hbm, 210, rfl⟩
abbrev main_v93 : Ref sig .tc := ⟨.hbm, 211, rfl⟩
abbrev main_v94 : Ref sig .tc := ⟨.hbm, 212, rfl⟩
abbrev main_v95 : Ref sig .tc := ⟨.hbm, 213, rfl⟩
abbrev main_cst_18 : Ref sig .tc := ⟨.hbm, 214, rfl⟩
abbrev main_v96 : Ref sig .tc := ⟨.hbm, 215, rfl⟩
abbrev main_v97 : Ref sig .tc := ⟨.hbm, 216, rfl⟩
abbrev main_cst_19 : Ref sig .tc := ⟨.hbm, 217, rfl⟩
abbrev main_v98 : Ref sig .tc := ⟨.hbm, 218, rfl⟩
abbrev main_v99 : Ref sig .tc := ⟨.hbm, 219, rfl⟩
abbrev main_v100 : Ref sig .tc := ⟨.hbm, 220, rfl⟩
abbrev main_v101 : Ref sig .tc := ⟨.hbm, 221, rfl⟩
abbrev main_v102 : Ref sig .tc := ⟨.hbm, 222, rfl⟩
abbrev main_v103 : Ref sig .tc := ⟨.hbm, 223, rfl⟩
abbrev main_v104 : Ref sig .tc := ⟨.hbm, 224, rfl⟩
abbrev main_call4_cst : Ref sig .tc := ⟨.hbm, 225, rfl⟩
abbrev main_call4_v0 : Ref sig .tc := ⟨.hbm, 226, rfl⟩
abbrev main_v105 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg8_0 : Ref sig .tc := ⟨.vmem, 43, rfl⟩
abbrev cc3_stg8_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem8_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem4_1 : DmaSem sig := 39
abbrev cc3_sem5_0 : DmaSem sig := 40
abbrev cc3_sem6_0 : DmaSem sig := 41
abbrev cc3_sem7_0 : DmaSem sig := 42
abbrev cc3_sem8_0 : DmaSem sig := 43
abbrev cc3_sem8_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000x1 : S_.BroadcastsInDim S320000x1 (![] : Fin 0 → Fin S320000x1.rank)
  bcast_S_S10000x1 : S_.BroadcastsInDim S10000x1 (![] : Fin 0 → Fin S10000x1.rank)
  bcast_S320000_S320000x1_0 : S320000.BroadcastsInDim S320000x1 (![0] : Fin 1 → Fin S320000x1.rank)
  shapeCasts_S256_S1x256 : S256.ShapeCasts S1x256
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S_S320000 : S_.BroadcastsInDim S320000 (![] : Fin 0 → Fin S320000.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S10000x256 : S_.BroadcastsInDim S10000x256 (![] : Fin 0 → Fin S10000x256.rank)
  shapeCasts_S1000x256_S1000x256 : S1000x256.ShapeCasts S1000x256
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S256x256_S256x256_0_0 : ∀ a, (![0, 0] : Fin 2 → Nat) a + S256x256.size a ≤ S256x256.size a
  h_S256x256 : 0 < S256x256.numel
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x128_S128x128_0_0 : ∀ a, (![0, 0] : Fin 2 → Nat) a + S128x128.size a ≤ S128x128.size a
  h_S128x128 : 0 < S128x128.numel
  bcast_S_S64x128 : S_.BroadcastsInDim S64x128 (![] : Fin 0 → Fin S64x128.rank)
  bcast_S10000_S10000x1_0 : S10000.BroadcastsInDim S10000x1 (![0] : Fin 1 → Fin S10000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S1x256_S64x256_0_1 : S1x256.BroadcastsInDim S64x256 (![0, 1] : Fin 2 → Fin S64x256.rank)
  reducesTo_S64x256_S256_d0 : S64x256.ReducesTo [0] S256
  bcast_S_S256 : S_.BroadcastsInDim S256 (![] : Fin 0 → Fin S256.rank)
  bcast_S_S64x256 : S_.BroadcastsInDim S64x256 (![] : Fin 0 → Fin S64x256.rank)
  bcast_S1x1_S64x1_0_1 : S1x1.BroadcastsInDim S64x1 (![0, 1] : Fin 2 → Fin S64x1.rank)
  scatter_S10000x1_S320000x1_S320000x1_1_0_0_1_wf : ScatterDims.WF S10000x1 S320000x1 S320000x1 [1] [0] [0] 1
  dot_S1000x128_S128x256_S1000x256_1_0_0_1_n_n_wf : DotDims.WF S1000x128 S128x256 S1000x256 [1] [0] [0] [1] [] []
  gather_S10000x256_S320000x1_S320000x256_1_0_n_n_0_1_1256_wf : GatherDims.WF S10000x256 S320000x1 S320000x256 [1] [0] [] [0] [] 1 ![1, 256]
  dot_S320000x1_S1x256_S320000x256_1_0_0_1_n_n_wf : DotDims.WF S320000x1 S1x256 S320000x256 [1] [0] [0] [1] [] []
  scatter_S10000x256_S320000x1_S320000x256_1_0_0_1_wf : ScatterDims.WF S10000x256 S320000x1 S320000x256 [1] [0] [0] 1
  dot_S1000x256_S256x256_S1000x256_1_0_0_1_n_n_wf : DotDims.WF S1000x256 S256x256 S1000x256 [1] [0] [0] [1] [] []
  dot_S1000x256_S256x128_S1000x128_1_0_0_1_n_n_wf : DotDims.WF S1000x256 S256x128 S1000x128 [1] [0] [0] [1] [] []
  dot_S1000x128_S128x128_S1000x128_1_0_0_1_n_n_wf : DotDims.WF S1000x128 S128x128 S1000x128 [1] [0] [0] [1] [] []
  scatter_S64x128_S10000x1_S10000x128_1_0_0_1_wf : ScatterDims.WF S64x128 S10000x1 S10000x128 [1] [0] [0] 1
  scatter_S64x1_S10000x1_S10000x1_1_0_0_1_wf : ScatterDims.WF S64x1 S10000x1 S10000x1 [1] [0] [0] 1
  dot_S64x128_S128x256_S64x256_1_0_0_1_n_n_wf : DotDims.WF S64x128 S128x256 S64x256 [1] [0] [0] [1] [] []
  dot_S64x256_S256x1_S64x1_1_0_0_1_n_n_wf : DotDims.WF S64x256 S256x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S10000x1.size a
  hwx1_1 : ∀ i : grid1.Coords, EltTy.bits .f32 = 32 ∨ (Rect.block (s := S10000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x256.size a ≤ S10000x256.size a
  hwx1_4 : ∀ i : grid1.Coords, EltTy.bits .f32 = 32 ∨ (Rect.block (s := S10000x256) S1000x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x256.size a ≤ S10000x256.size a
  hwx1_8 : ∀ i : grid1.Coords, EltTy.bits .f32 = 32 ∨ (Rect.block (s := S10000x256) S1000x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S10000x256.size a
  hwx2_0 : ∀ i : grid2.Coords, EltTy.bits .f32 = 32 ∨ (Rect.block (s := S10000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S10000x1.size a
  hwx2_1 : ∀ i : grid2.Coords, EltTy.bits .f32 = 32 ∨ (Rect.block (s := S10000x1) S1000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x256.size a ≤ S10000x256.size a
  hwx2_4 : ∀ i : grid2.Coords, EltTy.bits .f32 = 32 ∨ (Rect.block (s := S10000x256) S1000x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1000x256.size a ≤ S10000x256.size a
  hwx2_8 : ∀ i : grid2.Coords, EltTy.bits .f32 = 32 ∨ (Rect.block (s := S10000x256) S1000x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S10000x256.size a
  hwx3_0 : ∀ i : grid3.Coords, EltTy.bits .f32 = 32 ∨ (Rect.block (s := S10000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S10000x1.size a
  hwx3_1 : ∀ i : grid3.Coords, EltTy.bits .f32 = 32 ∨ (Rect.block (s := S10000x1) S1000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x256.size a ≤ S10000x256.size a
  hwx3_4 : ∀ i : grid3.Coords, EltTy.bits .f32 = 32 ∨ (Rect.block (s := S10000x256) S1000x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1000x128.size a ≤ S10000x128.size a
  hwx3_8 : ∀ i : grid3.Coords, EltTy.bits .f32 = 32 ∨ (Rect.block (s := S10000x128) S1000x128.size (cc3_transform_8 i) (hinb3_8 i)).WholeWords (EltTy.packing .f32)

variable [Facts₀]

def scatter_S10000x1_S320000x1_S320000x1_1_0_0_1 : ScatterDims S10000x1 S320000x1 S320000x1 where
  updateWindowDims := [1]
  insertedWindowDims := [0]
  scatterDimsToOperandDims := [0]
  indexVectorDim := 1
  wf := scatter_S10000x1_S320000x1_S320000x1_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x1_S1x256_S320000x256_1_0_0_1_n_n : DotDims S320000x1 S1x256 S320000x256 where
  lhsContracting := [1]
  rhsContracting := [0]
  lhsNonContracting := [0]
  rhsNonContracting := [1]
  lhsBatch := []
  rhsBatch := []
  wf := dot_S320000x1_S1x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64x1_S10000x1_S10000x1_1_0_0_1 : ScatterDims S64x1 S10000x1 S10000x1 where
  updateWindowDims := [1]
  insertedWindowDims := [0]
  scatterDimsToOperandDims := [0]
  indexVectorDim := 1
  wf := scatter_S64x1_S10000x1_S10000x1_1_0_0_1_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1000x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg21) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S1000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v38) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1000x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg23) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v41) S1000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v52) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S1000x256.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S256x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg25) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v54) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v55) S1000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S320000x1 : Shape := ⟨2, ![320000, 1]⟩
abbrev S10000 : Shape := ⟨1, ![10000]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S256x128 : Shape := ⟨2, ![256, 128]⟩
abbrev S128 : Shape := ⟨1, ![128]⟩
abbrev S128x128 : Shape := ⟨2, ![128, 128]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S10000x256 : Shape := ⟨2, ![10000, 256]⟩
abbrev S_ : Shape := ⟨0, ![]⟩
abbrev S320000x256 : Shape := ⟨2, ![320000, 256]⟩
abbrev S10000x1 : Shape := ⟨2, ![10000, 1]⟩
abbrev S1x128 : Shape := ⟨2, ![1, 128]⟩
abbrev S64x128 : Shape := ⟨2, ![64, 128]⟩
abbrev S64x1 : Shape := ⟨2, ![64, 1]⟩
abbrev S64x256 : Shape := ⟨2, ![64, 256]⟩
abbrev S1x1 : Shape := ⟨2, ![1, 1]⟩

abbrev nBuf : Space → Nat
  | .hbm => 263
  | .vmem => 0
  | .smem => 0
  | _ => 0

abbrev hbmTy0_0 (i : Nat) : BufTy := match i % 128 with
  | 0 => ⟨S10000x128, .f32⟩
  | 1 => ⟨S2x320000, .i32⟩
  | 2 => ⟨S320000x1, .f32⟩
  | 3 => ⟨S10000, .i32⟩
  | 4 => ⟨S128x256, .f32⟩
  | 5 => ⟨S256, .f32⟩
  | 6 => ⟨S256x256, .f32⟩
  | 7 => ⟨S256, .f32⟩
  | 8 => ⟨S256x256, .f32⟩
  | 9 => ⟨S1x256, .f32⟩
  | 10 => ⟨S256, .f32⟩
  | 11 => ⟨S256x256, .f32⟩
  | 12 => ⟨S256, .f32⟩
  | 13 => ⟨S256x256, .f32⟩
  | 14 => ⟨S1x256, .f32⟩
  | 15 => ⟨S256, .f32⟩
  | 16 => ⟨S256x128, .f32⟩
  | 17 => ⟨S128, .f32⟩
  | 18 => ⟨S256x128, .f32⟩
  | 19 => ⟨S1x256, .f32⟩
  | 20 => ⟨S256, .f32⟩
  | 21 => ⟨S256x256, .f32⟩
  | 22 => ⟨S256, .f32⟩
  | 23 => ⟨S256x256, .f32⟩
  | 24 => ⟨S256, .f32⟩
  | 25 => ⟨S128x128, .f32⟩
  | 26 => ⟨S128, .f32⟩
  | 27 => ⟨S128x256, .f32⟩
  | 28 => ⟨S256, .f32⟩
  | 29 => ⟨S256x1, .f32⟩
  | 30 => ⟨S1, .f32⟩
  | 31 => ⟨S256, .f32⟩
  | 32 => ⟨S256, .f32⟩
  | 33 => ⟨S1x320000, .i32⟩
  | 34 => ⟨S320000, .i32⟩
  | 35 => ⟨S1x320000, .i32⟩
  | 36 => ⟨S320000, .i32⟩
  | 37 => ⟨S10000x256, .f32⟩
  | 38 => ⟨S1x256, .f32⟩
  | 39 => ⟨S10000x256, .f32⟩
  | 40 => ⟨S10000x256, .f32⟩
  | 41 => ⟨S_, .f32⟩
  | 42 => ⟨S10000x256, .f32⟩
  | 43 => ⟨S10000x256, .f32⟩
  | 44 => ⟨S320000x256, .f32⟩
  | 45 => ⟨S1x256, .f32⟩
  | 46 => ⟨S320000x256, .f32⟩
  | 47 => ⟨S320000x256, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000x256, .f32⟩
  | 57 => ⟨S320000x256, .f32⟩
  | 58 => ⟨S_, .f32⟩
  | 59 => ⟨S320000x256, .f32⟩
  | 60 => ⟨S320000x256, .f32⟩
  | 61 => ⟨S_, .f32⟩
  | 62 => ⟨S10000x256, .f32⟩
  | 63 => ⟨S320000x1, .i32⟩
  | 64 => ⟨S10000x256, .f32⟩
  | 65 => ⟨S_, .f32⟩
  | 66 => ⟨S320000x1, .f32⟩
  | 67 => ⟨S_, .f32⟩
  | 68 => ⟨S10000x1, .f32⟩
  | 69 => ⟨S320000x1, .i32⟩
  | 70 => ⟨S10000x1, .f32⟩
  | 71 => ⟨S_, .f32⟩
  | 72 => ⟨S10000x1, .f32⟩
  | 73 => ⟨S10000x1, .f32⟩
  | 74 => ⟨S10000x256, .f32⟩
  | 75 => ⟨S10000x256, .f32⟩
  | 76 => ⟨S10000x256, .f32⟩
  | 77 => ⟨S1x256, .f32⟩
  | 78 => ⟨S10000x256, .f32⟩
  | 79 => ⟨S10000x256, .f32⟩
  | 80 => ⟨S10000x256, .f32⟩
  | 81 => ⟨S10000x256, .f32⟩
  | 82 => ⟨S_, .f32⟩
  | 83 => ⟨S10000x256, .f32⟩
  | 84 => ⟨S10000x256, .f32⟩
  | 85 => ⟨S10000x256, .f32⟩
  | 86 => ⟨S1x256, .f32⟩
  | 87 => ⟨S10000x256, .f32⟩
  | 88 => ⟨S10000x256, .f32⟩
  | 89 => ⟨S_, .f32⟩
  | 90 => ⟨S10000x256, .f32⟩
  | 91 => ⟨S10000x256, .i1⟩
  | 92 => ⟨S_, .f32⟩
  | 93 => ⟨S10000x256, .f32⟩
  | 94 => ⟨S10000x256, .f32⟩
  | 95 => ⟨S10000x256, .f32⟩
  | 96 => ⟨S320000x256, .f32⟩
  | 97 => ⟨S1x256, .f32⟩
  | 98 => ⟨S320000x256, .f32⟩
  | 99 => ⟨S320000x256, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S320000x256, .f32⟩
  | 109 => ⟨S320000x256, .f32⟩
  | 110 => ⟨S_, .f32⟩
  | 111 => ⟨S320000x256, .f32⟩
  | 112 => ⟨S320000x256, .f32⟩
  | 113 => ⟨S_, .f32⟩
  | 114 => ⟨S10000x256, .f32⟩
  | 115 => ⟨S320000x1, .i32⟩
  | 116 => ⟨S10000x256, .f32⟩
  | 117 => ⟨S_, .f32⟩
  | 118 => ⟨S320000x1, .f32⟩
  | 119 => ⟨S_, .f32⟩
  | 120 => ⟨S10000x1, .f32⟩
  | 121 => ⟨S320000x1, .i32⟩
  | 122 => ⟨S10000x1, .f32⟩
  | 123 => ⟨S_, .f32⟩
  | 124 => ⟨S10000x1, .f32⟩
  | 125 => ⟨S10000x1, .f32⟩
  | 126 => ⟨S10000x256, .f32⟩
  | 127 => ⟨S10000x256, .f32⟩
  | _ => ⟨S10000x128, .f32⟩

abbrev hbmTy0_1 (i : Nat) : BufTy := match i % 128 with
  | 0 => ⟨S10000x256, .f32⟩
  | 1 => ⟨S1x256, .f32⟩
  | 2 => ⟨S10000x256, .f32⟩
  | 3 => ⟨S10000x256, .f32⟩
  | 4 => ⟨S10000x256, .f32⟩
  | 5 => ⟨S10000x256, .f32⟩
  | 6 => ⟨S_, .f32⟩
  | 7 => ⟨S10000x256, .f32⟩
  | 8 => ⟨S10000x256, .f32⟩
  | 9 => ⟨S10000x256, .f32⟩
  | 10 => ⟨S1x256, .f32⟩
  | 11 => ⟨S10000x256, .f32⟩
  | 12 => ⟨S10000x256, .f32⟩
  | 13 => ⟨S_, .f32⟩
  | 14 => ⟨S10000x256, .f32⟩
  | 15 => ⟨S10000x256, .i1⟩
  | 16 => ⟨S_, .f32⟩
  | 17 => ⟨S10000x256, .f32⟩
  | 18 => ⟨S10000x256, .f32⟩
  | 19 => ⟨S10000x256, .f32⟩
  | 20 => ⟨S320000x256, .f32⟩
  | 21 => ⟨S1x256, .f32⟩
  | 22 => ⟨S320000x256, .f32⟩
  | 23 => ⟨S320000x256, .f32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000x256, .f32⟩
  | 33 => ⟨S320000x256, .f32⟩
  | 34 => ⟨S_, .f32⟩
  | 35 => ⟨S320000x256, .f32⟩
  | 36 => ⟨S320000x256, .f32⟩
  | 37 => ⟨S_, .f32⟩
  | 38 => ⟨S10000x256, .f32⟩
  | 39 => ⟨S320000x1, .i32⟩
  | 40 => ⟨S10000x256, .f32⟩
  | 41 => ⟨S_, .f32⟩
  | 42 => ⟨S320000x1, .f32⟩
  | 43 => ⟨S_, .f32⟩
  | 44 => ⟨S10000x1, .f32⟩
  | 45 => ⟨S320000x1, .i32⟩
  | 46 => ⟨S10000x1, .f32⟩
  | 47 => ⟨S_, .f32⟩
  | 48 => ⟨S10000x1, .f32⟩
  | 49 => ⟨S10000x1, .f32⟩
  | 50 => ⟨S10000x256, .f32⟩
  | 51 => ⟨S10000x256, .f32⟩
  | 52 => ⟨S10000x128, .f32⟩
  | 53 => ⟨S1x128, .f32⟩
  | 54 => ⟨S10000x128, .f32⟩
  | 55 => ⟨S10000x128, .f32⟩
  | 56 => ⟨S10000x128, .f32⟩
  | 57 => ⟨S10000x128, .f32⟩
  | 58 => ⟨S_, .f32⟩
  | 59 => ⟨S10000x128, .f32⟩
  | 60 => ⟨S10000x128, .f32⟩
  | 61 => ⟨S10000x128, .f32⟩
  | 62 => ⟨S1x128, .f32⟩
  | 63 => ⟨S10000x128, .f32⟩
  | 64 => ⟨S10000x128, .f32⟩
  | 65 => ⟨S_, .f32⟩
  | 66 => ⟨S10000x128, .f32⟩
  | 67 => ⟨S10000x128, .i1⟩
  | 68 => ⟨S_, .f32⟩
  | 69 => ⟨S10000x128, .f32⟩
  | 70 => ⟨S10000x128, .f32⟩
  | 71 => ⟨S10000x128, .f32⟩
  | 72 => ⟨S_, .f32⟩
  | 73 => ⟨S64x128, .f32⟩
  | 74 => ⟨S10000x1, .i32⟩
  | 75 => ⟨S64x128, .f32⟩
  | 76 => ⟨S_, .f32⟩
  | 77 => ⟨S10000x1, .f32⟩
  | 78 => ⟨S_, .f32⟩
  | 79 => ⟨S64x1, .f32⟩
  | 80 => ⟨S10000x1, .i32⟩
  | 81 => ⟨S64x1, .f32⟩
  | 82 => ⟨S_, .f32⟩
  | 83 => ⟨S64x1, .f32⟩
  | 84 => ⟨S64x1, .f32⟩
  | 85 => ⟨S64x128, .f32⟩
  | 86 => ⟨S64x128, .f32⟩
  | 87 => ⟨S64x256, .f32⟩
  | 88 => ⟨S1x256, .f32⟩
  | 89 => ⟨S64x256, .f32⟩
  | 90 => ⟨S64x256, .f32⟩
  | 91 => ⟨S_, .f32⟩
  | 92 => ⟨S256, .f32⟩
  | 93 => ⟨S_, .f32⟩
  | 94 => ⟨S256, .f32⟩
  | 95 => ⟨S256, .f32⟩
  | 96 => ⟨S1x256, .f32⟩
  | 97 => ⟨S64x256, .f32⟩
  | 98 => ⟨S64x256, .f32⟩
  | 99 => ⟨S64x256, .f32⟩
  | 100 => ⟨S_, .f32⟩
  | 101 => ⟨S256, .f32⟩
  | 102 => ⟨S_, .f32⟩
  | 103 => ⟨S256, .f32⟩
  | 104 => ⟨S256, .f32⟩
  | 105 => ⟨S1x256, .f32⟩
  | 106 => ⟨S64x256, .f32⟩
  | 107 => ⟨S64x256, .f32⟩
  | 108 => ⟨S1x256, .f32⟩
  | 109 => ⟨S64x256, .f32⟩
  | 110 => ⟨S64x256, .f32⟩
  | 111 => ⟨S_, .f32⟩
  | 112 => ⟨S256, .f32⟩
  | 113 => ⟨S256, .f32⟩
  | 114 => ⟨S256, .f32⟩
  | 115 => ⟨S1x256, .f32⟩
  | 116 => ⟨S64x256, .f32⟩
  | 117 => ⟨S64x256, .f32⟩
  | 118 => ⟨S1x256, .f32⟩
  | 119 => ⟨S64x256, .f32⟩
  | 120 => ⟨S64x256, .f32⟩
  | 121 => ⟨S_, .f32⟩
  | 122 => ⟨S64x256, .f32⟩
  | 123 => ⟨S64x256, .i1⟩
  | 124 => ⟨S_, .f32⟩
  | 125 => ⟨S64x256, .f32⟩
  | 126 => ⟨S64x256, .f32⟩
  | 127 => ⟨S64x256, .f32⟩
  | _ => ⟨S10000x128, .f32⟩

abbrev hbmTy0_2 (i : Nat) : BufTy := match i % 128 with
  | 0 => ⟨S64x1, .f32⟩
  | 1 => ⟨S1x1, .f32⟩
  | 2 => ⟨S64x1, .f32⟩
  | 3 => ⟨S64x1, .f32⟩
  | 4 => ⟨S_, .f32⟩
  | 5 => ⟨S64x1, .f32⟩
  | 6 => ⟨S64x1, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_call0_cst : Ref sig .tc := ⟨.hbm, 41, rfl⟩
abbrev main_call0_v0 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_c : Ref sig .tc := ⟨.hbm, 48, rfl⟩
abbrev main_v13 : Ref sig .tc := ⟨.hbm, 49, rfl⟩
abbrev main_v14 : Ref sig .tc := ⟨.hbm, 50, rfl⟩
abbrev main_c_0 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_call1_cst : Ref sig .tc := ⟨.hbm, 58, rfl⟩
abbrev main_call1_v0 : Ref sig .tc := ⟨.hbm, 59, rfl⟩
abbrev main_v21 : Ref sig .tc := ⟨.hbm, 60, rfl⟩
abbrev main_cst : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_1 : Ref sig .tc := ⟨.hbm, 65, rfl⟩
abbrev main_v25 : Ref sig .tc := ⟨.hbm, 66, rfl⟩
abbrev main_cst_2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_3 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_call2_cst : Ref sig .tc := ⟨.hbm, 82, rfl⟩
abbrev main_call2_v0 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_4 : Ref sig .tc := ⟨.hbm, 89, rfl⟩
abbrev main_v44 : Ref sig .tc := ⟨.hbm, 90, rfl⟩
abbrev main_v45 : Ref sig .tc := ⟨.hbm, 91, rfl⟩
abbrev main_cst_5 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_c_6 : Ref sig .tc := ⟨.hbm, 100, rfl⟩
abbrev main_v53 : Ref sig .tc := ⟨.hbm, 101, rfl⟩
abbrev main_v54 : Ref sig .tc := ⟨.hbm, 102, rfl⟩
abbrev main_c_7 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_call4_cst : Ref sig .tc := ⟨.hbm, 110, rfl⟩
abbrev main_call4_v0 : Ref sig .tc := ⟨.hbm, 111, rfl⟩
abbrev main_v61 : Ref sig .tc := ⟨.hbm, 112, rfl⟩
abbrev main_cst_8 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_9 : Ref sig .tc := ⟨.hbm, 117, rfl⟩
abbrev main_v65 : Ref sig .tc := ⟨.hbm, 118, rfl⟩
abbrev main_cst_10 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_cst_11 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_call5_cst : Ref sig .tc := ⟨.hbm, 134, rfl⟩
abbrev main_call5_v0 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_12 : Ref sig .tc := ⟨.hbm, 141, rfl⟩
abbrev main_v84 : Ref sig .tc := ⟨.hbm, 142, rfl⟩
abbrev main_v85 : Ref sig .tc := ⟨.hbm, 143, rfl⟩
abbrev main_cst_13 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_c_14 : Ref sig .tc := ⟨.hbm, 152, rfl⟩
abbrev main_v93 : Ref sig .tc := ⟨.hbm, 153, rfl⟩
abbrev main_v94 : Ref sig .tc := ⟨.hbm, 154, rfl⟩
abbrev main_c_15 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_call7_cst : Ref sig .tc := ⟨.hbm, 162, rfl⟩
abbrev main_call7_v0 : Ref sig .tc := ⟨.hbm, 163, rfl⟩
abbrev main_v101 : Ref sig .tc := ⟨.hbm, 164, rfl⟩
abbrev main_cst_16 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_cst_17 : Ref sig .tc := ⟨.hbm, 169, rfl⟩
abbrev main_v105 : Ref sig .tc := ⟨.hbm, 170, rfl⟩
abbrev main_cst_18 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_cst_19 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_call8_cst : Ref sig .tc := ⟨.hbm, 186, rfl⟩
abbrev main_call8_v0 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_cst_20 : Ref sig .tc := ⟨.hbm, 193, rfl⟩
abbrev main_v124 : Ref sig .tc := ⟨.hbm, 194, rfl⟩
abbrev main_v125 : Ref sig .tc := ⟨.hbm, 195, rfl⟩
abbrev main_cst_21 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_cst_22 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_cst_23 : Ref sig .tc := ⟨.hbm, 204, rfl⟩
abbrev main_v132 : Ref sig .tc := ⟨.hbm, 205, rfl⟩
abbrev main_cst_24 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_cst_25 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_cst_26 : Ref sig .tc := ⟨.hbm, 219, rfl⟩
abbrev main_v144 : Ref sig .tc := ⟨.hbm, 220, rfl⟩
abbrev main_cst_27 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_cst_28 : Ref sig .tc := ⟨.hbm, 228, rfl⟩
abbrev main_v151 : Ref sig .tc := ⟨.hbm, 229, rfl⟩
abbrev main_cst_29 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_cst_30 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_cst_31 : Ref sig .tc := ⟨.hbm, 249, rfl⟩
abbrev main_v169 : Ref sig .tc := ⟨.hbm, 250, rfl⟩
abbrev main_v170 : Ref sig .tc := ⟨.hbm, 251, rfl⟩
abbrev main_cst_32 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_call11_cst : Ref sig .tc := ⟨.hbm, 260, rfl⟩
abbrev main_call11_v0 : Ref sig .tc := ⟨.hbm, 261, rfl⟩
abbrev main_v178 : Ref sig .tc := ⟨.hbm, 262, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S1x256_S320000x256_0_1 : S1x256.BroadcastsInDim S320000x256 (![0, 1] : Fin 2 → Fin S320000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x256 : S_.BroadcastsInDim S320000x256 (![] : Fin 0 → Fin S320000x256.rank)
  bcast_S_S320000x1 : S_.BroadcastsInDim S320000x1 (![] : Fin 0 → Fin S320000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S_S64x128 : S_.BroadcastsInDim S64x128 (![] : Fin 0 → Fin S64x128.rank)
  bcast_S10000_S10000x1_0 : S10000.BroadcastsInDim S10000x1 (![0] : Fin 1 → Fin S10000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S1x256_S64x256_0_1 : S1x256.BroadcastsInDim S64x256 (![0, 1] : Fin 2 → Fin S64x256.rank)
  reducesTo_S64x256_S256_d0 : S64x256.ReducesTo [0] S256
  h_S_ : 0 < S_.numel
  bcast_S_S256 : S_.BroadcastsInDim S256 (![] : Fin 0 → Fin S256.rank)
  bcast_S_S64x256 : S_.BroadcastsInDim S64x256 (![] : Fin 0 → Fin S64x256.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S10000x128_S128x256_S10000x256_1_0_0_1_n_n_wf : DotDims.WF S10000x128 S128x256 S10000x256 [1] [0] [0] [1] [] []
  dot_S320000x1_S1x256_S320000x256_1_0_0_1_n_n_wf : DotDims.WF S320000x1 S1x256 S320000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000x1_S320000x1_S320000x1_1_0_0_1_wf : ScatterDims.WF S10000x1 S320000x1 S320000x1 [1] [0] [0] 1
  dot_S10000x256_S256x256_S10000x256_1_0_0_1_n_n_wf : DotDims.WF S10000x256 S256x256 S10000x256 [1] [0] [0] [1] [] []
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []
  scatter_S64x128_S10000x1_S10000x128_1_0_0_1_wf : ScatterDims.WF S64x128 S10000x1 S10000x128 [1] [0] [0] 1
  scatter_S64x1_S10000x1_S10000x1_1_0_0_1_wf : ScatterDims.WF S64x1 S10000x1 S10000x1 [1] [0] [0] 1
  dot_S64x128_S128x256_S64x256_1_0_0_1_n_n_wf : DotDims.WF S64x128 S128x256 S64x256 [1] [0] [0] [1] [] []
  dot_S64x256_S256x1_S64x1_1_0_0_1_n_n_wf : DotDims.WF S64x256 S256x1 S64x1 [1] [0] [0] [1] [] []

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S320000x1_S1x256_S320000x256_1_0_0_1_n_n : DotDims S320000x1 S1x256 S320000x256 where
  lhsContracting := [1]
  rhsContracting := [0]
  lhsNonContracting := [0]
  rhsNonContracting := [1]
  lhsBatch := []
  rhsBatch := []
  wf := dot_S320000x1_S1x256_S320000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000x1_S320000x1_S320000x1_1_0_0_1 : ScatterDims S10000x1 S320000x1 S320000x1 where
  updateWindowDims := [1]
  insertedWindowDims := [0]
  scatterDimsToOperandDims := [0]
  indexVectorDim := 1
  wf := scatter_S10000x1_S320000x1_S320000x1_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64x1_S10000x1_S10000x1_1_0_0_1 : ScatterDims S64x1 S10000x1 S10000x1 where
  updateWindowDims := [1]
  insertedWindowDims := [0]
  scatterDimsToOperandDims := [0]
  indexVectorDim := 1
  wf := scatter_S64x1_S10000x1_S10000x1_1_0_0_1_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

class Facts : Prop extends Facts₀ where

variable [Facts]
-- ==== Proof.SharedR.lean ====
/-
  The network, layer by layer, as whole-array functions over the reference program's shape records: the edge list's
  rows, a node's in-degree, the message sum of one graph convolution, the dense part of a convolution fused with the
  linear layer after it, and the graph-level tail (mean pool, linear, batch norm, leaky relu, readout).
-/
import proofs.«403348_j26843545600712_3_alg».proof.Proof.Gen.ReferenceIdeal

noncomputable section

namespace Cert.Bridge.R

open Cert.ReferenceIdeal Cert.ReferenceIdeal.Gen Idealize.ShloMosaic Idealize.ShloMosaic.TcCoe

variable {F : FTy → Type} [FloatOps F]

/-- Row 0 of the edge list: each edge's source node. -/
def srcRow (ei : IVec S2x320000 32) : IVec S320000 32 :=
  shapeCast _ (extractStridedSlice S1x320000 ![0, 0] ei slices_S2x320000_S1x320000_0_0) shapeCasts_S1x320000_S320000

/-- Row 1 of the edge list: each edge's destination node. -/
def dstRow (ei : IVec S2x320000 32) : IVec S320000 32 :=
  shapeCast _ (extractStridedSlice S1x320000 ![1, 0] ei slices_S2x320000_S1x320000_1_0) shapeCasts_S1x320000_S320000

/-- A source index counted from the end (negative) is moved up by the number of nodes. -/
def srcWrapped (ei : IVec S2x320000 32) : IVec S320000 32 :=
  select (cmpi .slt (srcRow ei) (broadcastInDim S320000 ![] bcast_S_S320000 (constantI S_ 32 0#32)))
    (addi (srcRow ei) (broadcastInDim S320000 ![] bcast_S_S320000 (constantI S_ 32 10000#32))) (srcRow ei)

/-- The wrapped sources as a column of start indices. -/
def srcCol (ei : IVec S2x320000 32) : IVec S320000x1 32 :=
  broadcastInDim S320000x1 ![0] bcast_S320000_S320000x1_0 (srcWrapped ei)

/-- The destinations as a column of scatter indices. -/
def dstCol (ei : IVec S2x320000 32) : IVec S320000x1 32 :=
  broadcastInDim S320000x1 ![0] bcast_S320000_S320000x1_0 (dstRow ei)

/-- The number of edges into each node, and 1 where there is none. -/
def degree (dcol : IVec S320000x1 32) : FVec F S10000x1 .f32 :=
  maximumf (Host.scatterAdd scatter_S10000x1_S320000x1_S320000x1_1_0_0_1 (broadcastInDim S10000x1 ![] bcast_S_S10000x1 (constant S_ .f32 0x00000000#32)) dcol (broadcastInDim S320000x1 ![] bcast_S_S320000x1 (constant S_ .f32 0x3F800000#32))) (broadcastInDim S10000x1 ![] bcast_S_S10000x1 (constant S_ .f32 0x3F800000#32))

/-- The edge feature's linear image, one row per edge: `ea · we + be`. -/
def edgeTerm (ea : FVec F S320000x1 .f32) (we : FVec F S1x256 .f32) (be : FVec F S256 .f32) : FVec F S320000x256 .f32 :=
  addf (Host.dotGeneral dot_S320000x1_S1x256_S320000x256_1_0_0_1_n_n none ea we) (broadcastInDim S320000x256 ![0, 1] bcast_S1x256_S320000x256_0_1 (broadcastInDim S1x256 ![1] bcast_S256_S1x256_1 be))

/-- The messages `relu (rows + edgeTerm)`, summed into their destination nodes. -/
def edgeSumOf (rows : FVec F S320000x256 .f32) (dcol : IVec S320000x1 32) (ea : FVec F S320000x1 .f32) (we : FVec F S1x256 .f32)
    (be : FVec F S256 .f32) : FVec F S10000x256 .f32 :=
  Host.scatterAdd scatter_S10000x256_S320000x1_S320000x256_1_0_0_1 (broadcastInDim S10000x256 ![] bcast_S_S10000x256 (constant S_ .f32 0x00000000#32)) dcol
    (maximumf (addf rows (edgeTerm ea we be)) (broadcastInDim S320000x256 ![] bcast_S_S320000x256 (constant S_ .f32 0x00000000#32)))

/-- Row `scol e` of `h` for every edge `e` (the start index clamped into the table, as the gather does). -/
def gatherRows (h : FVec F S10000x256 .f32) (scol : IVec S320000x1 32) : FVec F S320000x256 .f32 :=
  Host.gather gather_S10000x256_S320000x1_S320000x256_1_0_n_n_0_1_1256 h scol

/-- Mean of the node rows of each graph (`bidx` names a node's graph; an empty graph divides by 1). -/
def poolMean (h3 : FVec F S10000x128 .f32) (bidx : IVec S10000 32) : FVec F S64x128 .f32 :=
  Host.divf (Host.scatterAdd scatter_S64x128_S10000x1_S10000x128_1_0_0_1 (broadcastInDim S64x128 ![] bcast_S_S64x128 (constant S_ .f32 0x00000000#32)) (broadcastInDim S10000x1 ![0] bcast_S10000_S10000x1_0 bidx) h3)
    (broadcastInDim S64x128 ![0, 1] bcast_S64x1_S64x128_0_1
      (maximumf (Host.scatterAdd scatter_S64x1_S10000x1_S10000x1_1_0_0_1 (broadcastInDim S64x1 ![] bcast_S_S64x1 (constant S_ .f32 0x00000000#32)) (broadcastInDim S10000x1 ![0] bcast_S10000_S10000x1_0 bidx) (broadcastInDim S10000x1 ![] bcast_S_S10000x1 (constant S_ .f32 0x3F800000#32))) (broadcastInDim S64x1 ![] bcast_S_S64x1 (constant S_ .f32 0x3F800000#32))))

/-- The pooled rows through the output linear layer. -/
def headLin (p : FVec F S64x128 .f32) (ohw : FVec F S128x256 .f32) (ohb : FVec F S256 .f32) : FVec F S64x256 .f32 :=
  addf (Host.dotGeneral dot_S64x128_S128x256_S64x256_1_0_0_1_n_n none p ohw) (broadcastInDim S64x256 ![0, 1] bcast_S1x256_S64x256_0_1 (broadcastInDim S1x256 ![1] bcast_S256_S1x256_1 ohb))

/-- Column means over the 64 graphs. -/
def colMean (g : FVec F S64x256 .f32) : FVec F S256 .f32 :=
  Host.divf (Host.reduceAdd g (constant S_ .f32 0x00000000#32) reducesTo_S64x256_S256_d0 h_S_)
    (broadcastInDim S256 ![] bcast_S_S256 (constant S_ .f32 0x42800000#32))

/-- `g` with its column means taken off. -/
def centred (g : FVec F S64x256 .f32) : FVec F S64x256 .f32 :=
  subf g (broadcastInDim S64x256 ![0, 1] bcast_S1x256_S64x256_0_1 (broadcastInDim S1x256 ![1] bcast_S256_S1x256_1 (colMean g)))

/-- Batch normalisation over the 64 graphs, with scale `gamma` and shift `beta`. -/
def batchNorm (g : FVec F S64x256 .f32) (gamma beta : FVec F S256 .f32) : FVec F S64x256 .f32 :=
  addf (Host.divf (mulf (broadcastInDim S64x256 ![0, 1] bcast_S1x256_S64x256_0_1 (broadcastInDim S1x256 ![1] bcast_S256_S1x256_1 gamma)) (centred g))
      (broadcastInDim S64x256 ![0, 1] bcast_S1x256_S64x256_0_1 (broadcastInDim S1x256 ![1] bcast_S256_S1x256_1 (Host.sqrt (addf (colMean (mulf (centred g) (centred g))) (broadcastInDim S256 ![] bcast_S_S256 (constant S_ .f32 0x3727C5AC#32)))))))
    (broadcastInDim S64x256 ![0, 1] bcast_S1x256_S64x256_0_1 (broadcastInDim S1x256 ![1] bcast_S256_S1x256_1 beta))

/-- `a` where it is nonnegative, a hundredth of it elsewhere. -/
def leaky64 (a : FVec F S64x256 .f32) : FVec F S64x256 .f32 :=
  select (cmpf .oge a (broadcastInDim S64x256 ![] bcast_S_S64x256 (constant S_ .f32 0x00000000#32))) a (mulf (broadcastInDim S64x256 ![] bcast_S_S64x256 (constant S_ .f32 0x3C23D70A#32)) a)

/-- The readout: one number per graph. -/
def readout (g : FVec F S64x256 .f32) (h1w : FVec F S256x1 .f32) (h1b : FVec F S1 .f32) : FVec F S64x1 .f32 :=
  maximumf (addf (Host.dotGeneral dot_S64x256_S256x1_S64x1_1_0_0_1_n_n none g h1w)
      (broadcastInDim S64x1 ![0, 1] bcast_S1x1_S64x1_0_1 (broadcastInDim S1x1 ![1] bcast_S1_S1x1_1 h1b))) (broadcastInDim S64x1 ![] bcast_S_S64x1 (constant S_ .f32 0x00000000#32))

/-- Everything after the last graph convolution. -/
def tail (h3 : FVec F S10000x128 .f32) (bidx : IVec S10000 32) (ohw : FVec F S128x256 .f32) (ohb : FVec F S256 .f32)
    (h1w : FVec F S256x1 .f32) (h1b : FVec F S1 .f32) (gamma beta : FVec F S256 .f32) : FVec F S64x1 .f32 :=
  readout (leaky64 (batchNorm (headLin (poolMean h3 bidx) ohw ohb) gamma beta)) h1w h1b

/-- The input layer: `relu (x · w + b)`. -/
def lin (x : FVec F S10000x128 .f32) (w : FVec F S128x256 .f32) (b : FVec F S256 .f32) : FVec F S10000x256 .f32 :=
  maximumf (addf (Host.dotGeneral dot_S10000x128_S128x256_S10000x256_1_0_0_1_n_n none x w) (broadcastInDim S10000x256 ![0, 1] bcast_S1x256_S10000x256_0_1 (broadcastInDim S1x256 ![1] bcast_S256_S1x256_1 b))) (broadcastInDim S10000x256 ![] bcast_S_S10000x256 (constant S_ .f32 0x00000000#32))

/-- A convolution's dense part before its relu: `(s / deg) · wl + bl + h · wr`. -/
def conv256 (s : FVec F S10000x256 .f32) (deg : FVec F S10000x1 .f32) (wl : FVec F S256x256 .f32) (bl : FVec F S256 .f32)
    (h : FVec F S10000x256 .f32) (wr : FVec F S256x256 .f32) : FVec F S10000x256 .f32 :=
  addf (addf (Host.dotGeneral dot_S10000x256_S256x256_S10000x256_1_0_0_1_n_n none
        (Host.divf s (broadcastInDim S10000x256 ![0, 1] bcast_S10000x1_S10000x256_0_1 deg)) wl) (broadcastInDim S10000x256 ![0, 1] bcast_S1x256_S10000x256_0_1 (broadcastInDim S1x256 ![1] bcast_S256_S1x256_1 bl)))
    (Host.dotGeneral dot_S10000x256_S256x256_S10000x256_1_0_0_1_n_n none h wr)

/-- `a` where it is nonnegative, a hundredth of it elsewhere. -/
def leaky256 (a : FVec F S10000x256 .f32) : FVec F S10000x256 .f32 :=
  select (cmpf .oge a (broadcastInDim S10000x256 ![] bcast_S_S10000x256 (constant S_ .f32 0x00000000#32))) a (mulf (broadcastInDim S10000x256 ![] bcast_S_S10000x256 (constant S_ .f32 0x3C23D70A#32)) a)

/-- A 256-wide convolution with the linear layer after it: `leaky (relu (conv256 …) · w2 + b2)`. -/
def post256 (s : FVec F S10000x256 .f32) (deg : FVec F S10000x1 .f32) (wl : FVec F S256x256 .f32) (bl : FVec F S256 .f32)
    (h : FVec F S10000x256 .f32) (wr w2 : FVec F S256x256 .f32) (b2 : FVec F S256 .f32) : FVec F S10000x256 .f32 :=
  leaky256 (addf (Host.dotGeneral dot_S10000x256_S256x256_S10000x256_1_0_0_1_n_n none
      (maximumf (conv256 s deg wl bl h wr) (broadcastInDim S10000x256 ![] bcast_S_S10000x256 (constant S_ .f32 0x00000000#32))) w2) (broadcastInDim S10000x256 ![0, 1] bcast_S1x256_S10000x256_0_1 (broadcastInDim S1x256 ![1] bcast_S256_S1x256_1 b2)))

/-- The last convolution's dense part before its relu, 128 wide. -/
def conv128 (s : FVec F S10000x256 .f32) (deg : FVec F S10000x1 .f32) (wl : FVec F S256x128 .f32) (bl : FVec F S128 .f32)
    (h : FVec F S10000x256 .f32) (wr : FVec F S256x128 .f32) : FVec F S10000x128 .f32 :=
  addf (addf (Host.dotGeneral dot_S10000x256_S256x128_S10000x128_1_0_0_1_n_n none
        (Host.divf s (broadcastInDim S10000x256 ![0, 1] bcast_S10000x1_S10000x256_0_1 deg)) wl) (broadcastInDim S10000x128 ![0, 1] bcast_S1x128_S10000x128_0_1 (broadcastInDim S1x128 ![1] bcast_S128_S1x128_1 bl)))
    (Host.dotGeneral dot_S10000x256_S256x128_S10000x128_1_0_0_1_n_n none h wr)

/-- `a` where it is nonnegative, a hundredth of it elsewhere. -/
def leaky128 (a : FVec F S10000x128 .f32) : FVec F S10000x128 .f32 :=
  select (cmpf .oge a (broadcastInDim S10000x128 ![] bcast_S_S10000x128 (constant S_ .f32 0x00000000#32))) a (mulf (broadcastInDim S10000x128 ![] bcast_S_S10000x128 (constant S_ .f32 0x3C23D70A#32)) a)

/-- The last convolution with the linear layer after it. -/
def post128 (s : FVec F S10000x256 .f32) (deg : FVec F S10000x1 .f32) (wl : FVec F S256x128 .f32) (bl : FVec F S128 .f32)
    (h : FVec F S10000x256 .f32) (wr : FVec F S256x128 .f32) (w2 : FVec F S128x128 .f32) (b2 : FVec F S128 .f32) : FVec F S10000x128 .f32 :=
  leaky128 (addf (Host.dotGeneral dot_S10000x128_S128x128_S10000x128_1_0_0_1_n_n none
      (maximumf (conv128 s deg wl bl h wr) (broadcastInDim S10000x128 ![] bcast_S_S10000x128 (constant S_ .f32 0x00000000#32))) w2) (broadcastInDim S10000x128 ![0, 1] bcast_S1x128_S10000x128_0_1 (broadcastInDim S1x128 ![1] bcast_S128_S1x128_1 b2)))

/-- One convolution's message sum, the rows read by the wrapped source index. -/
def edgeSum (h : FVec F S10000x256 .f32) (ei : IVec S2x320000 32) (ea : FVec F S320000x1 .f32) (we : FVec F S1x256 .f32)
    (be : FVec F S256 .f32) : FVec F S10000x256 .f32 :=
  edgeSumOf (gatherRows h (srcCol ei)) (dstCol ei) ea we be

/-- The network's 33 inputs, in the order of the entry point's parameters: node features, edge list, edge feature,
    graph index of each node, then the weights. -/
structure Args (F : FTy → Type) where
  x : FVec F S10000x128 .f32
  ei : IVec S2x320000 32
  ea : FVec F S320000x1 .f32
  batch : IVec S10000 32
  pw : FVec F S128x256 .f32
  pb : FVec F S256 .f32
  wl1 : FVec F S256x256 .f32
  bl1 : FVec F S256 .f32
  wr1 : FVec F S256x256 .f32
  we1 : FVec F S1x256 .f32
  be1 : FVec F S256 .f32
  wl2 : FVec F S256x256 .f32
  bl2 : FVec F S256 .f32
  wr2 : FVec F S256x256 .f32
  we2 : FVec F S1x256 .f32
  be2 : FVec F S256 .f32
  wl3 : FVec F S256x128 .f32
  bl3 : FVec F S128 .f32
  wr3 : FVec F S256x128 .f32
  we3 : FVec F S1x256 .f32
  be3 : FVec F S256 .f32
  hw1 : FVec F S256x256 .f32
  hb1 : FVec F S256 .f32
  hw2 : FVec F S256x256 .f32
  hb2 : FVec F S256 .f32
  ow : FVec F S128x128 .f32
  ob : FVec F S128 .f32
  ohw : FVec F S128x256 .f32
  ohb : FVec F S256 .f32
  h1w : FVec F S256x1 .f32
  h1b : FVec F S1 .f32
  gamma : FVec F S256 .f32
  beta : FVec F S256 .f32

/-- The in-degree column shared by the three convolutions. -/
def deg (a : Args F) : FVec F S10000x1 .f32 := degree (dstCol a.ei)
/-- Node features after the input layer. -/
def h0 (a : Args F) : FVec F S10000x256 .f32 := lin a.x a.pw a.pb
/-- First convolution's message sum. -/
def s1 (a : Args F) : FVec F S10000x256 .f32 := edgeSum (h0 a) a.ei a.ea a.we1 a.be1
/-- Node features after the first convolution and its linear layer. -/
def h1 (a : Args F) : FVec F S10000x256 .f32 := post256 (s1 a) (deg a) a.wl1 a.bl1 (h0 a) a.wr1 a.hw1 a.hb1
/-- Second convolution's message sum. -/
def s2 (a : Args F) : FVec F S10000x256 .f32 := edgeSum (h1 a) a.ei a.ea a.we2 a.be2
/-- Node features after the second convolution and its linear layer. -/
def h2 (a : Args F) : FVec F S10000x256 .f32 := post256 (s2 a) (deg a) a.wl2 a.bl2 (h1 a) a.wr2 a.hw2 a.hb2
/-- Third convolution's message sum. -/
def s3 (a : Args F) : FVec F S10000x256 .f32 := edgeSum (h2 a) a.ei a.ea a.we3 a.be3
/-- Node features after the third convolution and its linear layer, 128 wide. -/
def h3 (a : Args F) : FVec F S10000x128 .f32 := post128 (s3 a) (deg a) a.wl3 a.bl3 (h2 a) a.wr3 a.ow a.ob
/-- The network's result: one number per graph. -/
def out (a : Args F) : FVec F S64x1 .f32 := tail (h3 a) a.batch a.ohw a.ohb a.h1w a.h1b a.gamma a.beta

end Cert.Bridge.R

end
-- ==== Proof.RefArgs.lean ====
/-
  The reference program's launch memory as the network's inputs.
-/
import proofs.«403348_j26843545600712_3_alg».proof.Proof.SharedR
import Idealize.ShloMosaic.PureOps.Ideal

noncomputable section

namespace Cert.Bridge

open Cert.ReferenceIdeal Cert.ReferenceIdeal.Gen Idealize.ShloMosaic Idealize.ShloMosaic.TcCoe Idealize.SL.Sem

/-- The reference's launch memory as the network's inputs. -/
def argsR (m : (ℓ : Loc nD τ sig) → Buf (Elt Ideal) ℓ) (c : Dev nD) : R.Args Ideal where
  x := m ((c.tc : Thread nD τ).loc main_arg0)
  ei := m ((c.tc : Thread nD τ).loc main_arg1)
  ea := m ((c.tc : Thread nD τ).loc main_arg2)
  batch := m ((c.tc : Thread nD τ).loc main_arg3)
  pw := m ((c.tc : Thread nD τ).loc main_arg4)
  pb := m ((c.tc : Thread nD τ).loc main_arg5)
  wl1 := m ((c.tc : Thread nD τ).loc main_arg6)
  bl1 := m ((c.tc : Thread nD τ).loc main_arg7)
  wr1 := m ((c.tc : Thread nD τ).loc main_arg8)
  we1 := m ((c.tc : Thread nD τ).loc main_arg9)
  be1 := m ((c.tc : Thread nD τ).loc main_arg10)
  wl2 := m ((c.tc : Thread nD τ).loc main_arg11)
  bl2 := m ((c.tc : Thread nD τ).loc main_arg12)
  wr2 := m ((c.tc : Thread nD τ).loc main_arg13)
  we2 := m ((c.tc : Thread nD τ).loc main_arg14)
  be2 := m ((c.tc : Thread nD τ).loc main_arg15)
  wl3 := m ((c.tc : Thread nD τ).loc main_arg16)
  bl3 := m ((c.tc : Thread nD τ).loc main_arg17)
  wr3 := m ((c.tc : Thread nD τ).loc main_arg18)
  we3 := m ((c.tc : Thread nD τ).loc main_arg19)
  be3 := m ((c.tc : Thread nD τ).loc main_arg20)
  hw1 := m ((c.tc : Thread nD τ).loc main_arg21)
  hb1 := m ((c.tc : Thread nD τ).loc main_arg22)
  hw2 := m ((c.tc : Thread nD τ).loc main_arg23)
  hb2 := m ((c.tc : Thread nD τ).loc main_arg24)
  ow := m ((c.tc : Thread nD τ).loc main_arg25)
  ob := m ((c.tc : Thread nD τ).loc main_arg26)
  ohw := m ((c.tc : Thread nD τ).loc main_arg27)
  ohb := m ((c.tc : Thread nD τ).loc main_arg28)
  h1w := m ((c.tc : Thread nD τ).loc main_arg29)
  h1b := m ((c.tc : Thread nD τ).loc main_arg30)
  gamma := m ((c.tc : Thread nD τ).loc main_arg31)
  beta := m ((c.tc : Thread nD τ).loc main_arg32)

end Cert.Bridge

end
-- ==== Proof.RefCols.lean ====
/-
  The index columns of a graph convolution, from the edge list's two rows: the source row with its negative entries
  moved up by the number of nodes, as a column of start indices, and the destination row as a column of scatter indices.
-/
import proofs.«403348_j26843545600712_3_alg».proof.Proof.SharedR

noncomputable section

namespace Cert.Bridge.RefRun

open Cert.ReferenceIdeal Cert.ReferenceIdeal.Gen Idealize.ShloMosaic Idealize.ShloMosaic.TcCoe

/-- A source row with its negative entries moved up by the number of nodes. -/
def srcWrappedOf (src : IVec S320000 32) : IVec S320000 32 :=
  select (cmpi .slt src (broadcastInDim S320000 ![] bcast_S_S320000 (constantI S_ 32 0#32)))
    (addi src (broadcastInDim S320000 ![] bcast_S_S320000 (constantI S_ 32 10000#32))) src

/-- The wrapped source row as a column of start indices. -/
def srcColOf (src : IVec S320000 32) : IVec S320000x1 32 :=
  broadcastInDim S320000x1 ![0] bcast_S320000_S320000x1_0 (srcWrappedOf src)

/-- A destination row as a column of scatter indices. -/
def dstColOf (dst : IVec S320000 32) : IVec S320000x1 32 :=
  broadcastInDim S320000x1 ![0] bcast_S320000_S320000x1_0 dst

/-- The network's source column is the column of its source row. -/
theorem srcCol_of (ei : IVec S2x320000 32) : R.srcCol ei = srcColOf (R.srcRow ei) := rfl
/-- The network's destination column is the column of its destination row. -/
theorem dstCol_of (ei : IVec S2x320000 32) : R.dstCol ei = dstColOf (R.dstRow ei) := rfl

end Cert.Bridge.RefRun

end
-- ==== Proof.RefKept.lean ====
/-
  What the reference's run leaves alone. Its @main is 230 host operations in a row, cut into eight stretches at the layer
  boundaries; each operation writes exactly one buffer, so a stretch leaves every buffer that is not the result of one
  of its operations as it was: the 33 arguments throughout, and each earlier result a later stretch reads again.
-/
import proofs.«403348_j26843545600712_3_alg».proof.Proof.Gen.ReferenceIdeal
import proofs.«403348_j26843545600712_3_alg».proof.Proof.RefOps
import Idealize.ShloMosaic.Lib.StableHlo.Run

noncomputable section

namespace Cert.Bridge.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- A buffer of a list, as a device buffer, is among the list's device buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers the input layer's operations (and the edge list's two rows) write, in order. -/
def wr_h0 : List (Ref sig .tc) :=
  [main_v0, main_v1, main_v2, main_v3, main_v4, main_v5, main_v6, main_v7, main_call0_cst, main_call0_v0, main_v8]

/-- Each of those operations writes one buffer of that list. -/
theorem writes_h0 : (ops_h0 (F := F)).Forall fun op => op.writes ⊆ (wr_h0.map (Proc.devRef (τ := τ) .tc)).toFinset :=
  ⟨sub_of_mem (y := main_v0) (by decide),
   sub_of_mem (y := main_v1) (by decide),
   sub_of_mem (y := main_v2) (by decide),
   sub_of_mem (y := main_v3) (by decide),
   sub_of_mem (y := main_v4) (by decide),
   sub_of_mem (y := main_v5) (by decide),
   sub_of_mem (y := main_v6) (by decide),
   sub_of_mem (y := main_v7) (by decide),
   sub_of_mem (y := main_call0_cst) (by decide),
   sub_of_mem (y := main_call0_v0) (by decide),
   sub_of_mem (y := main_v8) (by decide)⟩

/-- So they leave every other buffer as it was. -/
theorem kept_h0 (V : Valuation τ sig (Elt F)) {r : Ref sig .tc} (hr : r ∉ wr_h0) :
    after ops_h0 V (Proc.devRef .tc r) = V (Proc.devRef .tc r) :=
  after_of_writes_sub ops_h0 V writes_h0 hr

/-- The buffers the first convolution's message-sum operations write, in order. -/
def wr_s1 : List (Ref sig .tc) :=
  [main_v9, main_v10, main_v11, main_v12, main_c, main_v13, main_v14, main_c_0, main_v15, main_v16, main_v17, main_v18, main_v19, main_v20, main_call1_cst, main_call1_v0, main_v21, main_cst, main_v22, main_v23, main_v24]

/-- Each of those operations writes one buffer of that list. -/
theorem writes_s1 : (ops_s1 (F := F)).Forall fun op => op.writes ⊆ (wr_s1.map (Proc.devRef (τ := τ) .tc)).toFinset :=
  ⟨sub_of_mem (y := main_v9) (by decide),
   sub_of_mem (y := main_v10) (by decide),
   sub_of_mem (y := main_v11) (by decide),
   sub_of_mem (y := main_v12) (by decide),
   sub_of_mem (y := main_c) (by decide),
   sub_of_mem (y := main_v13) (by decide),
   sub_of_mem (y := main_v14) (by decide),
   sub_of_mem (y := main_c_0) (by decide),
   sub_of_mem (y := main_v15) (by decide),
   sub_of_mem (y := main_v16) (by decide),
   sub_of_mem (y := main_v17) (by decide),
   sub_of_mem (y := main_v18) (by decide),
   sub_of_mem (y := main_v19) (by decide),
   sub_of_mem (y := main_v20) (by decide),
   sub_of_mem (y := main_call1_cst) (by decide),
   sub_of_mem (y := main_call1_v0) (by decide),
   sub_of_mem (y := main_v21) (by decide),
   sub_of_mem (y := main_cst) (by decide),
   sub_of_mem (y := main_v22) (by decide),
   sub_of_mem (y := main_v23) (by decide),
   sub_of_mem (y := main_v24) (by decide)⟩

/-- So they leave every other buffer as it was. -/
theorem kept_s1 (V : Valuation τ sig (Elt F)) {r : Ref sig .tc} (hr : r ∉ wr_s1) :
    after ops_s1 V (Proc.devRef .tc r) = V (Proc.devRef .tc r) :=
  after_of_writes_sub ops_s1 V writes_s1 hr

/-- The buffers the first convolution's dense operations write, in order. -/
def wr_h1 : List (Ref sig .tc) :=
  [main_cst_1, main_v25, main_cst_2, main_v26, main_v27, main_v28, main_cst_3, main_v29, main_v30, main_v31, main_v32, main_v33, main_v34, main_v35, main_v36, main_v37, main_v38, main_call2_cst, main_call2_v0, main_v39, main_v40, main_v41, main_v42, main_v43, main_cst_4, main_v44, main_v45, main_cst_5, main_v46, main_v47, main_v48]

/-- Each of those operations writes one buffer of that list. -/
theorem writes_h1 : (ops_h1 (F := F)).Forall fun op => op.writes ⊆ (wr_h1.map (Proc.devRef (τ := τ) .tc)).toFinset :=
  ⟨sub_of_mem (y := main_cst_1) (by decide),
   sub_of_mem (y := main_v25) (by decide),
   sub_of_mem (y := main_cst_2) (by decide),
   sub_of_mem (y := main_v26) (by decide),
   sub_of_mem (y := main_v27) (by decide),
   sub_of_mem (y := main_v28) (by decide),
   sub_of_mem (y := main_cst_3) (by decide),
   sub_of_mem (y := main_v29) (by decide),
   sub_of_mem (y := main_v30) (by decide),
   sub_of_mem (y := main_v31) (by decide),
   sub_of_mem (y := main_v32) (by decide),
   sub_of_mem (y := main_v33) (by decide),
   sub_of_mem (y := main_v34) (by decide),
   sub_of_mem (y := main_v35) (by decide),
   sub_of_mem (y := main_v36) (by decide),
   sub_of_mem (y := main_v37) (by decide),
   sub_of_mem (y := main_v38) (by decide),
   sub_of_mem (y := main_call2_cst) (by decide),
   sub_of_mem (y := main_call2_v0) (by decide),
   sub_of_mem (y := main_v39) (by decide),
   sub_of_mem (y := main_v40) (by decide),
   sub_of_mem (y := main_v41) (by decide),
   sub_of_mem (y := main_v42) (by decide),
   sub_of_mem (y := main_v43) (by decide),
   sub_of_mem (y := main_cst_4) (by decide),
   sub_of_mem (y := main_v44) (by decide),
   sub_of_mem (y := main_v45) (by decide),
   sub_of_mem (y := main_cst_5) (by decide),
   sub_of_mem (y := main_v46) (by decide),
   sub_of_mem (y := main_v47) (by decide),
   sub_of_mem (y := main_v48) (by decide)⟩

/-- So they leave every other buffer as it was. -/
theorem kept_h1 (V : Valuation τ sig (Elt F)) {r : Ref sig .tc} (hr : r ∉ wr_h1) :
    after ops_h1 V (Proc.devRef .tc r) = V (Proc.devRef .tc r) :=
  after_of_writes_sub ops_h1 V writes_h1 hr

/-- The buffers the second convolution's message-sum operations write, in order. -/
def wr_s2 : List (Ref sig .tc) :=
  [main_v49, main_v50, main_v51, main_v52, main_c_6, main_v53, main_v54, main_c_7, main_v55, main_v56, main_v57, main_v58, main_v59, main_v60, main_call4_cst, main_call4_v0, main_v61, main_cst_8, main_v62, main_v63, main_v64]

/-- Each of those operations writes one buffer of that list. -/
theorem writes_s2 : (ops_s2 (F := F)).Forall fun op => op.writes ⊆ (wr_s2.map (Proc.devRef (τ := τ) .tc)).toFinset :=
  ⟨sub_of_mem (y := main_v49) (by decide),
   sub_of_mem (y := main_v50) (by decide),
   sub_of_mem (y := main_v51) (by decide),
   sub_of_mem (y := main_v52) (by decide),
   sub_of_mem (y := main_c_6) (by decide),
   sub_of_mem (y := main_v53) (by decide),
   sub_of_mem (y := main_v54) (by decide),
   sub_of_mem (y := main_c_7) (by decide),
   sub_of_mem (y := main_v55) (by decide),
   sub_of_mem (y := main_v56) (by decide),
   sub_of_mem (y := main_v57) (by decide),
   sub_of_mem (y := main_v58) (by decide),
   sub_of_mem (y := main_v59) (by decide),
   sub_of_mem (y := main_v60) (by decide),
   sub_of_mem (y := main_call4_cst) (by decide),
   sub_of_mem (y := main_call4_v0) (by decide),
   sub_of_mem (y := main_v61) (by decide),
   sub_of_mem (y := main_cst_8) (by decide),
   sub_of_mem (y := main_v62) (by decide),
   sub_of_mem (y := main_v63) (by decide),
   sub_of_mem (y := main_v64) (by decide)⟩

/-- So they leave every other buffer as it was. -/
theorem kept_s2 (V : Valuation τ sig (Elt F)) {r : Ref sig .tc} (hr : r ∉ wr_s2) :
    after ops_s2 V (Proc.devRef .tc r) = V (Proc.devRef .tc r) :=
  after_of_writes_sub ops_s2 V writes_s2 hr

/-- The buffers the second convolution's dense operations write, in order. -/
def wr_h2 : List (Ref sig .tc) :=
  [main_cst_9, main_v65, main_cst_10, main_v66, main_v67, main_v68, main_cst_11, main_v69, main_v70, main_v71, main_v72, main_v73, main_v74, main_v75, main_v76, main_v77, main_v78, main_call5_cst, main_call5_v0, main_v79, main_v80, main_v81, main_v82, main_v83, main_cst_12, main_v84, main_v85, main_cst_13, main_v86, main_v87, main_v88]

/-- Each of those operations writes one buffer of that list. -/
theorem writes_h2 : (ops_h2 (F := F)).Forall fun op => op.writes ⊆ (wr_h2.map (Proc.devRef (τ := τ) .tc)).toFinset :=
  ⟨sub_of_mem (y := main_cst_9) (by decide),
   sub_of_mem (y := main_v65) (by decide),
   sub_of_mem (y := main_cst_10) (by decide),
   sub_of_mem (y := main_v66) (by decide),
   sub_of_mem (y := main_v67) (by decide),
   sub_of_mem (y := main_v68) (by decide),
   sub_of_mem (y := main_cst_11) (by decide),
   sub_of_mem (y := main_v69) (by decide),
   sub_of_mem (y := main_v70) (by decide),
   sub_of_mem (y := main_v71) (by decide),
   sub_of_mem (y := main_v72) (by decide),
   sub_of_mem (y := main_v73) (by decide),
   sub_of_mem (y := main_v74) (by decide),
   sub_of_mem (y := main_v75) (by decide),
   sub_of_mem (y := main_v76) (by decide),
   sub_of_mem (y := main_v77) (by decide),
   sub_of_mem (y := main_v78) (by decide),
   sub_of_mem (y := main_call5_cst) (by decide),
   sub_of_mem (y := main_call5_v0) (by decide),
   sub_of_mem (y := main_v79) (by decide),
   sub_of_mem (y := main_v80) (by decide),
   sub_of_mem (y := main_v81) (by decide),
   sub_of_mem (y := main_v82) (by decide),
   sub_of_mem (y := main_v83) (by decide),
   sub_of_mem (y := main_cst_12) (by decide),
   sub_of_mem (y := main_v84) (by decide),
   sub_of_mem (y := main_v85) (by decide),
   sub_of_mem (y := main_cst_13) (by decide),
   sub_of_mem (y := main_v86) (by decide),
   sub_of_mem (y := main_v87) (by decide),
   sub_of_mem (y := main_v88) (by decide)⟩

/-- So they leave every other buffer as it was. -/
theorem kept_h2 (V : Valuation τ sig (Elt F)) {r : Ref sig .tc} (hr : r ∉ wr_h2) :
    after ops_h2 V (Proc.devRef .tc r) = V (Proc.devRef .tc r) :=
  after_of_writes_sub ops_h2 V writes_h2 hr

/-- The buffers the third convolution's message-sum operations write, in order. -/
def wr_s3 : List (Ref sig .tc) :=
  [main_v89, main_v90, main_v91, main_v92, main_c_14, main_v93, main_v94, main_c_15, main_v95, main_v96, main_v97, main_v98, main_v99, main_v100, main_call7_cst, main_call7_v0, main_v101, main_cst_16, main_v102, main_v103, main_v104]

/-- Each of those operations writes one buffer of that list. -/
theorem writes_s3 : (ops_s3 (F := F)).Forall fun op => op.writes ⊆ (wr_s3.map (Proc.devRef (τ := τ) .tc)).toFinset :=
  ⟨sub_of_mem (y := main_v89) (by decide),
   sub_of_mem (y := main_v90) (by decide),
   sub_of_mem (y := main_v91) (by decide),
   sub_of_mem (y := main_v92) (by decide),
   sub_of_mem (y := main_c_14) (by decide),
   sub_of_mem (y := main_v93) (by decide),
   sub_of_mem (y := main_v94) (by decide),
   sub_of_mem (y := main_c_15) (by decide),
   sub_of_mem (y := main_v95) (by decide),
   sub_of_mem (y := main_v96) (by decide),
   sub_of_mem (y := main_v97) (by decide),
   sub_of_mem (y := main_v98) (by decide),
   sub_of_mem (y := main_v99) (by decide),
   sub_of_mem (y := main_v100) (by decide),
   sub_of_mem (y := main_call7_cst) (by decide),
   sub_of_mem (y := main_call7_v0) (by decide),
   sub_of_mem (y := main_v101) (by decide),
   sub_of_mem (y := main_cst_16) (by decide),
   sub_of_mem (y := main_v102) (by decide),
   sub_of_mem (y := main_v103) (by decide),
   sub_of_mem (y := main_v104) (by decide)⟩

/-- So they leave every other buffer as it was. -/
theorem kept_s3 (V : Valuation τ sig (Elt F)) {r : Ref sig .tc} (hr : r ∉ wr_s3) :
    after ops_s3 V (Proc.devRef .tc r) = V (Proc.devRef .tc r) :=
  after_of_writes_sub ops_s3 V writes_s3 hr

/-- The buffers the third convolution's dense operations write, in order. -/
def wr_h3 : List (Ref sig .tc) :=
  [main_cst_17, main_v105, main_cst_18, main_v106, main_v107, main_v108, main_cst_19, main_v109, main_v110, main_v111, main_v112, main_v113, main_v114, main_v115, main_v116, main_v117, main_v118, main_call8_cst, main_call8_v0, main_v119, main_v120, main_v121, main_v122, main_v123, main_cst_20, main_v124, main_v125, main_cst_21, main_v126, main_v127, main_v128]

/-- Each of those operations writes one buffer of that list. -/
theorem writes_h3 : (ops_h3 (F := F)).Forall fun op => op.writes ⊆ (wr_h3.map (Proc.devRef (τ := τ) .tc)).toFinset :=
  ⟨sub_of_mem (y := main_cst_17) (by decide),
   sub_of_mem (y := main_v105) (by decide),
   sub_of_mem (y := main_cst_18) (by decide),
   sub_of_mem (y := main_v106) (by decide),
   sub_of_mem (y := main_v107) (by decide),
   sub_of_mem (y := main_v108) (by decide),
   sub_of_mem (y := main_cst_19) (by decide),
   sub_of_mem (y := main_v109) (by decide),
   sub_of_mem (y := main_v110) (by decide),
   sub_of_mem (y := main_v111) (by decide),
   sub_of_mem (y := main_v112) (by decide),
   sub_of_mem (y := main_v113) (by decide),
   sub_of_mem (y := main_v114) (by decide),
   sub_of_mem (y := main_v115) (by decide),
   sub_of_mem (y := main_v116) (by decide),
   sub_of_mem (y := main_v117) (by decide),
   sub_of_mem (y := main_v118) (by decide),
   sub_of_mem (y := main_call8_cst) (by decide),
   sub_of_mem (y := main_call8_v0) (by decide),
   sub_of_mem (y := main_v119) (by decide),
   sub_of_mem (y := main_v120) (by decide),
   sub_of_mem (y := main_v121) (by decide),
   sub_of_mem (y := main_v122) (by decide),
   sub_of_mem (y := main_v123) (by decide),
   sub_of_mem (y := main_cst_20) (by decide),
   sub_of_mem (y := main_v124) (by decide),
   sub_of_mem (y := main_v125) (by decide),
   sub_of_mem (y := main_cst_21) (by decide),
   sub_of_mem (y := main_v126) (by decide),
   sub_of_mem (y := main_v127) (by decide),
   sub_of_mem (y := main_v128) (by decide)⟩

/-- So they leave every other buffer as it was. -/
theorem kept_h3 (V : Valuation τ sig (Elt F)) {r : Ref sig .tc} (hr : r ∉ wr_h3) :
    after ops_h3 V (Proc.devRef .tc r) = V (Proc.devRef .tc r) :=
  after_of_writes_sub ops_h3 V writes_h3 hr

/-- The buffers the graph-level tail's operations write, in order. -/
def wr_out : List (Ref sig .tc) :=
  [main_cst_22, main_v129, main_v130, main_v131, main_cst_23, main_v132, main_cst_24, main_v133, main_v134, main_v135, main_cst_25, main_v136, main_v137, main_v138, main_v139, main_v140, main_v141, main_v142, main_v143, main_cst_26, main_v144, main_cst_27, main_v145, main_v146, main_v147, main_v148, main_v149, main_v150, main_cst_28, main_v151, main_cst_29, main_v152, main_v153, main_v154, main_v155, main_v156, main_v157, main_v158, main_v159, main_cst_30, main_v160, main_v161, main_v162, main_v163, main_v164, main_v165, main_v166, main_v167, main_v168, main_cst_31, main_v169, main_v170, main_cst_32, main_v171, main_v172, main_v173, main_v174, main_v175, main_v176, main_v177, main_call11_cst, main_call11_v0, main_v178]

/-- Each of those operations writes one buffer of that list. -/
theorem writes_out : (ops_out (F := F)).Forall fun op => op.writes ⊆ (wr_out.map (Proc.devRef (τ := τ) .tc)).toFinset :=
  ⟨sub_of_mem (y := main_cst_22) (by decide),
   sub_of_mem (y := main_v129) (by decide),
   sub_of_mem (y := main_v130) (by decide),
   sub_of_mem (y := main_v131) (by decide),
   sub_of_mem (y := main_cst_23) (by decide),
   sub_of_mem (y := main_v132) (by decide),
   sub_of_mem (y := main_cst_24) (by decide),
   sub_of_mem (y := main_v133) (by decide),
   sub_of_mem (y := main_v134) (by decide),
   sub_of_mem (y := main_v135) (by decide),
   sub_of_mem (y := main_cst_25) (by decide),
   sub_of_mem (y := main_v136) (by decide),
   sub_of_mem (y := main_v137) (by decide),
   sub_of_mem (y := main_v138) (by decide),
   sub_of_mem (y := main_v139) (by decide),
   sub_of_mem (y := main_v140) (by decide),
   sub_of_mem (y := main_v141) (by decide),
   sub_of_mem (y := main_v142) (by decide),
   sub_of_mem (y := main_v143) (by decide),
   sub_of_mem (y := main_cst_26) (by decide),
   sub_of_mem (y := main_v144) (by decide),
   sub_of_mem (y := main_cst_27) (by decide),
   sub_of_mem (y := main_v145) (by decide),
   sub_of_mem (y := main_v146) (by decide),
   sub_of_mem (y := main_v147) (by decide),
   sub_of_mem (y := main_v148) (by decide),
   sub_of_mem (y := main_v149) (by decide),
   sub_of_mem (y := main_v150) (by decide),
   sub_of_mem (y := main_cst_28) (by decide),
   sub_of_mem (y := main_v151) (by decide),
   sub_of_mem (y := main_cst_29) (by decide),
   sub_of_mem (y := main_v152) (by decide),
   sub_of_mem (y := main_v153) (by decide),
   sub_of_mem (y := main_v154) (by decide),
   sub_of_mem (y := main_v155) (by decide),
   sub_of_mem (y := main_v156) (by decide),
   sub_of_mem (y := main_v157) (by decide),
   sub_of_mem (y := main_v158) (by decide),
   sub_of_mem (y := main_v159) (by decide),
   sub_of_mem (y := main_cst_30) (by decide),
   sub_of_mem (y := main_v160) (by decide),
   sub_of_mem (y := main_v161) (by decide),
   sub_of_mem (y := main_v162) (by decide),
   sub_of_mem (y := main_v163) (by decide),
   sub_of_mem (y := main_v164) (by decide),
   sub_of_mem (y := main_v165) (by decide),
   sub_of_mem (y := main_v166) (by decide),
   sub_of_mem (y := main_v167) (by decide),
   sub_of_mem (y := main_v168) (by decide),
   sub_of_mem (y := main_cst_31) (by decide),
   sub_of_mem (y := main_v169) (by decide),
   sub_of_mem (y := main_v170) (by decide),
   sub_of_mem (y := main_cst_32) (by decide),
   sub_of_mem (y := main_v171) (by decide),
   sub_of_mem (y := main_v172) (by decide),
   sub_of_mem (y := main_v173) (by decide),
   sub_of_mem (y := main_v174) (by decide),
   sub_of_mem (y := main_v175) (by decide),
   sub_of_mem (y := main_v176) (by decide),
   sub_of_mem (y := main_v177) (by decide),
   sub_of_mem (y := main_call11_cst) (by decide),
   sub_of_mem (y := main_call11_v0) (by decide),
   sub_of_mem (y := main_v178) (by decide)⟩

/-- So they leave every other buffer as it was. -/
theorem kept_out (V : Valuation τ sig (Elt F)) {r : Ref sig .tc} (hr : r ∉ wr_out) :
    after ops_out V (Proc.devRef .tc r) = V (Proc.devRef .tc r) :=
  after_of_writes_sub ops_out V writes_out hr

end Cert.Bridge.RefRun

end
-- ==== Proof.RefFresh.lean ====
/-
  Every operation of the reference's @main determines its result: none leaves a buffer's contents open. Stretch by
  stretch, each operation's set of such buffers is empty by its definition; the whole list is the eight stretches in a row.
-/
import proofs.«403348_j26843545600712_3_alg».proof.Proof.Gen.ReferenceIdeal
import proofs.«403348_j26843545600712_3_alg».proof.Proof.RefOps
import Idealize.ShloMosaic.Lib.StableHlo.Run

noncomputable section

namespace Cert.Bridge.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- None of the input layer's operations (and the edge list's two rows) leaves a buffer's contents open. -/
theorem fresh_h0 : ∀ op ∈ (ops_h0 : List (HloOp τ sig (Elt F))), op.fresh = ∅ :=
  List.forall_iff_forall_mem.mp
    ⟨rfl, rfl, rfl, rfl, rfl, rfl, rfl, rfl, rfl, rfl, rfl⟩

/-- None of the first convolution's message-sum operations leaves a buffer's contents open. -/
theorem fresh_s1 : ∀ op ∈ (ops_s1 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl⟩

/-- None of the first convolution's dense operations leaves a buffer's contents open. -/
theorem fresh_h1 : ∀ op ∈ (ops_h1 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- None of the second convolution's message-sum operations leaves a buffer's contents open. -/
theorem fresh_s2 : ∀ op ∈ (ops_s2 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl⟩

/-- None of the second convolution's dense operations leaves a buffer's contents open. -/
theorem fresh_h2 : ∀ op ∈ (ops_h2 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- None of the third convolution's message-sum operations leaves a buffer's contents open. -/
theorem fresh_s3 : ∀ op ∈ (ops_s3 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl⟩

/-- None of the third convolution's dense operations leaves a buffer's contents open. -/
theorem fresh_h3 : ∀ op ∈ (ops_h3 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- None of the graph-level tail's operations leaves a buffer's contents open. -/
theorem fresh_out : ∀ op ∈ (ops_out : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- So none of the 230 operations does. -/
theorem fresh_ops : ∀ op ∈ (ops : List (HloOp τ sig (Elt F))), op.fresh = ∅ :=
  fun op h =>
    (List.mem_append.mp h).elim (fresh_h0 op) fun h =>
    (List.mem_append.mp h).elim (fresh_s1 op) fun h =>
    (List.mem_append.mp h).elim (fresh_h1 op) fun h =>
    (List.mem_append.mp h).elim (fresh_s2 op) fun h =>
    (List.mem_append.mp h).elim (fresh_h2 op) fun h =>
    (List.mem_append.mp h).elim (fresh_s3 op) fun h =>
    (List.mem_append.mp h).elim (fresh_h3 op) fun h =>
    fresh_out op h

end Cert.Bridge.RefRun

end
-- ==== Proof.RefVal2.lean ====
/-
  The second half of the reference's run, stretch by stretch: the second convolution's dense part with the linear layer
  after it, the third convolution's message sum, its dense part with the 128-wide linear layer after it, and the
  graph-level tail. Each stretch gives the buffer it ends in the layer's function of the buffers it starts from.
-/
import proofs.«403348_j26843545600712_3_alg».proof.Proof.Gen.ReferenceIdeal
import proofs.«403348_j26843545600712_3_alg».proof.Proof.SharedR
import proofs.«403348_j26843545600712_3_alg».proof.Proof.RefCols
import proofs.«403348_j26843545600712_3_alg».proof.Proof.RefOps
import Idealize.ShloMosaic.Lib.StableHlo.Run

set_option maxRecDepth 16384

noncomputable section

namespace Cert.Bridge.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F] (V : Valuation τ sig (Elt F))

set_option maxHeartbeats 4000000 in
/-- The second convolution's dense part and the linear layer after it: from the message sum, the destination row (whose
    scatter of ones, at least 1, is the in-degree), the node features before it and the layer's weights and biases. -/
theorem val_h2 : after ops_h2 V (Proc.devRef .tc main_v88)
    = R.post256 (F := F) (V (Proc.devRef .tc main_v64)) (R.degree (dstColOf (V (Proc.devRef .tc main_v3)))) (V (Proc.devRef .tc main_arg11)) (V (Proc.devRef .tc main_arg12))
        (V (Proc.devRef .tc main_v48)) (V (Proc.devRef .tc main_arg13)) (V (Proc.devRef .tc main_arg23)) (V (Proc.devRef .tc main_arg24)) := by
  after_results_simp
  try simp only [TRef.ofBuf, TRef.toBuf, cast_eq]
  rfl

set_option maxHeartbeats 4000000 in
/-- The third convolution's message sum: the rows of the node features read by the wrapped source row, plus the edge
    term, through relu, summed into their destination nodes. -/
theorem val_s3 : after ops_s3 V (Proc.devRef .tc main_v104)
    = R.edgeSumOf (F := F) (R.gatherRows (V (Proc.devRef .tc main_v88)) (srcColOf (V (Proc.devRef .tc main_v1)))) (dstColOf (V (Proc.devRef .tc main_v3)))
        (V (Proc.devRef .tc main_arg2)) (V (Proc.devRef .tc main_arg19)) (V (Proc.devRef .tc main_arg20)) := by
  after_results_simp
  try simp only [TRef.ofBuf, TRef.toBuf, cast_eq]
  rfl

set_option maxHeartbeats 4000000 in
/-- The third convolution's dense part and the 128-wide linear layer after it. -/
theorem val_h3 : after ops_h3 V (Proc.devRef .tc main_v128)
    = R.post128 (F := F) (V (Proc.devRef .tc main_v104)) (R.degree (dstColOf (V (Proc.devRef .tc main_v3)))) (V (Proc.devRef .tc main_arg16)) (V (Proc.devRef .tc main_arg17))
        (V (Proc.devRef .tc main_v88)) (V (Proc.devRef .tc main_arg18)) (V (Proc.devRef .tc main_arg25)) (V (Proc.devRef .tc main_arg26)) := by
  after_results_simp
  try simp only [TRef.ofBuf, TRef.toBuf, cast_eq]
  rfl

set_option maxHeartbeats 4000000 in
/-- The graph-level tail: mean pool over each graph, linear layer, batch normalisation, leaky relu, readout. -/
theorem val_out : after ops_out V (Proc.devRef .tc main_v178)
    = R.tail (F := F) (V (Proc.devRef .tc main_v128)) (V (Proc.devRef .tc main_arg3)) (V (Proc.devRef .tc main_arg27)) (V (Proc.devRef .tc main_arg28))
        (V (Proc.devRef .tc main_arg29)) (V (Proc.devRef .tc main_arg30)) (V (Proc.devRef .tc main_arg31)) (V (Proc.devRef .tc main_arg32)) := by
  after_results_simp
  try simp only [TRef.ofBuf, TRef.toBuf, cast_eq]
  rfl

end Cert.Bridge.RefRun

end
-- ==== Proof.RefRun.lean ====
/-
  The reference program's run, read stretch by stretch: its @main is 230 host operations in a row; cut at the layer
  boundaries, each stretch gives the buffer it ends in the layer's function of the buffers it starts from, and leaves
  every buffer it does not write as it was. Composed, every weakly fair execution ends with the result buffer at the
  network's result of the launch memory's inputs, the arguments unchanged.
-/
import proofs.«403348_j26843545600712_3_alg».proof.Proof.Gen.ReferenceIdeal
import proofs.«403348_j26843545600712_3_alg».proof.Proof.SharedR
import proofs.«403348_j26843545600712_3_alg».proof.Proof.RefArgs
import proofs.«403348_j26843545600712_3_alg».proof.Proof.RefOps
import proofs.«403348_j26843545600712_3_alg».proof.Proof.RefCols
import proofs.«403348_j26843545600712_3_alg».proof.Proof.RefKept
import proofs.«403348_j26843545600712_3_alg».proof.Proof.RefFresh
import proofs.«403348_j26843545600712_3_alg».proof.Proof.RefVal2
import Idealize.ShloMosaic.Lib.StableHlo.Run

set_option maxRecDepth 16384

noncomputable section

namespace Cert.Bridge

open Cert.ReferenceIdeal Cert.ReferenceIdeal.Gen Idealize.ShloMosaic Idealize.ShloMosaic.TcCoe Idealize.SL.Sem Idealize.ShloMosaic.StableHlo

namespace RefRun

open Cert.ReferenceIdeal.ValueP

/-! ## What each stretch computes, from any contents `V` it starts from

Stated for every float instance: each stretch's operations are, one for one, the operations of the layer's function. -/

section Values

variable {F : FTy → Type} [FloatOps F] (V : Valuation τ sig (Elt F))

/-- The first stretch leaves the edge list's source row in `main_v1` … -/
theorem val_src : after ops_h0 V (Proc.devRef .tc main_v1) = R.srcRow (V (Proc.devRef .tc main_arg1)) := by
  after_results; rfl

/-- … its destination row in `main_v3` … -/
theorem val_dst : after ops_h0 V (Proc.devRef .tc main_v3) = R.dstRow (V (Proc.devRef .tc main_arg1)) := by
  after_results; rfl

set_option maxHeartbeats 4000000 in
/-- … and the input layer of the node features in `main_v8`. -/
theorem val_h0 : after ops_h0 V (Proc.devRef .tc main_v8)
    = R.lin (F := F) (V (Proc.devRef .tc main_arg0)) (V (Proc.devRef .tc main_arg4)) (V (Proc.devRef .tc main_arg5)) := by
  after_results_simp
  try simp only [TRef.ofBuf, TRef.toBuf, cast_eq]
  rfl

set_option maxHeartbeats 4000000 in
/-- The second stretch: the first convolution's message sum, of the node features and the two rows it finds. -/
theorem val_s1 : after ops_s1 V (Proc.devRef .tc main_v24)
    = R.edgeSumOf (F := F) (R.gatherRows (V (Proc.devRef .tc main_v8)) (srcColOf (V (Proc.devRef .tc main_v1)))) (dstColOf (V (Proc.devRef .tc main_v3)))
        (V (Proc.devRef .tc main_arg2)) (V (Proc.devRef .tc main_arg9)) (V (Proc.devRef .tc main_arg10)) := by
  after_results_simp
  try simp only [TRef.ofBuf, TRef.toBuf, cast_eq]
  rfl

set_option maxHeartbeats 4000000 in
/-- The third stretch: the in-degree from the destination row, then the first convolution's dense part and the linear
    layer after it. -/
theorem val_h1 : after ops_h1 V (Proc.devRef .tc main_v48)
    = R.post256 (F := F) (V (Proc.devRef .tc main_v24)) (R.degree (dstColOf (V (Proc.devRef .tc main_v3)))) (V (Proc.devRef .tc main_arg6)) (V (Proc.devRef .tc main_arg7))
        (V (Proc.devRef .tc main_v8)) (V (Proc.devRef .tc main_arg8)) (V (Proc.devRef .tc main_arg21)) (V (Proc.devRef .tc main_arg22)) := by
  after_results_simp
  try simp only [TRef.ofBuf, TRef.toBuf, cast_eq]
  rfl

set_option maxHeartbeats 4000000 in
/-- The fourth stretch: the second convolution's message sum. -/
theorem val_s2 : after ops_s2 V (Proc.devRef .tc main_v64)
    = R.edgeSumOf (F := F) (R.gatherRows (V (Proc.devRef .tc main_v48)) (srcColOf (V (Proc.devRef .tc main_v1)))) (dstColOf (V (Proc.devRef .tc main_v3)))
        (V (Proc.devRef .tc main_arg2)) (V (Proc.devRef .tc main_arg14)) (V (Proc.devRef .tc main_arg15)) := by
  after_results_simp
  try simp only [TRef.ofBuf, TRef.toBuf, cast_eq]
  rfl

end Values

/-! ## The stretches in a row -/

/-- The fold over two lists in a row is the fold over the second from what the first leaves. -/
theorem after_app {F : FTy → Type} : ∀ (l₁ l₂ : List (HloOp τ sig (Elt F))) (V : Valuation τ sig (Elt F)),
    after (l₁ ++ l₂) V = after l₂ (after l₁ V)
  | [], _, _ => rfl
  | _ :: l₁, l₂, V => after_app l₁ l₂ _

/-- The 33 argument references. -/
def argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20, main_arg21,
   main_arg22, main_arg23, main_arg24, main_arg25, main_arg26, main_arg27, main_arg28, main_arg29, main_arg30, main_arg31, main_arg32]

variable (m : (ℓ : Loc nD τ sig) → Buf (Elt Ideal) ℓ) (c : Dev nD)

/-- Contents that hold, at the arguments, what the launch memory held, and in `main_v1` / `main_v3` the edge list's
    two rows. -/
structure Keeps (V : Valuation τ sig (Elt Ideal)) : Prop where
  args : ∀ r ∈ argRefs, V (Proc.devRef .tc r) = launchContents m c (Proc.devRef .tc r)
  src : V (Proc.devRef .tc main_v1) = R.srcRow (argsR m c).ei
  dst : V (Proc.devRef .tc main_v3) = R.dstRow (argsR m c).ei

/-- A stretch that writes none of those buffers keeps them. -/
theorem Keeps.step {l : List (HloOp τ sig (Elt Ideal))} {W : List (Ref sig .tc)}
    (kept : ∀ (V : Valuation τ sig (Elt Ideal)) {r : Ref sig .tc}, r ∉ W → after l V (Proc.devRef .tc r) = V (Proc.devRef .tc r))
    (hW : ∀ r ∈ main_v1 :: main_v3 :: argRefs, r ∉ W) {V : Valuation τ sig (Elt Ideal)} (hK : Keeps m c V) :
    Keeps m c (after l V) where
  args r hr := (kept V (hW r (List.mem_cons_of_mem _ (List.mem_cons_of_mem _ hr)))).trans (hK.args r hr)
  src := (kept V (hW _ List.mem_cons_self)).trans hK.src
  dst := (kept V (hW _ (List.mem_cons_of_mem _ List.mem_cons_self))).trans hK.dst

/-- The contents after each stretch, from the launch memory. -/
def S1 : Valuation τ sig (Elt Ideal) := after ops_h0 (launchContents m c)
def S2 : Valuation τ sig (Elt Ideal) := after ops_s1 (S1 m c)
def S3 : Valuation τ sig (Elt Ideal) := after ops_h1 (S2 m c)
def S4 : Valuation τ sig (Elt Ideal) := after ops_s2 (S3 m c)
def S5 : Valuation τ sig (Elt Ideal) := after ops_h2 (S4 m c)
def S6 : Valuation τ sig (Elt Ideal) := after ops_s3 (S5 m c)
def S7 : Valuation τ sig (Elt Ideal) := after ops_h3 (S6 m c)
def S8 : Valuation τ sig (Elt Ideal) := after ops_out (S7 m c)

/-- All 230 operations leave what the eight stretches leave one after the other. -/
theorem after_ops : after ops (launchContents m c) = S8 m c := by
  simp only [ops, after_app]
  rfl

/-! ## Stretch by stretch, from the launch memory

After each stretch: the arguments and the two rows are kept; the node features of the layer before are kept across a
message-sum stretch (the dense stretch after it reads them again); and the buffer the stretch ends in holds the layer's
function of the network's inputs. -/

theorem keeps1 : Keeps m c (S1 m c) where
  args r hr := kept_h0 _ (by revert r; decide)
  src := val_src _
  dst := val_dst _

theorem h0_1 : S1 m c (Proc.devRef .tc main_v8) = R.h0 (argsR m c) := val_h0 _

theorem keeps2 : Keeps m c (S2 m c) := (keeps1 m c).step m c kept_s1 (by decide)
theorem h0_2 : S2 m c (Proc.devRef .tc main_v8) = R.h0 (argsR m c) := (kept_s1 _ (by decide)).trans (h0_1 m c)
theorem s1_2 : S2 m c (Proc.devRef .tc main_v24) = R.s1 (argsR m c) := by
  have hK := keeps1 m c
  unfold S2
  rw [val_s1, h0_1, hK.src, hK.dst, hK.args main_arg2 (by decide), hK.args main_arg9 (by decide), hK.args main_arg10 (by decide), ← srcCol_of, ← dstCol_of]
  rfl

theorem keeps3 : Keeps m c (S3 m c) := (keeps2 m c).step m c kept_h1 (by decide)
theorem h1_3 : S3 m c (Proc.devRef .tc main_v48) = R.h1 (argsR m c) := by
  have hK := keeps2 m c
  unfold S3
  rw [val_h1, s1_2, h0_2, hK.dst, hK.args main_arg6 (by decide), hK.args main_arg7 (by decide), hK.args main_arg8 (by decide), hK.args main_arg21 (by decide), hK.args main_arg22 (by decide), ← dstCol_of]
  rfl

theorem keeps4 : Keeps m c (S4 m c) := (keeps3 m c).step m c kept_s2 (by decide)
theorem h1_4 : S4 m c (Proc.devRef .tc main_v48) = R.h1 (argsR m c) := (kept_s2 _ (by decide)).trans (h1_3 m c)
theorem s2_4 : S4 m c (Proc.devRef .tc main_v64) = R.s2 (argsR m c) := by
  have hK := keeps3 m c
  unfold S4
  rw [val_s2, h1_3, hK.src, hK.dst, hK.args main_arg2 (by decide), hK.args main_arg14 (by decide), hK.args main_arg15 (by decide), ← srcCol_of, ← dstCol_of]
  rfl

theorem keeps5 : Keeps m c (S5 m c) := (keeps4 m c).step m c kept_h2 (by decide)
theorem h2_5 : S5 m c (Proc.devRef .tc main_v88) = R.h2 (argsR m c) := by
  have hK := keeps4 m c
  unfold S5
  rw [val_h2, s2_4, h1_4, hK.dst, hK.args main_arg11 (by decide), hK.args main_arg12 (by decide), hK.args main_arg13 (by decide), hK.args main_arg23 (by decide), hK.args main_arg24 (by decide), ← dstCol_of]
  rfl

theorem keeps6 : Keeps m c (S6 m c) := (keeps5 m c).step m c kept_s3 (by decide)
theorem h2_6 : S6 m c (Proc.devRef .tc main_v88) = R.h2 (argsR m c) := (kept_s3 _ (by decide)).trans (h2_5 m c)
theorem s3_6 : S6 m c (Proc.devRef .tc main_v104) = R.s3 (argsR m c) := by
  have hK := keeps5 m c
  unfold S6
  rw [val_s3, h2_5, hK.src, hK.dst, hK.args main_arg2 (by decide), hK.args main_arg19 (by decide), hK.args main_arg20 (by decide), ← srcCol_of, ← dstCol_of]
  rfl

theorem keeps7 : Keeps m c (S7 m c) := (keeps6 m c).step m c kept_h3 (by decide)
theorem h3_7 : S7 m c (Proc.devRef .tc main_v128) = R.h3 (argsR m c) := by
  have hK := keeps6 m c
  unfold S7
  rw [val_h3, s3_6, h2_6, hK.dst, hK.args main_arg16 (by decide), hK.args main_arg17 (by decide), hK.args main_arg18 (by decide), hK.args main_arg25 (by decide), hK.args main_arg26 (by decide), ← dstCol_of]
  rfl

theorem keeps8 : Keeps m c (S8 m c) := (keeps7 m c).step m c kept_out (by decide)
theorem out_8 : S8 m c (Proc.devRef .tc main_v178) = R.out (argsR m c) := by
  have hK := keeps7 m c
  unfold S8
  rw [val_out, h3_7, hK.args main_arg3 (by decide), hK.args main_arg27 (by decide), hK.args main_arg28 (by decide), hK.args main_arg29 (by decide), hK.args main_arg30 (by decide), hK.args main_arg31 (by decide), hK.args main_arg32 (by decide)]
  rfl

/-- The result buffer after all 230 operations: the network's result of the launch memory's inputs. -/
theorem out_val : after ops (launchContents m c) (Proc.devRef .tc main_v178) = R.out (argsR m c) := by
  rw [after_ops]; exact out_8 m c

/-- An argument after all 230 operations: what the launch memory held. -/
theorem arg_val (r : Ref sig .tc) (hr : r ∈ argRefs) :
    after ops (launchContents m c) (Proc.devRef .tc r) = launchContents m c (Proc.devRef .tc r) := by
  rw [after_ops]; exact (keeps8 m c).args r hr

/-- Every weakly fair execution of @main ends with each buffer at the fold of the 230 operations over the launch memory. -/
theorem run_all (ρ : Dev nD → PrngReg) :
    θ_run defs (onTc (τ := τ) (main (F := Ideal))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => fresh_ops)

end RefRun

/-- The reference's run with its result named: the network's result of the launch memory's inputs. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v178) = R.out (argsR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32) :=
  (θ_run defs _ _).mono (fun _ h c => ⟨(h c main_v178).trans (RefRun.out_val m c),
      (h c main_arg0).trans (RefRun.arg_val m c main_arg0 (by decide)),
      (h c main_arg1).trans (RefRun.arg_val m c main_arg1 (by decide)),
      (h c main_arg2).trans (RefRun.arg_val m c main_arg2 (by decide)),
      (h c main_arg3).trans (RefRun.arg_val m c main_arg3 (by decide)),
      (h c main_arg4).trans (RefRun.arg_val m c main_arg4 (by decide)),
      (h c main_arg5).trans (RefRun.arg_val m c main_arg5 (by decide)),
      (h c main_arg6).trans (RefRun.arg_val m c main_arg6 (by decide)),
      (h c main_arg7).trans (RefRun.arg_val m c main_arg7 (by decide)),
      (h c main_arg8).trans (RefRun.arg_val m c main_arg8 (by decide)),
      (h c main_arg9).trans (RefRun.arg_val m c main_arg9 (by decide)),
      (h c main_arg10).trans (RefRun.arg_val m c main_arg10 (by decide)),
      (h c main_arg11).trans (RefRun.arg_val m c main_arg11 (by decide)),
      (h c main_arg12).trans (RefRun.arg_val m c main_arg12 (by decide)),
      (h c main_arg13).trans (RefRun.arg_val m c main_arg13 (by decide)),
      (h c main_arg14).trans (RefRun.arg_val m c main_arg14 (by decide)),
      (h c main_arg15).trans (RefRun.arg_val m c main_arg15 (by decide)),
      (h c main_arg16).trans (RefRun.arg_val m c main_arg16 (by decide)),
      (h c main_arg17).trans (RefRun.arg_val m c main_arg17 (by decide)),
      (h c main_arg18).trans (RefRun.arg_val m c main_arg18 (by decide)),
      (h c main_arg19).trans (RefRun.arg_val m c main_arg19 (by decide)),
      (h c main_arg20).trans (RefRun.arg_val m c main_arg20 (by decide)),
      (h c main_arg21).trans (RefRun.arg_val m c main_arg21 (by decide)),
      (h c main_arg22).trans (RefRun.arg_val m c main_arg22 (by decide)),
      (h c main_arg23).trans (RefRun.arg_val m c main_arg23 (by decide)),
      (h c main_arg24).trans (RefRun.arg_val m c main_arg24 (by decide)),
      (h c main_arg25).trans (RefRun.arg_val m c main_arg25 (by decide)),
      (h c main_arg26).trans (RefRun.arg_val m c main_arg26 (by decide)),
      (h c main_arg27).trans (RefRun.arg_val m c main_arg27 (by decide)),
      (h c main_arg28).trans (RefRun.arg_val m c main_arg28 (by decide)),
      (h c main_arg29).trans (RefRun.arg_val m c main_arg29 (by decide)),
      (h c main_arg30).trans (RefRun.arg_val m c main_arg30 (by decide)),
      (h c main_arg31).trans (RefRun.arg_val m c main_arg31 (by decide)),
      (h c main_arg32).trans (RefRun.arg_val m c main_arg32 (by decide))⟩)
    (RefRun.run_all m ρ)

end Cert.Bridge

end
-- ==== Proof.SharedK.lean ====
/-
  The host-side functions the kernel's program applies between its dense layers, as whole-array functions over the
  kernel program's shape records: the edge list's rows, a node's in-degree and its reciprocal, the rows of a table
  read by source index with a fill where the index is out of range, one convolution's message sum, and the
  graph-level tail.
-/
import proofs.«403348_j26843545600712_3_alg».proof.Proof.Gen.KernelIdeal

noncomputable section

namespace Cert.Bridge.K

open Cert.KernelIdeal Cert.KernelIdeal.Gen Idealize.ShloMosaic Idealize.ShloMosaic.TcCoe

variable {F : FTy → Type} [FloatOps F]

/-- Row 0 of the edge list: each edge's source node. -/
def srcRow (ei : IVec S2x320000 32) : IVec S320000 32 :=
  shapeCast _ (extractStridedSlice S1x320000 ![0, 0] ei slices_S2x320000_S1x320000_0_0) shapeCasts_S1x320000_S320000

/-- Row 1 of the edge list: each edge's destination node. -/
def dstRow (ei : IVec S2x320000 32) : IVec S320000 32 :=
  shapeCast _ (extractStridedSlice S1x320000 ![1, 0] ei slices_S2x320000_S1x320000_1_0) shapeCasts_S1x320000_S320000

/-- A source index counted from the end (negative) is moved up by the number of nodes. -/
def srcWrapped (ei : IVec S2x320000 32) : IVec S320000 32 :=
  select (cmpi .slt (srcRow ei) (broadcastInDim S320000 ![] bcast_S_S320000 (constantI S_ 32 0#32)))
    (addi (srcRow ei) (broadcastInDim S320000 ![] bcast_S_S320000 (constantI S_ 32 10000#32))) (srcRow ei)

/-- The wrapped sources as a column of start indices. -/
def srcCol (ei : IVec S2x320000 32) : IVec S320000x1 32 :=
  broadcastInDim S320000x1 ![0] bcast_S320000_S320000x1_0 (srcWrapped ei)

/-- The destinations as a column of scatter indices. -/
def dstCol (ei : IVec S2x320000 32) : IVec S320000x1 32 :=
  broadcastInDim S320000x1 ![0] bcast_S320000_S320000x1_0 (dstRow ei)

/-- The number of edges into each node, and 1 where there is none. -/
def degree (dcol : IVec S320000x1 32) : FVec F S10000x1 .f32 :=
  maximumf (Host.scatterAdd scatter_S10000x1_S320000x1_S320000x1_1_0_0_1 (broadcastInDim S10000x1 ![] bcast_S_S10000x1 (constant S_ .f32 0x00000000#32)) dcol (broadcastInDim S320000x1 ![] bcast_S_S320000x1 (constant S_ .f32 0x3F800000#32))) (broadcastInDim S10000x1 ![] bcast_S_S10000x1 (constant S_ .f32 0x3F800000#32))

/-- The edge feature's linear image, one row per edge: `ea · we + be`. -/
def edgeTerm (ea : FVec F S320000x1 .f32) (we : FVec F S1x256 .f32) (be : FVec F S256 .f32) : FVec F S320000x256 .f32 :=
  addf (Host.dotGeneral dot_S320000x1_S1x256_S320000x256_1_0_0_1_n_n none ea we) (broadcastInDim S320000x256 ![0, 1] bcast_S1x256_S320000x256_0_1 (broadcastInDim S1x256 ![1] bcast_S256_S1x256_1 be))

/-- The messages `relu (rows + edgeTerm)`, summed into their destination nodes. -/
def edgeSumOf (rows : FVec F S320000x256 .f32) (dcol : IVec S320000x1 32) (ea : FVec F S320000x1 .f32) (we : FVec F S1x256 .f32)
    (be : FVec F S256 .f32) : FVec F S10000x256 .f32 :=
  Host.scatterAdd scatter_S10000x256_S320000x1_S320000x256_1_0_0_1 (broadcastInDim S10000x256 ![] bcast_S_S10000x256 (constant S_ .f32 0x00000000#32)) dcol
    (maximumf (addf rows (edgeTerm ea we be)) (broadcastInDim S320000x256 ![] bcast_S_S320000x256 (constant S_ .f32 0x00000000#32)))

/-- Row `scol e` of `h` for every edge `e` (the start index clamped into the table, as the gather does). -/
def gatherRows (h : FVec F S10000x256 .f32) (scol : IVec S320000x1 32) : FVec F S320000x256 .f32 :=
  Host.gather gather_S10000x256_S320000x1_S320000x256_1_0_n_n_0_1_1256 h scol

/-- Mean of the node rows of each graph (`bidx` names a node's graph; an empty graph divides by 1). -/
def poolMean (h3 : FVec F S10000x128 .f32) (bidx : IVec S10000 32) : FVec F S64x128 .f32 :=
  Host.divf (Host.scatterAdd scatter_S64x128_S10000x1_S10000x128_1_0_0_1 (broadcastInDim S64x128 ![] bcast_S_S64x128 (constant S_ .f32 0x00000000#32)) (broadcastInDim S10000x1 ![0] bcast_S10000_S10000x1_0 bidx) h3)
    (broadcastInDim S64x128 ![0, 1] bcast_S64x1_S64x128_0_1
      (maximumf (Host.scatterAdd scatter_S64x1_S10000x1_S10000x1_1_0_0_1 (broadcastInDim S64x1 ![] bcast_S_S64x1 (constant S_ .f32 0x00000000#32)) (broadcastInDim S10000x1 ![0] bcast_S10000_S10000x1_0 bidx) (broadcastInDim S10000x1 ![] bcast_S_S10000x1 (constant S_ .f32 0x3F800000#32))) (broadcastInDim S64x1 ![] bcast_S_S64x1 (constant S_ .f32 0x3F800000#32))))

/-- The pooled rows through the output linear layer. -/
def headLin (p : FVec F S64x128 .f32) (ohw : FVec F S128x256 .f32) (ohb : FVec F S256 .f32) : FVec F S64x256 .f32 :=
  addf (Host.dotGeneral dot_S64x128_S128x256_S64x256_1_0_0_1_n_n none p ohw) (broadcastInDim S64x256 ![0, 1] bcast_S1x256_S64x256_0_1 (broadcastInDim S1x256 ![1] bcast_S256_S1x256_1 ohb))

/-- Column means over the 64 graphs. -/
def colMean (g : FVec F S64x256 .f32) : FVec F S256 .f32 :=
  Host.divf (Host.reduceAdd g (constant S_ .f32 0x00000000#32) reducesTo_S64x256_S256_d0 h_S_)
    (broadcastInDim S256 ![] bcast_S_S256 (constant S_ .f32 0x42800000#32))

/-- `g` with its column means taken off. -/
def centred (g : FVec F S64x256 .f32) : FVec F S64x256 .f32 :=
  subf g (broadcastInDim S64x256 ![0, 1] bcast_S1x256_S64x256_0_1 (broadcastInDim S1x256 ![1] bcast_S256_S1x256_1 (colMean g)))

/-- Batch normalisation over the 64 graphs, with scale `gamma` and shift `beta`. -/
def batchNorm (g : FVec F S64x256 .f32) (gamma beta : FVec F S256 .f32) : FVec F S64x256 .f32 :=
  addf (Host.divf (mulf (broadcastInDim S64x256 ![0, 1] bcast_S1x256_S64x256_0_1 (broadcastInDim S1x256 ![1] bcast_S256_S1x256_1 gamma)) (centred g))
      (broadcastInDim S64x256 ![0, 1] bcast_S1x256_S64x256_0_1 (broadcastInDim S1x256 ![1] bcast_S256_S1x256_1 (Host.sqrt (addf (colMean (mulf (centred g) (centred g))) (broadcastInDim S256 ![] bcast_S_S256 (constant S_ .f32 0x3727C5AC#32)))))))
    (broadcastInDim S64x256 ![0, 1] bcast_S1x256_S64x256_0_1 (broadcastInDim S1x256 ![1] bcast_S256_S1x256_1 beta))

/-- `a` where it is nonnegative, a hundredth of it elsewhere. -/
def leaky64 (a : FVec F S64x256 .f32) : FVec F S64x256 .f32 :=
  select (cmpf .oge a (broadcastInDim S64x256 ![] bcast_S_S64x256 (constant S_ .f32 0x00000000#32))) a (mulf (broadcastInDim S64x256 ![] bcast_S_S64x256 (constant S_ .f32 0x3C23D70A#32)) a)

/-- The readout: one number per graph. -/
def readout (g : FVec F S64x256 .f32) (h1w : FVec F S256x1 .f32) (h1b : FVec F S1 .f32) : FVec F S64x1 .f32 :=
  maximumf (addf (Host.dotGeneral dot_S64x256_S256x1_S64x1_1_0_0_1_n_n none g h1w)
      (broadcastInDim S64x1 ![0, 1] bcast_S1x1_S64x1_0_1 (broadcastInDim S1x1 ![1] bcast_S1_S1x1_1 h1b))) (broadcastInDim S64x1 ![] bcast_S_S64x1 (constant S_ .f32 0x00000000#32))

/-- Everything after the last graph convolution. -/
def tail (h3 : FVec F S10000x128 .f32) (bidx : IVec S10000 32) (ohw : FVec F S128x256 .f32) (ohb : FVec F S256 .f32)
    (h1w : FVec F S256x1 .f32) (h1b : FVec F S1 .f32) (gamma beta : FVec F S256 .f32) : FVec F S64x1 .f32 :=
  readout (leaky64 (batchNorm (headLin (poolMean h3 bidx) ohw ohb) gamma beta)) h1w h1b

/-- One over the in-degree. -/
def recip (dcol : IVec S320000x1 32) : FVec F S10000x1 .f32 :=
  Host.divf (broadcastInDim S10000x1 ![] bcast_S_S10000x1 (constant S_ .f32 0x3F800000#32)) (degree dcol)

/-- Per edge: is the wrapped source index a row of the table, `0 ≤ · ≤ 9999`? -/
def srcInRange (scol : IVec S320000x1 32) : IVec S320000 1 :=
  Host.reduce IntOp.andi
    (andi (cmpi .sge scol (broadcastInDim S320000x1 ![] bcast_S_S320000x1 (constantI S_ 32 0#32)))
      (cmpi .sle scol (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- The table's rows by source index, a fill value on the edges whose index is out of range. -/
def takeRows (h : FVec F S10000x256 .f32) (scol : IVec S320000x1 32) : FVec F S320000x256 .f32 :=
  select (broadcastInDim S320000x256 ![0] bcast_S320000_S320000x256_0 (srcInRange scol)) (gatherRows h scol)
    (broadcastInDim S320000x256 ![] bcast_S_S320000x256 (constant S_ .f32 0x7FC00000#32))

end Cert.Bridge.K

end
-- ==== Proof.KFold.lean ====
/-
  The kernel program's buffers read back through its run. The run is a fold over fifteen segment boundaries: a host
  stretch leaves a buffer none of its operations writes as it was and gives each buffer it writes the operation's
  function of its operands; a pallas_call leaves every buffer that is not one of its arrays as it was, an input array
  as it was, and an output array at what its write-backs leave. Read back so: the edge list's two rows, one over the
  in-degree and the arguments hold at every boundary what the first stretch computed or the launch memory held, and each
  convolution's message sum is the scatter of relu (rows read by source index with a fill + edge term).
-/
import proofs.«403348_j26843545600712_3_alg».proof.Proof.Gen.KernelIdeal.Frame
import proofs.«403348_j26843545600712_3_alg».proof.Proof.SharedK
import Idealize.ShloMosaic.Lib.StableHlo.Run

set_option maxRecDepth 16384

noncomputable section

namespace Cert.Bridge

open Cert.KernelIdeal Cert.KernelIdeal.Gen Idealize.ShloMosaic Idealize.ShloMosaic.TcCoe Idealize.SL.Sem Idealize.ShloMosaic.StableHlo

variable {F : FTy → Type} [FloatOps F]

/-! ## The index columns from the edge list's rows -/

/-- A source row with its negative entries moved up by the number of nodes. -/
def srcWrappedOf (src : IVec S320000 32) : IVec S320000 32 :=
  select (cmpi .slt src (broadcastInDim S320000 ![] bcast_S_S320000 (constantI S_ 32 0#32)))
    (addi src (broadcastInDim S320000 ![] bcast_S_S320000 (constantI S_ 32 10000#32))) src

/-- The wrapped source row as a column of start indices. -/
def srcColOf (src : IVec S320000 32) : IVec S320000x1 32 :=
  broadcastInDim S320000x1 ![0] bcast_S320000_S320000x1_0 (srcWrappedOf src)

/-- A destination row as a column of scatter indices. -/
def dstColOf (dst : IVec S320000 32) : IVec S320000x1 32 :=
  broadcastInDim S320000x1 ![0] bcast_S320000_S320000x1_0 dst

theorem srcCol_of (ei : IVec S2x320000 32) : K.srcCol ei = srcColOf (K.srcRow ei) := rfl
theorem dstCol_of (ei : IVec S2x320000 32) : K.dstCol ei = dstColOf (K.dstRow ei) := rfl

/-! ## Steps back through the fold -/

/-- One step back over a host stretch none of whose operations writes the buffer read: the step first fixes the
    stretch and the buffer from the goal, then checks the buffer against each operation's result. -/
macro "past_host" : tactic => `(tactic| (
  refine Eq.trans (StableHlo.after_of_forall_not_mem _ _ ?_) ?_
  · refine List.forall_iff_forall_mem.mp ?_
    simp only [hostOps0, hostOps1, hostOps1_1, hostOps2, hostOps2_1, hostOps3, hostOps3_1, hostOps4, hostOps4_1, hostOps4_2, hostOps4_3,
      List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals (apply StableHlo.devRef_ne_of_ne; decide)))

variable (m : (ℓ : Loc nD τ sig) → Buf (Elt F) ℓ) (ρ : Dev nD → PrngReg) (c : Dev nD)

/-- One step back over a pallas_call of which the buffer read is no array. -/
macro "past_region" : tactic => `(tactic| first
  | (refine Eq.trans (W2_of_ne _ _ _ _ ?_) ?_; · decide)
  | (refine Eq.trans (W5_of_ne _ _ _ _ ?_) ?_; · decide)
  | (refine Eq.trans (W8_of_ne _ _ _ _ ?_) ?_; · decide)
  | (refine Eq.trans (W11_of_ne _ _ _ _ ?_) ?_; · decide))

/-! ## What the first stretch computes -/

theorem W1_src : W1 m ρ c (Proc.devRef .tc main_v1) = K.srcRow (m ((c : Thread nD τ).loc main_arg1)) := by
  show StableHlo.after hostOps0 (W0 m ρ c) (Proc.devRef .tc main_v1) = _
  after_results; rfl

theorem W1_dst : W1 m ρ c (Proc.devRef .tc main_v3) = K.dstRow (m ((c : Thread nD τ).loc main_arg1)) := by
  show StableHlo.after hostOps0 (W0 m ρ c) (Proc.devRef .tc main_v3) = _
  after_results; rfl

theorem W1_recip : W1 m ρ c (Proc.devRef .tc main_v11) = K.recip (F := F) (K.dstCol (m ((c : Thread nD τ).loc main_arg1))) := by
  show StableHlo.after hostOps0 (W0 m ρ c) (Proc.devRef .tc main_v11) = _
  after_results; rfl

theorem W1_bias : W1 m ρ c (Proc.devRef .tc main_v12) = shapeCast S1x256 (m ((c : Thread nD τ).loc main_arg5)) shapeCasts_S256_S1x256 := by
  show StableHlo.after hostOps0 (W0 m ρ c) (Proc.devRef .tc main_v12) = _
  after_results; rfl

/-- One step back over a pallas_call (regions 1 to 3) for the column of reciprocal in-degrees, which is its input
    window 1: an input array is left as it was found. -/
macro "past_recip_window" : tactic => `(tactic| first
  | refine ((W5_arr _ _ _ 1).trans (((dat1 (V4 _ _) _).arrAt_in 1 rfl _).trans (A_eq1 (V4 _ _) _ 1))).trans ?_
  | refine ((W8_arr _ _ _ 1).trans (((dat2 (V7 _ _) _).arrAt_in 1 rfl _).trans (A_eq2 (V7 _ _) _ 1))).trans ?_
  | refine ((W11_arr _ _ _ 1).trans (((dat3 (V10 _ _) _).arrAt_in 1 rfl _).trans (A_eq3 (V10 _ _) _ 1))).trans ?_)

/-- Walk a read back through host stretches that do not write the buffer and pallas_calls of which it is no array
    (or input window 1), as far as that goes. -/
macro "read_back" : tactic => `(tactic| repeat (first | past_host | past_region | past_recip_window))

/-! ## What persists: the edge list's rows and the reciprocal in-degrees, at each pallas_call's exit and entry -/

set_option maxHeartbeats 4000000 in
theorem W2_src : W2 m ρ c (Proc.devRef .tc main_v1) = K.srcRow (m ((c : Thread nD τ).loc main_arg1)) := by read_back; exact W1_src m ρ c
set_option maxHeartbeats 4000000 in
theorem W2_dst : W2 m ρ c (Proc.devRef .tc main_v3) = K.dstRow (m ((c : Thread nD τ).loc main_arg1)) := by read_back; exact W1_dst m ρ c
set_option maxHeartbeats 4000000 in
theorem W5_src : W5 m ρ c (Proc.devRef .tc main_v1) = K.srcRow (m ((c : Thread nD τ).loc main_arg1)) := by read_back; exact W1_src m ρ c
set_option maxHeartbeats 4000000 in
theorem W5_dst : W5 m ρ c (Proc.devRef .tc main_v3) = K.dstRow (m ((c : Thread nD τ).loc main_arg1)) := by read_back; exact W1_dst m ρ c
set_option maxHeartbeats 4000000 in
theorem W8_src : W8 m ρ c (Proc.devRef .tc main_v1) = K.srcRow (m ((c : Thread nD τ).loc main_arg1)) := by read_back; exact W1_src m ρ c
set_option maxHeartbeats 4000000 in
theorem W8_dst : W8 m ρ c (Proc.devRef .tc main_v3) = K.dstRow (m ((c : Thread nD τ).loc main_arg1)) := by read_back; exact W1_dst m ρ c
set_option maxHeartbeats 4000000 in
theorem W4_recip : W4 m ρ c (Proc.devRef .tc main_v11) = K.recip (F := F) (K.dstCol (m ((c : Thread nD τ).loc main_arg1))) := by read_back; exact W1_recip m ρ c
set_option maxHeartbeats 4000000 in
theorem W7_recip : W7 m ρ c (Proc.devRef .tc main_v11) = K.recip (F := F) (K.dstCol (m ((c : Thread nD τ).loc main_arg1))) := by read_back; exact W1_recip m ρ c
set_option maxHeartbeats 4000000 in
theorem W10_recip : W10 m ρ c (Proc.devRef .tc main_v11) = K.recip (F := F) (K.dstCol (m ((c : Thread nD τ).loc main_arg1))) := by read_back; exact W1_recip m ρ c

/-! ## What each later stretch computes, from the contents at the pallas_call's exit before it -/

set_option maxHeartbeats 4000000 in
/-- Layer 1's message sum as its two host stretches compute it from the contents at the previous pallas_call's exit. -/
theorem W4_sum_raw : W4 m ρ c (Proc.devRef .tc main_v24)
    = K.edgeSumOf (F := F) (K.takeRows (W2 m ρ c (Proc.devRef .tc main_v13)) (srcColOf (W2 m ρ c (Proc.devRef .tc main_v1)))) (dstColOf (W2 m ρ c (Proc.devRef .tc main_v3)))
        (W2 m ρ c (Proc.devRef .tc main_arg2)) (W2 m ρ c (Proc.devRef .tc main_arg9)) (W2 m ρ c (Proc.devRef .tc main_arg10)) := by
  show StableHlo.after hostOps1_1 (StableHlo.after hostOps1 (W2 m ρ c)) (Proc.devRef .tc main_v24) = _
  after_results_simp
  try simp only [TRef.ofBuf, TRef.toBuf, cast_eq]
  rfl

set_option maxHeartbeats 4000000 in
/-- Layer 1's two bias vectors, reshaped to one row each for the pallas_call. -/
theorem W4_bl_raw : W4 m ρ c (Proc.devRef .tc main_v25) = shapeCast S1x256 (W2 m ρ c (Proc.devRef .tc main_arg7)) shapeCasts_S256_S1x256 := by
  show StableHlo.after hostOps1_1 (StableHlo.after hostOps1 (W2 m ρ c)) (Proc.devRef .tc main_v25) = _
  after_results_simp
  try simp only [TRef.ofBuf, TRef.toBuf, cast_eq]
  rfl

set_option maxHeartbeats 4000000 in
theorem W4_b2_raw : W4 m ρ c (Proc.devRef .tc main_v26) = shapeCast S1x256 (W2 m ρ c (Proc.devRef .tc main_arg22)) shapeCasts_S256_S1x256 := by
  show StableHlo.after hostOps1_1 (StableHlo.after hostOps1 (W2 m ρ c)) (Proc.devRef .tc main_v26) = _
  after_results_simp
  try simp only [TRef.ofBuf, TRef.toBuf, cast_eq]
  rfl

set_option maxHeartbeats 4000000 in
/-- Layer 2's message sum as its two host stretches compute it from the contents at the previous pallas_call's exit. -/
theorem W7_sum_raw : W7 m ρ c (Proc.devRef .tc main_v38)
    = K.edgeSumOf (F := F) (K.takeRows (W5 m ρ c (Proc.devRef .tc main_v27)) (srcColOf (W5 m ρ c (Proc.devRef .tc main_v1)))) (dstColOf (W5 m ρ c (Proc.devRef .tc main_v3)))
        (W5 m ρ c (Proc.devRef .tc main_arg2)) (W5 m ρ c (Proc.devRef .tc main_arg14)) (W5 m ρ c (Proc.devRef .tc main_arg15)) := by
  show StableHlo.after hostOps2_1 (StableHlo.after hostOps2 (W5 m ρ c)) (Proc.devRef .tc main_v38) = _
  after_results_simp
  try simp only [TRef.ofBuf, TRef.toBuf, cast_eq]
  rfl

set_option maxHeartbeats 4000000 in
/-- Layer 2's two bias vectors, reshaped to one row each for the pallas_call. -/
theorem W7_bl_raw : W7 m ρ c (Proc.devRef .tc main_v39) = shapeCast S1x256 (W5 m ρ c (Proc.devRef .tc main_arg12)) shapeCasts_S256_S1x256 := by
  show StableHlo.after hostOps2_1 (StableHlo.after hostOps2 (W5 m ρ c)) (Proc.devRef .tc main_v39) = _
  after_results_simp
  try simp only [TRef.ofBuf, TRef.toBuf, cast_eq]
  rfl

set_option maxHeartbeats 4000000 in
theorem W7_b2_raw : W7 m ρ c (Proc.devRef .tc main_v40) = shapeCast S1x256 (W5 m ρ c (Proc.devRef .tc main_arg24)) shapeCasts_S256_S1x256 := by
  show StableHlo.after hostOps2_1 (StableHlo.after hostOps2 (W5 m ρ c)) (Proc.devRef .tc main_v40) = _
  after_results_simp
  try simp only [TRef.ofBuf, TRef.toBuf, cast_eq]
  rfl

set_option maxHeartbeats 4000000 in
/-- Layer 3's message sum as its two host stretches compute it from the contents at the previous pallas_call's exit. -/
theorem W10_sum_raw : W10 m ρ c (Proc.devRef .tc main_v52)
    = K.edgeSumOf (F := F) (K.takeRows (W8 m ρ c (Proc.devRef .tc main_v41)) (srcColOf (W8 m ρ c (Proc.devRef .tc main_v1)))) (dstColOf (W8 m ρ c (Proc.devRef .tc main_v3)))
        (W8 m ρ c (Proc.devRef .tc main_arg2)) (W8 m ρ c (Proc.devRef .tc main_arg19)) (W8 m ρ c (Proc.devRef .tc main_arg20)) := by
  show StableHlo.after hostOps3_1 (StableHlo.after hostOps3 (W8 m ρ c)) (Proc.devRef .tc main_v52) = _
  after_results_simp
  try simp only [TRef.ofBuf, TRef.toBuf, cast_eq]
  rfl

set_option maxHeartbeats 4000000 in
/-- Layer 3's two bias vectors, reshaped to one row each for the pallas_call. -/
theorem W10_bl_raw : W10 m ρ c (Proc.devRef .tc main_v53) = shapeCast S1x128 (W8 m ρ c (Proc.devRef .tc main_arg17)) shapeCasts_S128_S1x128 := by
  show StableHlo.after hostOps3_1 (StableHlo.after hostOps3 (W8 m ρ c)) (Proc.devRef .tc main_v53) = _
  after_results_simp
  try simp only [TRef.ofBuf, TRef.toBuf, cast_eq]
  rfl

set_option maxHeartbeats 4000000 in
theorem W10_b2_raw : W10 m ρ c (Proc.devRef .tc main_v54) = shapeCast S1x128 (W8 m ρ c (Proc.devRef .tc main_arg26)) shapeCasts_S128_S1x128 := by
  show StableHlo.after hostOps3_1 (StableHlo.after hostOps3 (W8 m ρ c)) (Proc.devRef .tc main_v54) = _
  after_results_simp
  try simp only [TRef.ofBuf, TRef.toBuf, cast_eq]
  rfl

set_option maxHeartbeats 8000000 in
/-- The result: the graph-level tail of the last pallas_call's output array and the head's weights. -/
theorem W15_tail_raw : W15 m ρ c (Proc.devRef .tc main_v105)
    = K.tail (F := F) (W11 m ρ c (Proc.devRef .tc main_v55)) (W11 m ρ c (Proc.devRef .tc main_arg3)) (W11 m ρ c (Proc.devRef .tc main_arg27)) (W11 m ρ c (Proc.devRef .tc main_arg28))
        (W11 m ρ c (Proc.devRef .tc main_arg29)) (W11 m ρ c (Proc.devRef .tc main_arg30)) (W11 m ρ c (Proc.devRef .tc main_arg31)) (W11 m ρ c (Proc.devRef .tc main_arg32)) := by
  show StableHlo.after hostOps4_3 (StableHlo.after hostOps4_2 (StableHlo.after hostOps4_1 (StableHlo.after hostOps4 (W11 m ρ c))))
    (Proc.devRef .tc main_v105) = _
  after_results_simp
  try simp only [TRef.ofBuf, TRef.toBuf, cast_eq]
  rfl

end Cert.Bridge

end
-- ==== Proof.SharedEq.lean ====
/-
  The host-side functions written over the kernel program's shape records are the ones written over the reference
  program's: the two programs state the same shape relations, so the two spellings unfold to one term.
-/
import proofs.«403348_j26843545600712_3_alg».proof.Proof.SharedK
import proofs.«403348_j26843545600712_3_alg».proof.Proof.SharedR

noncomputable section

namespace Cert.Bridge

open Idealize.ShloMosaic

variable {F : FTy → Type} [FloatOps F]

theorem srcCol_eq (ei : IVec Cert.KernelIdeal.S2x320000 32) : K.srcCol ei = R.srcCol ei := rfl
theorem dstCol_eq (ei : IVec Cert.KernelIdeal.S2x320000 32) : K.dstCol ei = R.dstCol ei := rfl
theorem degree_eq (d : IVec Cert.KernelIdeal.S320000x1 32) : K.degree (F := F) d = R.degree d := rfl
theorem gatherRows_eq (h : FVec F Cert.KernelIdeal.S10000x256 .f32) (s : IVec Cert.KernelIdeal.S320000x1 32) :
    K.gatherRows h s = R.gatherRows h s := rfl
theorem edgeSumOf_eq (rows : FVec F Cert.KernelIdeal.S320000x256 .f32) (d : IVec Cert.KernelIdeal.S320000x1 32)
    (ea : FVec F Cert.KernelIdeal.S320000x1 .f32) (we : FVec F Cert.KernelIdeal.S1x256 .f32) (be : FVec F Cert.KernelIdeal.S256 .f32) :
    K.edgeSumOf rows d ea we be = R.edgeSumOf rows d ea we be := rfl
theorem tail_eq (h3 : FVec F Cert.KernelIdeal.S10000x128 .f32) (b : IVec Cert.KernelIdeal.S10000 32)
    (ohw : FVec F Cert.KernelIdeal.S128x256 .f32) (ohb : FVec F Cert.KernelIdeal.S256 .f32) (h1w : FVec F Cert.KernelIdeal.S256x1 .f32)
    (h1b : FVec F Cert.KernelIdeal.S1 .f32) (gamma beta : FVec F Cert.KernelIdeal.S256 .f32) :
    K.tail h3 b ohw ohb h1w h1b gamma beta = R.tail h3 b ohw ohb h1w h1b gamma beta := rfl

end Cert.Bridge

end
-- ==== Proof.Degree.lean ====
/-
  The in-degree column is nowhere zero: it is the maximum of a count and 1, and 1 is positive.
-/
import proofs.«403348_j26843545600712_3_alg».proof.Proof.SharedR
import Idealize.ShloMosaic.Lib.ValueIdx
import Idealize.ShloMosaic.Lib.Pipeline.Value
import Idealize.ShloMosaic.PureOps.Ideal.Laws

noncomputable section

namespace Cert.Bridge

open Cert.ReferenceIdeal Cert.ReferenceIdeal.Gen Idealize.ShloMosaic Idealize.ShloMosaic.TcCoe

/-- The f32 word 0x3F800000 is the number 1. -/
theorem one_word : Ideal.ofBits .f32 0x3F800000#32 = (1 : EReal) := by
  simp [Ideal.ofBits, Ideal.ieee]
  rw [← EReal.coe_mul]; norm_num

/-- The in-degree column, a maximum with 1 at every node, is nowhere zero. -/
theorem degree_ne_zero (d : IVec S320000x1 32) (i : S10000x1.Idx) : R.degree (F := Ideal) d i ≠ 0 := by
  unfold R.degree
  rw [ValueIdx.maximumf_apply]
  have h1 : (broadcastInDim S10000x1 ![] bcast_S_S10000x1 (constant (F := Ideal) S_ .f32 0x3F800000#32)) i = (1 : EReal) := by
    rw [broadcastInDim_apply _ bcast_S_S10000x1 _ i (fun a => a.elim0) (fun a => a.elim0)]
    exact one_word
  rw [h1]
  exact ne_of_gt (lt_of_lt_of_le zero_lt_one (le_max_right _ _))

end Cert.Bridge

end
-- ==== Proof.PreDecode.lean ====
/-
  What the precondition says of the edge list: every source index lies in [-10000, 10000), so after the wrap of the
  negative ones every start index is a row of the 10000-row table, the in-range mask of the row read is all ones, and
  the read with a fill is the plain gather.
-/
import proofs.«403348_j26843545600712_3_alg».proof.Defs
import proofs.«403348_j26843545600712_3_alg».proof.Proof.Gen.Pre_finite_inputs
import proofs.«403348_j26843545600712_3_alg».proof.Proof.SharedK
import Idealize.ShloMosaic.Lib.StableHlo.Predicate
import Idealize.ShloMosaic.Lib.ReduceAll
import Idealize.ShloMosaic.Lib.ValueIdx
import Idealize.ShloMosaic.Lib.ValueLayout

noncomputable section

namespace Cert.Bridge

open Cert.KernelIdeal Cert.KernelIdeal.Gen Idealize.ShloMosaic Idealize.ShloMosaic.TcCoe Idealize.SL.Sem

/-! ## Signed comparisons of 32-bit words, as comparisons of their signed values -/

/-- `a <ₛ b` is 1 exactly when the signed value of `a` is below that of `b`. -/
theorem cmpi_slt_iff (a b : BitVec 32) : IntOp.cmpi .slt a b = 1#1 ↔ a.toInt < b.toInt := by
  simp only [IntOp.cmpi, StableHlo.Predicate.ofBool_eq_one_iff, BitVec.slt, decide_eq_true_eq]

/-- `a ≤ₛ b` is 1 exactly when the signed value of `a` is at most that of `b`. -/
theorem cmpi_sle_iff (a b : BitVec 32) : IntOp.cmpi .sle a b = 1#1 ↔ a.toInt ≤ b.toInt := by
  simp only [IntOp.cmpi, StableHlo.Predicate.ofBool_eq_one_iff, BitVec.sle, decide_eq_true_eq]

/-- `a ≥ₛ b` is 1 exactly when the signed value of `b` is at most that of `a`. -/
theorem cmpi_sge_iff (a b : BitVec 32) : IntOp.cmpi .sge a b = 1#1 ↔ b.toInt ≤ a.toInt := by
  simp only [IntOp.cmpi, StableHlo.Predicate.ofBool_eq_one_iff, BitVec.sle, decide_eq_true_eq]

/-- The wrap of one index: a word `s` with -10000 ≤ s < 10000 (signed; 4294957296 is the word of -10000), moved up by
    10000 when it is negative, lands in [0, 9999]. On the negative branch the sum s + 10000 lies in [0, 10000), far inside
    the signed range, so the 32-bit addition does not wrap and its signed value is the integers' sum. -/
theorem wrap_in_range (s : BitVec 32)
    (hlo : IntOp.cmpi .sge s 4294957296#32 = 1#1) (hhi : IntOp.cmpi .slt s 10000#32 = 1#1) :
    IntOp.cmpi .sge (Scalar.select (IntOp.cmpi .slt s 0#32) (IntOp.addi s 10000#32) s) 0#32 = 1#1
      ∧ IntOp.cmpi .sle (Scalar.select (IntOp.cmpi .slt s 0#32) (IntOp.addi s 10000#32) s) 9999#32 = 1#1 := by
  have e0 : (0#32).toInt = 0 := by decide
  have e1 : (10000#32).toInt = 10000 := by decide
  have e2 : (9999#32).toInt = 9999 := by decide
  have e3 : (4294957296#32).toInt = -10000 := by decide
  rw [cmpi_sge_iff, e3] at hlo
  rw [cmpi_slt_iff, e1] at hhi
  by_cases hneg : IntOp.cmpi .slt s 0#32 = 1#1
  · -- s < 0: the wrapped index is s + 10000, in [0, 10000)
    rw [hneg, ValueIdx.select_one, cmpi_sge_iff, cmpi_sle_iff, e0, e2]
    rw [cmpi_slt_iff, e0] at hneg
    have ha : (IntOp.addi s 10000#32).toInt = s.toInt + 10000 := by
      unfold IntOp.addi
      rw [BitVec.toInt_add, e1]
      apply Int.bmod_eq_of_le <;> omega
    rw [ha]
    omega
  · -- 0 ≤ s: the index is kept, and s < 10000
    rw [ValueIdx.eq_zero_of_ne_one hneg, ValueIdx.select_zero, cmpi_sge_iff, cmpi_sle_iff, e0, e2]
    rw [cmpi_slt_iff, e0] at hneg
    omega

/-! ## A reduction by `and` of an all-ones array -/

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduction by `and`, from the initial value 1, of an array whose every element is 1 is 1 at every result index
    (whichever elements reduce into it). -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  exact foldl_andi_one (fun n => x (s.rowMajor.symm n)) (fun n => hx _) _

/-! ## The precondition's last conjunct, read at one edge -/

/-- The scalar shape has one index. -/
instance : Subsingleton Cert.Pre_finite_inputs.S_.Idx := ⟨fun a b => funext fun d => d.elim0⟩

/-- The precondition is a chain of 32 conjuncts joined by `and`; its outermost (last) one is the `and` over all 320000
    edges of "-10000 ≤ source ∧ source < 10000" (signed), the source row being row 0 of the edge list. The whole chain is
    1, so its last conjunct is 1, so that reduction's every element is 1: at edge `e` both comparisons hold. (The constants
    are scalars broadcast along the edges: at any edge they read the scalar.) -/
theorem src_range (m : (ℓ : Loc nD τ sig) → Buf (Elt Ideal) ℓ) (hpre : Cert.Pre_KernelIdeal m) (c : Dev nD) (e : Fin 320000) :
    IntOp.cmpi .sge (K.srcRow (m ((c : Thread nD τ).loc main_arg1)) (ValueIdx.ix1 e)) 4294957296#32 = 1#1
      ∧ IntOp.cmpi .slt (K.srcRow (m ((c : Thread nD τ).loc main_arg1)) (ValueIdx.ix1 e)) 10000#32 = 1#1 := by
  have h0 := congrFun (hpre c) ValueIdx.ix0
  -- the chain's value is its last part's: (the first 31 conjuncts) and (the source-range conjunct)
  have h9 : Cert.Pre_finite_inputs.fn_part9 (F := Ideal) (m ((c : Thread nD τ).loc main_arg1)) _ ValueIdx.ix0 = 1#1 := h0
  have hr := (IntOp.andi_eq_one.1 h9).2
  have he := Host.reduce_andi_all _ _ _ _ _ hr (ValueIdx.ix1 e)
  exact IntOp.andi_eq_one.1 he

/-! ## The in-range mask is all ones, and the read with a fill is the gather -/

/-- The column of start indices at (p, 0) is the wrapped source of edge `p`. -/
theorem srcCol_apply (ei : IVec S2x320000 32) (p : Fin 320000) (q : Fin 1) :
    K.srcCol ei (ValueIdx.ix2 p q) = K.srcWrapped ei (ValueIdx.ix1 p) := by
  unfold K.srcCol
  refine broadcastInDim_apply _ _ _ (ValueIdx.ix2 p q) (ValueIdx.ix1 p) (fun a => ?_)
  match a with
  | ⟨0, _⟩ => rfl

/-- Under the precondition every edge's wrapped source index is a row of the table: the in-range mask, the `and` along
    the length-1 axis of "0 ≤ start ∧ start ≤ 9999", is 1 at every edge, since every element of the column satisfies
    both comparisons (`src_range` through `wrap_in_range`). -/
theorem srcInRange_one (m : (ℓ : Loc nD τ sig) → Buf (Elt Ideal) ℓ) (hpre : Cert.Pre_KernelIdeal m) (c : Dev nD)
    (j : S320000.Idx) : K.srcInRange (K.srcCol (m ((c : Thread nD τ).loc main_arg1))) j = 1#1 := by
  unfold K.srcInRange
  refine reduce_andi_one _ _ _ _ (fun i => ?_) rfl j
  obtain ⟨p, q, rfl⟩ : ∃ (p : Fin 320000) (q : Fin 1), i = ValueIdx.ix2 p q := ⟨i 0, i 1, ValueIdx.eq_ix2 i⟩
  show IntOp.andi (IntOp.cmpi .sge (K.srcCol (m ((c : Thread nD τ).loc main_arg1)) (ValueIdx.ix2 p q)) 0#32)
      (IntOp.cmpi .sle (K.srcCol (m ((c : Thread nD τ).loc main_arg1)) (ValueIdx.ix2 p q)) 9999#32) = 1#1
  rw [srcCol_apply]
  obtain ⟨hlo, hhi⟩ := src_range m hpre c p
  exact IntOp.andi_eq_one.2 (wrap_in_range _ hlo hhi)

/-- Under the precondition the row read with a fill is the plain gather: no wrapped source index is out of range. -/
theorem take_eq_gather (m : (ℓ : Loc nD τ sig) → Buf (Elt Ideal) ℓ) (hpre : Cert.Pre_KernelIdeal m) (c : Dev nD)
    (h : FVec Ideal S10000x256 .f32) :
    K.takeRows (F := Ideal) h (K.srcCol (m ((c : Thread nD τ).loc main_arg1)))
      = K.gatherRows h (K.srcCol (m ((c : Thread nD τ).loc main_arg1))) := by
  funext i
  obtain ⟨p, q, rfl⟩ : ∃ (p : Fin 320000) (q : Fin 256), i = ValueIdx.ix2 p q := ⟨i 0, i 1, ValueIdx.eq_ix2 i⟩
  unfold K.takeRows
  rw [ValueIdx.select_apply]
  -- the mask broadcast along the 256 columns reads, at (p, q), the in-range bit of edge p, which is 1
  have hb : broadcastInDim S320000x256 ![0] bcast_S320000_S320000x256_0
      (K.srcInRange (K.srcCol (m ((c : Thread nD τ).loc main_arg1)))) (ValueIdx.ix2 p q) = 1#1 := by
    rw [broadcastInDim_apply _ _ _ (ValueIdx.ix2 p q) (ValueIdx.ix1 p) (fun a => by match a with | ⟨0, _⟩ => rfl)]
    exact srcInRange_one m hpre c _
  rw [hb, ValueIdx.select_one]

end Cert.Bridge

end
-- ==== Proof.Reg0.lean ====
/-
  The input layer's pallas_call (grid of 10 row blocks of 1000): the array it leaves is `relu (x · w + b)` of the arrays it found,
  row i of the result being written by point i / 1000 from row i of x, all of w and all of b.
-/
import proofs.«403348_j26843545600712_3_alg».proof.Proof.Gen.KernelIdeal.Frame
import proofs.«403348_j26843545600712_3_alg».proof.Proof.SharedR
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! The layer's lemmas live in their own namespace: the sibling regions state the same kinds of facts about their own windows. -/
namespace Reg0

/-! ## The reference's layer at an index

Entry (i, j) of `relu (x · w + b)` is `max (Σ_k x[i,k] · w[k,j] + b[j]) 0`: the product's operand indices at output index
(i, j) and contraction index k are (i, k) and (k, j); the bias is read through its two broadcasts at column j. -/

/-- The left operand's row is the output's row … -/
theorem lin_lhs_0 (i : Cert.ReferenceIdeal.S10000x256.Idx) (q : Cert.ReferenceIdeal.dot_S10000x128_S128x256_S10000x256_1_0_0_1_n_n.contr.Idx) :
    (Cert.ReferenceIdeal.dot_S10000x128_S128x256_S10000x256_1_0_0_1_n_n.lhsIdx i q 0).val = (i 0).val := by
  unfold DotDims.lhsIdx
  rw [dif_neg (show ¬(0 : Fin Cert.ReferenceIdeal.S10000x128.rank) ∈ Cert.ReferenceIdeal.dot_S10000x128_S128x256_S10000x256_1_0_0_1_n_n.lhsBatch by decide), dif_pos (show (0 : Fin Cert.ReferenceIdeal.S10000x128.rank) ∈ Cert.ReferenceIdeal.dot_S10000x128_S128x256_S10000x256_1_0_0_1_n_n.lhsNonContracting by decide)]
  rfl
/-- … its column the contraction index; -/
theorem lin_lhs_1 (i : Cert.ReferenceIdeal.S10000x256.Idx) (q : Cert.ReferenceIdeal.dot_S10000x128_S128x256_S10000x256_1_0_0_1_n_n.contr.Idx) :
    (Cert.ReferenceIdeal.dot_S10000x128_S128x256_S10000x256_1_0_0_1_n_n.lhsIdx i q 1).val = (q ⟨0, by decide⟩).val :=
  Cert.ReferenceIdeal.dot_S10000x128_S128x256_S10000x256_1_0_0_1_n_n.lhsIdx_val_of_single rfl i q
/-- the right operand's row is the contraction index … -/
theorem lin_rhs_0 (i : Cert.ReferenceIdeal.S10000x256.Idx) (q : Cert.ReferenceIdeal.dot_S10000x128_S128x256_S10000x256_1_0_0_1_n_n.contr.Idx) :
    (Cert.ReferenceIdeal.dot_S10000x128_S128x256_S10000x256_1_0_0_1_n_n.rhsIdx i q 0).val = (q ⟨0, by decide⟩).val :=
  Cert.ReferenceIdeal.dot_S10000x128_S128x256_S10000x256_1_0_0_1_n_n.rhsIdx_val_of_single rfl i q
/-- … and its column the output's column. -/
theorem lin_rhs_1 (i : Cert.ReferenceIdeal.S10000x256.Idx) (q : Cert.ReferenceIdeal.dot_S10000x128_S128x256_S10000x256_1_0_0_1_n_n.contr.Idx) :
    (Cert.ReferenceIdeal.dot_S10000x128_S128x256_S10000x256_1_0_0_1_n_n.rhsIdx i q 1).val = (i 1).val := by
  unfold DotDims.rhsIdx
  rw [dif_neg (show ¬(1 : Fin Cert.ReferenceIdeal.S128x256.rank) ∈ Cert.ReferenceIdeal.dot_S10000x128_S128x256_S10000x256_1_0_0_1_n_n.rhsBatch by decide), dif_pos (show (1 : Fin Cert.ReferenceIdeal.S128x256.rank) ∈ Cert.ReferenceIdeal.dot_S10000x128_S128x256_S10000x256_1_0_0_1_n_n.rhsNonContracting by decide)]
  rfl

/-- The reference's product `x · w` at (i, j): the sum over k of x[i,k] · w[k,j]. -/
theorem lin_dot_apply (x : FVec Ideal Cert.ReferenceIdeal.S10000x128 .f32) (w : FVec Ideal Cert.ReferenceIdeal.S128x256 .f32) (i : Fin 10000) (j : Fin 256) :
    Host.dotGeneral (F := Ideal) Cert.ReferenceIdeal.dot_S10000x128_S128x256_S10000x256_1_0_0_1_n_n none x w (ix2 i j)
      = ∑ k : Fin 128, x (ix2 i k) * w (ix2 k j) := by
  simp only [Host.dotGeneral]
  rw [Ideal.dotGeneral_apply, ← Equiv.sum_comp (contrEquiv1 Cert.ReferenceIdeal.dot_S10000x128_S128x256_S10000x256_1_0_0_1_n_n 128 rfl rfl).symm]
  refine Finset.sum_congr rfl fun k _ => ?_
  have hk := contrEquiv1_symm_val Cert.ReferenceIdeal.dot_S10000x128_S128x256_S10000x256_1_0_0_1_n_n 128 rfl rfl k
  have el : Cert.ReferenceIdeal.dot_S10000x128_S128x256_S10000x256_1_0_0_1_n_n.lhsIdx (ix2 i j) ((contrEquiv1 Cert.ReferenceIdeal.dot_S10000x128_S128x256_S10000x256_1_0_0_1_n_n 128 rfl rfl).symm k) = ix2 i k := funext fun a => Fin.ext (by
    match a with
    | ⟨0, _⟩ => exact lin_lhs_0 _ _
    | ⟨1, _⟩ => exact (lin_lhs_1 _ _).trans hk)
  have er : Cert.ReferenceIdeal.dot_S10000x128_S128x256_S10000x256_1_0_0_1_n_n.rhsIdx (ix2 i j) ((contrEquiv1 Cert.ReferenceIdeal.dot_S10000x128_S128x256_S10000x256_1_0_0_1_n_n 128 rfl rfl).symm k) = ix2 k j := funext fun a => Fin.ext (by
    match a with
    | ⟨0, _⟩ => exact (lin_rhs_0 _ _).trans hk
    | ⟨1, _⟩ => exact lin_rhs_1 _ _)
  rw [el, er]

/-- The bias as a row, broadcast over the rows, at (i, j): b[j]. -/
theorem lin_bias_apply (b : FVec Ideal Cert.ReferenceIdeal.S256 .f32) (i : Fin 10000) (j : Fin 256) :
    broadcastInDim Cert.ReferenceIdeal.S10000x256 ![0, 1] Cert.ReferenceIdeal.Gen.bcast_S1x256_S10000x256_0_1
      (broadcastInDim Cert.ReferenceIdeal.S1x256 ![1] Cert.ReferenceIdeal.Gen.bcast_S256_S1x256_1 b) (ix2 i j) = b (ix1 j) := by
  refine (broadcastInDim_apply _ Cert.ReferenceIdeal.Gen.bcast_S1x256_S10000x256_0_1 _ (ix2 i j) (ix2 (0 : Fin 1) j) (fun a => match a with
    | ⟨0, _⟩ => by show 0 = if (1 : Nat) = 1 then 0 else i.val; rw [if_pos rfl]
    | ⟨1, _⟩ => by show j.val = if (256 : Nat) = 1 then 0 else j.val; rw [if_neg (by decide)])).trans ?_
  exact broadcastInDim_apply _ Cert.ReferenceIdeal.Gen.bcast_S256_S1x256_1 b (ix2 (0 : Fin 1) j) (ix1 j) (fun a => match a with
    | ⟨0, _⟩ => by show j.val = if (256 : Nat) = 1 then 0 else j.val; rw [if_neg (by decide)])

/-- The zero splat at any index is the extended real 0. -/
theorem lin_zero_apply (y : Cert.ReferenceIdeal.S10000x256.Idx) :
    broadcastInDim Cert.ReferenceIdeal.S10000x256 ![] Cert.ReferenceIdeal.Gen.bcast_S_S10000x256 (constant (F := Ideal) Cert.ReferenceIdeal.S_ .f32 0x00000000#32) y = (0 : EReal) := by
  refine (broadcastInDim_apply _ Cert.ReferenceIdeal.Gen.bcast_S_S10000x256 _ y (fun a => a.elim0) (fun a => a.elim0)).trans ?_
  exact Ideal.ofBits_zero_f32

/-- THE LAYER AT (i, j): `max (Σ_k x[i,k] · w[k,j] + b[j]) 0`. -/
theorem lin_apply (x : FVec Ideal Cert.ReferenceIdeal.S10000x128 .f32) (w : FVec Ideal Cert.ReferenceIdeal.S128x256 .f32) (b : FVec Ideal Cert.ReferenceIdeal.S256 .f32) (i : Fin 10000) (j : Fin 256) :
    R.lin (F := Ideal) x w b (ix2 i j) = max ((∑ k : Fin 128, x (ix2 i k) * w (ix2 k j)) + b (ix1 j)) (0 : EReal) := by
  unfold R.lin
  rw [maximumf_apply, addf_apply, lin_dot_apply, lin_bias_apply, lin_zero_apply]

/-! ## The body's payload at a local index

On its blocks the body computes the same expression: entry (p, j) of the block it stores is
`max (Σ_k x0[p,k] · x1[k,j] + x2[0,j]) 0` (the narrowing format changes are the identity on extended reals, the product
into the zero accumulator is the plain sum over the contraction index, and the bias row is read at column j whatever the row). -/

/-- The left block's row is the output block's row … -/
theorem pay_lhs_0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl
/-- … its column the contraction index; -/
theorem pay_lhs_1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q
/-- the weight block's row is the contraction index … -/
theorem pay_rhs_0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q
/-- … and its column the output block's column. -/
theorem pay_rhs_1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

/-- The block product into the zero accumulator at (p, j): the sum over k of l[p,k] · r[k,j]. -/
theorem pay_dot_apply (l : FVec Ideal S1000x128 .bf16) (r : FVec Ideal S128x256 .bf16) (p : Fin 1000) (j : Fin 256) :
    matmul (F := Ideal) dot_S1000x128_S128x256_S1000x256_1_0_0_1_n_n none l r (constant S1000x256 .f32 0x00000000#32) (ix2 p j)
      = ∑ k : Fin 128, l (ix2 p k) * r (ix2 k j) := by
  simp only [matmul]
  rw [Ideal.matmul_constant_zero_apply, ← Equiv.sum_comp (contrEquiv1 dot_S1000x128_S128x256_S1000x256_1_0_0_1_n_n 128 rfl rfl).symm]
  refine Finset.sum_congr rfl fun k _ => ?_
  have hk := contrEquiv1_symm_val dot_S1000x128_S128x256_S1000x256_1_0_0_1_n_n 128 rfl rfl k
  have el : dot_S1000x128_S128x256_S1000x256_1_0_0_1_n_n.lhsIdx (ix2 p j) ((contrEquiv1 dot_S1000x128_S128x256_S1000x256_1_0_0_1_n_n 128 rfl rfl).symm k) = ix2 p k := funext fun a => Fin.ext (by
    match a with
    | ⟨0, _⟩ => exact pay_lhs_0 _ _
    | ⟨1, _⟩ => exact (pay_lhs_1 _ _).trans hk)
  have er : dot_S1000x128_S128x256_S1000x256_1_0_0_1_n_n.rhsIdx (ix2 p j) ((contrEquiv1 dot_S1000x128_S128x256_S1000x256_1_0_0_1_n_n 128 rfl rfl).symm k) = ix2 k j := funext fun a => Fin.ext (by
    match a with
    | ⟨0, _⟩ => exact (pay_rhs_0 _ _).trans hk
    | ⟨1, _⟩ => exact pay_rhs_1 _ _)
  rw [el, er]

/-- The bias row broadcast over the block's rows, at (p, j): the row's entry at column j. -/
theorem pay_bias_apply (x2 : Vec Ideal S1x256 .f32) (p : Fin 1000) (j : Fin 256) :
    broadcastTo S1000x256 (shapeCast S1x256 x2 shapeCasts_S1x256_S1x256) broadcasts_S1x256_S1000x256 (ix2 p j) = x2 (ix2 (0 : Fin 1) j) := by
  rw [shapeCast_self]
  exact broadcastTo_apply x2 broadcasts_S1x256_S1000x256 (ix2 p j) (ix2 (0 : Fin 1) j) (fun a => match a with
    | ⟨0, _⟩ => by show 0 = if (1 : Nat) = 1 then 0 else _; rw [if_pos rfl]
    | ⟨1, _⟩ => by show j.val = if (256 : Nat) = 1 then 0 else j.val; rw [if_neg (by decide)])

/-- The body's payload as one expression of its three loaded blocks. -/
theorem pay_eq (x0 : Vec Ideal S1000x128 .f32) (x1 : Vec Ideal S128x256 .f32) (x2 : Vec Ideal S1x256 .f32) :
    k0_pay1 (F := Ideal) x0 x1 x2
      = maximumf (addf (matmul dot_S1000x128_S128x256_S1000x256_1_0_0_1_n_n none (truncf .bf16 x0 bitsLt_bf16_f32) (truncf .bf16 x1 bitsLt_bf16_f32) (constant S1000x256 .f32 0x00000000#32))
          (broadcastTo S1000x256 (shapeCast S1x256 x2 shapeCasts_S1x256_S1x256) broadcasts_S1x256_S1000x256))
        (broadcast S1000x256 (Scalar.ofBits .f32 0x00000000#32)) := rfl

/-- THE PAYLOAD AT (p, j): `max (Σ_k x0[p,k] · x1[k,j] + x2[0,j]) 0`. -/
theorem pay_apply (x0 : Vec Ideal S1000x128 .f32) (x1 : Vec Ideal S128x256 .f32) (x2 : Vec Ideal S1x256 .f32) (p : Fin 1000) (j : Fin 256) :
    k0_pay1 (F := Ideal) x0 x1 x2 (ix2 p j) = max ((∑ k : Fin 128, x0 (ix2 p k) * x1 (ix2 k j)) + x2 (ix2 (0 : Fin 1) j)) (0 : EReal) := by
  rw [pay_eq, maximumf_apply, addf_apply, pay_dot_apply, pay_bias_apply, broadcast_apply]
  show max _ (Ideal.ofBits .f32 0x00000000#32) = _
  rw [Ideal.ofBits_zero_f32]
  rfl

/-! ## What a point writes back

Point t's blocks: rows [1000 t, 1000 t + 1000) of x and of the output (block index (t, 0)), all of w and the whole bias row
(block index (0, 0)). An element of a block sits in its array at block index × block size + its own coordinate on each axis. -/

/-- The rectangles' zero offsets, as the constant function. -/
theorem zero_off : (![0, 0] : Fin 2 → Nat) = fun _ => 0 := funext fun a => by fin_cases a <;> rfl

/-- The printed index maps, decided over the grid: x and the output move with the point on the row axis, w and the bias row
    stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has ten points. -/
theorem N_eq : cfg0.N = 10 := by decide

/-- Row p of point t's block is row 1000 t + p of the array. -/
def row (t : Fin cfg0.N) (p : Fin 1000) : Fin 10000 :=
  ⟨t.val * 1000 + p.val, by have ht : t.val < 10 := lt_of_lt_of_eq t.isLt N_eq; have hp := p.isLt; omega⟩

/-- The x block of point t at (p, k) is x at (1000 t + p, k). -/
theorem xblk_apply (V : (c : Dev nD) → (b : Ref sig .tc) → Buf (Elt Ideal) ((c : Thread nD τ).loc b)) (c : Dev nD) (t : Fin cfg0.N)
    (p : Fin 1000) (k : Fin 128) : iblk0 V c 0 t (ix2 p k) = V c main_arg0 (ix2 (row t p) k) := by
  show V c main_arg0 (((cfg0.win 0).blk t).view.emb (ix2 p k)) = _
  obtain ⟨e0, e1, -⟩ := idx_facts t
  refine congrArg (V c main_arg0) (funext fun a => Fin.ext ?_)
  match a with
  | ⟨0, _⟩ => show win0_0.index t (0 : Fin 2) * 1000 + 1 * p.val = t.val * 1000 + p.val; omega
  | ⟨1, _⟩ => show win0_0.index t (1 : Fin 2) * 128 + 1 * k.val = k.val; omega

/-- The w block of every point is w. -/
theorem wblk_apply (V : (c : Dev nD) → (b : Ref sig .tc) → Buf (Elt Ideal) ((c : Thread nD τ).loc b)) (c : Dev nD) (t : Fin cfg0.N)
    (k : Fin 128) (j : Fin 256) : iblk0 V c 1 t (ix2 k j) = V c main_arg4 (ix2 k j) := by
  show V c main_arg4 (((cfg0.win 1).blk t).view.emb (ix2 k j)) = _
  obtain ⟨-, -, e0, e1, -⟩ := idx_facts t
  refine congrArg (V c main_arg4) (funext fun a => Fin.ext ?_)
  match a with
  | ⟨0, _⟩ => show win0_1.index t (0 : Fin 2) * 128 + 1 * k.val = k.val; omega
  | ⟨1, _⟩ => show win0_1.index t (1 : Fin 2) * 256 + 1 * j.val = j.val; omega

/-- The bias block of every point is the bias row. -/
theorem bblk_apply (V : (c : Dev nD) → (b : Ref sig .tc) → Buf (Elt Ideal) ((c : Thread nD τ).loc b)) (c : Dev nD) (t : Fin cfg0.N)
    (j : Fin 256) : iblk0 V c 2 t (ix2 (0 : Fin 1) j) = V c main_v12 (ix2 (0 : Fin 1) j) := by
  show V c main_v12 (((cfg0.win 2).blk t).view.emb (ix2 (0 : Fin 1) j)) = _
  obtain ⟨-, -, -, -, e0, e1, -⟩ := idx_facts t
  refine congrArg (V c main_v12) (funext fun a => Fin.ext ?_)
  match a with
  | ⟨0, _⟩ => show win0_2.index t (0 : Fin 2) * 1 + 1 * 0 = 0; omega
  | ⟨1, _⟩ => show win0_2.index t (1 : Fin 2) * 256 + 1 * j.val = j.val; omega

/-- The 256 biases reshaped to one row, at (0, j): b[j]. -/
theorem brow_apply (b : FVec Ideal S256 .f32) (j : Fin 256) :
    shapeCast S1x256 b shapeCasts_S256_S1x256 (ix2 (0 : Fin 1) j) = b (ix1 j) :=
  shapeCast_apply b shapeCasts_S256_S1x256 (ix2 (0 : Fin 1) j) (ix1 j)
    (by rewrite [Shape.rowMajor_val_two, Shape.rowMajor_val_one]; show j.val = 0 * 256 + j.val; omega)

/-- An element (p, j) of the output block of point t sits at (1000 t + p, j) of the output array. -/
theorem oblk_emb (t : Fin cfg0.N) (p : Fin 1000) (j : Fin 256) :
    ((cfg0.win 3).blk t).view.emb (ix2 p j) = ix2 (row t p) j := by
  obtain ⟨-, -, -, -, -, -, e0, e1⟩ := idx_facts t
  refine funext fun a => Fin.ext ?_
  match a with
  | ⟨0, _⟩ => show win0_3.index t (0 : Fin 2) * 1000 + 1 * p.val = t.val * 1000 + p.val; omega
  | ⟨1, _⟩ => show win0_3.index t (1 : Fin 2) * 256 + 1 * j.val = j.val; omega

/-- WHAT POINT t WRITES BACK is block t of `relu (x · w + b)` of the arrays the region found. -/
theorem flushed_eq (V : (c : Dev nD) → (b : Ref sig .tc) → Buf (Elt Ideal) ((c : Thread nD τ).loc b)) (c : Dev nD)
    (b : FVec Ideal S256 .f32) (hb : V c main_v12 = shapeCast S1x256 b shapeCasts_S256_S1x256) (t : Fin cfg0.N) :
    (dat0 (F := Ideal) V c).flushed 3 t
      = ((cfg0.win 3).blk t).view.read (Elt Ideal) (R.lin (F := Ideal) (V c main_arg0) (V c main_arg4) b) := by
  show (cfg0.win 3).cut (grid0.coords t) ((dat0 (F := Ideal) V c).after 3 t) = _
  rw [after0_3]
  unfold out0_3
  rw [View.canon_unit_zero zero_off]
  simp only [View.ld_unit_zero (S := S1000x128) zero_off, View.ld_unit_zero (S := S128x256) zero_off, View.ld_unit_zero (S := S1x256) zero_off]
  funext y
  obtain ⟨p, j, rfl⟩ : ∃ (p : Fin 1000) (j : Fin 256), y = ix2 p j := ⟨y 0, y 1, eq_ix2 (n0 := 1000) (n1 := 256) y⟩
  have hx : (win0 3).xinj (grid0.coords t) (ix2 p j) = ix2 p j :=
    funext fun a => Fin.ext (by match a with | ⟨0, _⟩ => rfl | ⟨1, _⟩ => rfl)
  show k0_pay1 (F := Ideal) (iblk0 V c 0 t) (iblk0 V c 1 t) (iblk0 V c 2 t) ((win0 3).xinj (grid0.coords t) (ix2 p j))
    = R.lin (F := Ideal) (V c main_arg0) (V c main_arg4) b (((cfg0.win 3).blk t).view.emb (ix2 p j))
  rw [hx, oblk_emb, pay_apply, lin_apply]
  refine congrArg (fun z => max z (0 : EReal)) ?_
  refine congrArg₂ (· + ·) (Finset.sum_congr rfl fun k _ => ?_) ?_
  · rw [xblk_apply, wblk_apply]
  · rw [bblk_apply, hb, brow_apply]

/-! ## From the blocks to the array

The ten output blocks tile the array: row i is in the block of point i / 1000, and every point writes its block back. So the
array ends holding the layer's function at every index. -/

/-- An index of the output array is in point t's block iff each coordinate is in the block's range on its axis. -/
theorem mem_oblk (t : Fin cfg0.N) (i : S10000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v13).slice (win0_3.rect t)).set ↔ _
  rw [View.set_slice_whole, Rect.mem_set_unit]
  exact Iff.rfl

/-- Every index of the output array is in the block of the point its row falls in. -/
theorem covered (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht⟩ : ∃ t : Fin cfg0.N, t.val = (i 0).val / 1000 := ⟨⟨(i 0).val / 1000, by rw [N_eq]; omega⟩, rfl⟩
  obtain ⟨-, -, -, -, -, -, e0, e1⟩ := idx_facts t
  refine ⟨t, flush0_3 t, ?_⟩
  rw [mem_oblk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 256 ≤ (i 1).val ∧ (i 1).val < win0_3.index t (1 : Fin 2) * 256 + 256; omega

end Reg0

/-- Region 0's output array after its ten points, from the contents `V` the region was entered with: the bias window
    holds the 256 biases as one row. -/
theorem reg0_value (V : (c : Dev nD) → (b : Ref sig .tc) → Buf (Elt Ideal) ((c : Thread nD τ).loc b)) (c : Dev nD)
    (b : FVec Ideal S256 .f32) (hb : V c main_v12 = shapeCast S1x256 b shapeCasts_S256_S1x256) :
    (dat0 (F := Ideal) V c).arrAt 3 cfg0.N = R.lin (F := Ideal) (V c main_arg0) (V c main_arg4) b :=
  (dat0 (F := Ideal) V c).arrAt_eq_of_cover 3 (R.lin (F := Ideal) (V c main_arg0) (V c main_arg4) b)
    (fun t _ => Reg0.flushed_eq V c b hb t) Reg0.covered

end Cert.Bridge

end
-- ==== Proof.Dense256.lean ====
/-
  One 256-wide graph-convolution layer with the linear layer after it, read one entry at a time. On a block of rows
  the layer is `leaky (relu ((s ⊙ r) · wl + bl + h · wr) · w2 + b2)` with `r` one number per row; on the whole array
  it is the same with `s / deg` in place of `s ⊙ r`. Entry `(row, j)` of either depends on row `row` of `s` and `h`, on
  the one number of that row, and on the whole of the weights and biases: the function `cell` below. Dividing by a
  nonzero degree is multiplying by its reciprocal, which is what joins the two readings.
-/
import proofs.«403348_j26843545600712_3_alg».proof.Proof.Gen.KernelIdeal
import proofs.«403348_j26843545600712_3_alg».proof.Proof.SharedR
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

set_option maxRecDepth 16384

noncomputable section

namespace Cert.Bridge.Dense256

open Cert.KernelIdeal Cert.KernelIdeal.Gen Idealize.ShloMosaic Idealize.ShloMosaic.TcCoe
open Idealize.ShloMosaic.ValueIdx
open scoped BigOperators

/-! ## Two numbers -/

/-- The f32 word `0x3F800000` is the number one. -/
theorem one_f32 : Ideal.ofBits .f32 0x3F800000#32 = 1 := by
  simp [Ideal.ofBits, Ideal.ieee]
  rw [← EReal.coe_mul, ← EReal.coe_one]
  congr 1
  norm_num

/-- Multiplying by the reciprocal of a nonzero number is dividing by it. -/
theorem mul_recip_eq_div (x d : EReal) (h : d ≠ 0) : x * Ideal.div 1 d = Ideal.div x d := by
  unfold Ideal.div
  rw [if_neg h, if_neg h, one_mul]

/-! ## The two dot products at an index

  Both contract axis 1 of the left operand with axis 0 of the right one, so entry `(i, j)` is
  `∑ k, l (i, k) * r (k, j)`: on the whole array (the host's `dot_general`, 10000 rows) and on a block (a matmul into
  a zero accumulator, 1000 rows). -/

theorem rowsDot_lhs_0 (i : Cert.ReferenceIdeal.S10000x256.Idx) (q : Cert.ReferenceIdeal.dot_S10000x256_S256x256_S10000x256_1_0_0_1_n_n.contr.Idx) :
    (Cert.ReferenceIdeal.dot_S10000x256_S256x256_S10000x256_1_0_0_1_n_n.lhsIdx i q 0).val = (i 0).val := by
  unfold DotDims.lhsIdx
  rw [dif_neg (show ¬(0 : Fin Cert.ReferenceIdeal.S10000x256.rank) ∈ Cert.ReferenceIdeal.dot_S10000x256_S256x256_S10000x256_1_0_0_1_n_n.lhsBatch by decide), dif_pos (show (0 : Fin Cert.ReferenceIdeal.S10000x256.rank) ∈ Cert.ReferenceIdeal.dot_S10000x256_S256x256_S10000x256_1_0_0_1_n_n.lhsNonContracting by decide)]
  rfl
theorem rowsDot_lhs_1 (i : Cert.ReferenceIdeal.S10000x256.Idx) (q : Cert.ReferenceIdeal.dot_S10000x256_S256x256_S10000x256_1_0_0_1_n_n.contr.Idx) :
    (Cert.ReferenceIdeal.dot_S10000x256_S256x256_S10000x256_1_0_0_1_n_n.lhsIdx i q 1).val = (q ⟨0, by decide⟩).val :=
  Cert.ReferenceIdeal.dot_S10000x256_S256x256_S10000x256_1_0_0_1_n_n.lhsIdx_val_of_single rfl i q
theorem rowsDot_rhs_0 (i : Cert.ReferenceIdeal.S10000x256.Idx) (q : Cert.ReferenceIdeal.dot_S10000x256_S256x256_S10000x256_1_0_0_1_n_n.contr.Idx) :
    (Cert.ReferenceIdeal.dot_S10000x256_S256x256_S10000x256_1_0_0_1_n_n.rhsIdx i q 0).val = (q ⟨0, by decide⟩).val :=
  Cert.ReferenceIdeal.dot_S10000x256_S256x256_S10000x256_1_0_0_1_n_n.rhsIdx_val_of_single rfl i q
theorem rowsDot_rhs_1 (i : Cert.ReferenceIdeal.S10000x256.Idx) (q : Cert.ReferenceIdeal.dot_S10000x256_S256x256_S10000x256_1_0_0_1_n_n.contr.Idx) :
    (Cert.ReferenceIdeal.dot_S10000x256_S256x256_S10000x256_1_0_0_1_n_n.rhsIdx i q 1).val = (i 1).val := by
  unfold DotDims.rhsIdx
  rw [dif_neg (show ¬(1 : Fin Cert.ReferenceIdeal.S256x256.rank) ∈ Cert.ReferenceIdeal.dot_S10000x256_S256x256_S10000x256_1_0_0_1_n_n.rhsBatch by decide), dif_pos (show (1 : Fin Cert.ReferenceIdeal.S256x256.rank) ∈ Cert.ReferenceIdeal.dot_S10000x256_S256x256_S10000x256_1_0_0_1_n_n.rhsNonContracting by decide)]
  rfl

/-- The host's dot product of a 10000×256 array with a 256×256 one, at entry `(i, j)`. -/
theorem rowsDot_apply (l : FVec Ideal Cert.ReferenceIdeal.S10000x256 .f32) (r : FVec Ideal Cert.ReferenceIdeal.S256x256 .f32) (i : Fin 10000) (j : Fin 256) :
    Host.dotGeneral (F := Ideal) Cert.ReferenceIdeal.dot_S10000x256_S256x256_S10000x256_1_0_0_1_n_n none l r (ix2 i j)
      = ∑ k : Fin 256, l (ix2 i k) * r (ix2 k j) := by
  simp only [Host.dotGeneral]
  rw [Ideal.dotGeneral_apply, ← Equiv.sum_comp (ValueIdx.contrEquiv1 Cert.ReferenceIdeal.dot_S10000x256_S256x256_S10000x256_1_0_0_1_n_n 256 rfl rfl).symm]
  refine Finset.sum_congr rfl fun k _ => ?_
  have hk := ValueIdx.contrEquiv1_symm_val Cert.ReferenceIdeal.dot_S10000x256_S256x256_S10000x256_1_0_0_1_n_n 256 rfl rfl k
  have el : Cert.ReferenceIdeal.dot_S10000x256_S256x256_S10000x256_1_0_0_1_n_n.lhsIdx (ix2 i j) ((ValueIdx.contrEquiv1 Cert.ReferenceIdeal.dot_S10000x256_S256x256_S10000x256_1_0_0_1_n_n 256 rfl rfl).symm k) = ix2 i k := funext fun a => Fin.ext (by
    match a with
    | ⟨0, _⟩ => exact rowsDot_lhs_0 _ _
    | ⟨1, _⟩ => exact (rowsDot_lhs_1 _ _).trans hk)
  have er : Cert.ReferenceIdeal.dot_S10000x256_S256x256_S10000x256_1_0_0_1_n_n.rhsIdx (ix2 i j) ((ValueIdx.contrEquiv1 Cert.ReferenceIdeal.dot_S10000x256_S256x256_S10000x256_1_0_0_1_n_n 256 rfl rfl).symm k) = ix2 k j := funext fun a => Fin.ext (by
    match a with
    | ⟨0, _⟩ => exact (rowsDot_rhs_0 _ _).trans hk
    | ⟨1, _⟩ => exact rowsDot_rhs_1 _ _)
  rw [el, er]

theorem blockDot_lhs_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem blockDot_lhs_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem blockDot_rhs_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem blockDot_rhs_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- A block's matmul (1000×256 by 256×256, into the zero accumulator), at entry `(p, j)`. -/
theorem blockDot_apply {φ₁ φ₂ : FTy} (l : FVec Ideal S1000x256 φ₁) (r : FVec Ideal S256x256 φ₂) (p : Fin 1000) (j : Fin 256) :
    matmul (F := Ideal) dot_S1000x256_S256x256_S1000x256_1_0_0_1_n_n none l r (constant S1000x256 .f32 0x00000000#32) (ix2 p j)
      = ∑ k : Fin 256, l (ix2 p k) * r (ix2 k j) := by
  simp only [matmul]
  rw [Ideal.matmul_constant_zero_apply, ← Equiv.sum_comp (ValueIdx.contrEquiv1 dot_S1000x256_S256x256_S1000x256_1_0_0_1_n_n 256 rfl rfl).symm]
  refine Finset.sum_congr rfl fun k _ => ?_
  have hk := ValueIdx.contrEquiv1_symm_val dot_S1000x256_S256x256_S1000x256_1_0_0_1_n_n 256 rfl rfl k
  have el : dot_S1000x256_S256x256_S1000x256_1_0_0_1_n_n.lhsIdx (ix2 p j) ((ValueIdx.contrEquiv1 dot_S1000x256_S256x256_S1000x256_1_0_0_1_n_n 256 rfl rfl).symm k) = ix2 p k := funext fun a => Fin.ext (by
    match a with
    | ⟨0, _⟩ => exact blockDot_lhs_0 _ _
    | ⟨1, _⟩ => exact (blockDot_lhs_1 _ _).trans hk)
  have er : dot_S1000x256_S256x256_S1000x256_1_0_0_1_n_n.rhsIdx (ix2 p j) ((ValueIdx.contrEquiv1 dot_S1000x256_S256x256_S1000x256_1_0_0_1_n_n 256 rfl rfl).symm k) = ix2 k j := funext fun a => Fin.ext (by
    match a with
    | ⟨0, _⟩ => exact (blockDot_rhs_0 _ _).trans hk
    | ⟨1, _⟩ => exact blockDot_rhs_1 _ _)
  rw [el, er]

/-! ## Broadcasts at an index -/

/-- A column (one number per row) spread along the rows of the whole array reads its row's number. -/
theorem colSpread_apply (hb : Cert.ReferenceIdeal.S10000x1.BroadcastsInDim Cert.ReferenceIdeal.S10000x256 ![0, 1])
    (x : FVec Ideal Cert.ReferenceIdeal.S10000x1 .f32) (i : Fin 10000) (j : Fin 256) :
    broadcastInDim Cert.ReferenceIdeal.S10000x256 ![0, 1] hb x (ix2 i j) = x (ix2 i (0 : Fin 1)) :=
  broadcastInDim_apply _ hb x (ix2 i j) (ix2 i (0 : Fin 1)) (fun a => match a with
    | ⟨0, _⟩ => by show i.val = if (10000 : Nat) = 1 then 0 else i.val; rw [if_neg (by decide)]
    | ⟨1, _⟩ => by show 0 = if (1 : Nat) = 1 then 0 else j.val; rw [if_pos rfl])

/-- A bias vector laid out as one row and spread down the whole array reads its column's number. -/
theorem biasSpread_apply (h1 : Cert.ReferenceIdeal.S256.BroadcastsInDim Cert.ReferenceIdeal.S1x256 ![1])
    (h2 : Cert.ReferenceIdeal.S1x256.BroadcastsInDim Cert.ReferenceIdeal.S10000x256 ![0, 1])
    (b : FVec Ideal Cert.ReferenceIdeal.S256 .f32) (i : Fin 10000) (j : Fin 256) :
    broadcastInDim Cert.ReferenceIdeal.S10000x256 ![0, 1] h2 (broadcastInDim Cert.ReferenceIdeal.S1x256 ![1] h1 b) (ix2 i j) = b (ix1 j) := by
  refine (broadcastInDim_apply _ h2 _ (ix2 i j) (ix2 (0 : Fin 1) j) (fun a => match a with
    | ⟨0, _⟩ => by show 0 = if (1 : Nat) = 1 then 0 else i.val; rw [if_pos rfl]
    | ⟨1, _⟩ => by show j.val = if (256 : Nat) = 1 then 0 else j.val; rw [if_neg (by decide)])).trans ?_
  exact broadcastInDim_apply _ h1 b (ix2 (0 : Fin 1) j) (ix1 j) (fun a => match a with
    | ⟨0, _⟩ => by show j.val = if (256 : Nat) = 1 then 0 else j.val; rw [if_neg (by decide)])

/-- A number spread over the whole array reads that number. -/
theorem wordSpread_apply (hb : Cert.ReferenceIdeal.S_.BroadcastsInDim Cert.ReferenceIdeal.S10000x256 ![]) (w : BitVec 32)
    (i : Cert.ReferenceIdeal.S10000x256.Idx) :
    broadcastInDim Cert.ReferenceIdeal.S10000x256 ![] hb (constant (F := Ideal) Cert.ReferenceIdeal.S_ .f32 w) i = Ideal.ofBits .f32 w := by
  unfold broadcastInDim
  rfl

/-- The same as an equation of whole arrays. -/
theorem wordSpread_eq (hb : Cert.ReferenceIdeal.S_.BroadcastsInDim Cert.ReferenceIdeal.S10000x256 ![]) (w : BitVec 32) :
    broadcastInDim Cert.ReferenceIdeal.S10000x256 ![] hb (constant (F := Ideal) Cert.ReferenceIdeal.S_ .f32 w) = fun _ => Ideal.ofBits .f32 w :=
  funext fun i => wordSpread_apply hb w i

/-- On a block: a column spread along the rows reads its row's number. -/
theorem blockColSpread_apply (hb : S1000x1.Broadcasts S1000x256) (x : FVec Ideal S1000x1 .f32) (p : Fin 1000) (j : Fin 256) :
    broadcastTo S1000x256 x hb (ix2 p j) = x (ix2 p (0 : Fin 1)) :=
  broadcastTo_apply x hb (ix2 p j) (ix2 p (0 : Fin 1)) (fun a => match a with
    | ⟨0, _⟩ => by show p.val = if (1000 : Nat) = 1 then 0 else p.val; rw [if_neg (by decide)]
    | ⟨1, _⟩ => by show 0 = if (1 : Nat) = 1 then 0 else j.val; rw [if_pos rfl])

/-- On a block: a row spread down the rows reads its column's number. -/
theorem blockRowSpread_apply (hb : S1x256.Broadcasts S1000x256) (x : FVec Ideal S1x256 .f32) (p : Fin 1000) (j : Fin 256) :
    broadcastTo S1000x256 x hb (ix2 p j) = x (ix2 (0 : Fin 1) j) :=
  broadcastTo_apply x hb (ix2 p j) (ix2 (0 : Fin 1) j) (fun a => match a with
    | ⟨0, _⟩ => by show 0 = if (1 : Nat) = 1 then 0 else p.val; rw [if_pos rfl]
    | ⟨1, _⟩ => by show j.val = if (256 : Nat) = 1 then 0 else j.val; rw [if_neg (by decide)])

/-! ## One entry of the layer -/

/-- A number where it is nonnegative, a hundredth of it elsewhere. -/
def leak (o : EReal) : EReal :=
  Scalar.select (FloatOps.cmpf (F := Ideal) (φ := .f32) .oge o (Ideal.ofBits .f32 0x00000000#32)) o (Ideal.ofBits .f32 0x3C23D70A#32 * o)

/-- Entry `j` of one row of the layer's result, from that row `s` of the message sums, the row's one number `r` (the
    reciprocal of its in-degree), that row `h` of the node features, and the weights and biases:
    `leak (∑ m, max ((∑ k, (s k * r) * wl k m) + bl m + ∑ k, h k * wr k m) 0 * w2 m j + b2 j)`. -/
def cell (s : Fin 256 → EReal) (r : EReal) (wl : Fin 256 → Fin 256 → EReal) (bl : Fin 256 → EReal) (h : Fin 256 → EReal)
    (wr w2 : Fin 256 → Fin 256 → EReal) (b2 : Fin 256 → EReal) (j : Fin 256) : EReal :=
  leak ((∑ m : Fin 256, max (((∑ k : Fin 256, (s k * r) * wl k m) + bl m) + ∑ k : Fin 256, h k * wr k m) (Ideal.ofBits .f32 0x00000000#32) * w2 m j) + b2 j)

/-- `cell` depends on its rows and matrices only through their entries. -/
theorem cell_congr {s s' : Fin 256 → EReal} {r r' : EReal} {wl wl' : Fin 256 → Fin 256 → EReal} {bl bl' : Fin 256 → EReal}
    {h h' : Fin 256 → EReal} {wr wr' w2 w2' : Fin 256 → Fin 256 → EReal} {b2 b2' : Fin 256 → EReal} (j : Fin 256)
    (hs : ∀ k, s k = s' k) (hr : r = r') (hwl : ∀ k m, wl k m = wl' k m) (hbl : ∀ m, bl m = bl' m) (hh : ∀ k, h k = h' k)
    (hwr : ∀ k m, wr k m = wr' k m) (hw2 : ∀ k m, w2 k m = w2' k m) (hb2 : ∀ m, b2 m = b2' m) :
    cell s r wl bl h wr w2 b2 j = cell s' r' wl' bl' h' wr' w2' b2' j := by
  obtain rfl : s = s' := funext hs
  obtain rfl : wl = wl' := funext fun k => funext (hwl k)
  obtain rfl : bl = bl' := funext hbl
  obtain rfl : h = h' := funext hh
  obtain rfl : wr = wr' := funext fun k => funext (hwr k)
  obtain rfl : w2 = w2' := funext fun k => funext (hw2 k)
  obtain rfl : b2 = b2' := funext hb2
  rw [hr]

/-! ## The layer on a block of 1000 rows -/

/-- A block's rows scaled row by row: `x ⊙ r`. -/
def blockScaled (x : FVec Ideal S1000x256 .f32) (r : FVec Ideal S1000x1 .f32) : FVec Ideal S1000x256 .f32 :=
  mulf (shapeCast S1000x256 x shapeCasts_S1000x256_S1000x256) (broadcastTo S1000x256 (shapeCast S1000x1 r shapeCasts_S1000x1_S1000x1) broadcasts_S1000x1_S1000x256)

theorem blockScaled_apply (x : FVec Ideal S1000x256 .f32) (r : FVec Ideal S1000x1 .f32) (p : Fin 1000) (k : Fin 256) :
    blockScaled x r (ix2 p k) = x (ix2 p k) * r (ix2 p (0 : Fin 1)) := by
  unfold blockScaled
  rw [mulf_apply, blockColSpread_apply, shapeCast_self, shapeCast_self]

/-- A block times a weight matrix: `a · w`. -/
def blockTimes (a : FVec Ideal S1000x256 .f32) (w : FVec Ideal S256x256 .f32) : FVec Ideal S1000x256 .f32 :=
  matmul dot_S1000x256_S256x256_S1000x256_1_0_0_1_n_n none (truncf .bf16 a bitsLt_bf16_f32) (truncf .bf16 w bitsLt_bf16_f32) (constant S1000x256 .f32 0x00000000#32)

theorem blockTimes_apply (a : FVec Ideal S1000x256 .f32) (w : FVec Ideal S256x256 .f32) (p : Fin 1000) (j : Fin 256) :
    blockTimes a w (ix2 p j) = ∑ k : Fin 256, a (ix2 p k) * w (ix2 k j) := by
  unfold blockTimes
  exact blockDot_apply _ _ p j

/-- A block times a weight matrix plus a bias row: `a · w + b`. -/
def blockAffine (a : FVec Ideal S1000x256 .f32) (w : FVec Ideal S256x256 .f32) (b : FVec Ideal S1x256 .f32) : FVec Ideal S1000x256 .f32 :=
  addf (blockTimes a w) (broadcastTo S1000x256 (shapeCast S1x256 b shapeCasts_S1x256_S1x256) broadcasts_S1x256_S1000x256)

theorem blockAffine_apply (a : FVec Ideal S1000x256 .f32) (w : FVec Ideal S256x256 .f32) (b : FVec Ideal S1x256 .f32) (p : Fin 1000) (j : Fin 256) :
    blockAffine a w b (ix2 p j) = (∑ k : Fin 256, a (ix2 p k) * w (ix2 k j)) + b (ix2 (0 : Fin 1) j) := by
  unfold blockAffine
  rw [addf_apply, blockTimes_apply, blockRowSpread_apply, shapeCast_self]

/-- The hidden rows of a block: `relu ((x0 ⊙ x1) · x2 + x3 + x4 · x5)`. -/
def blockHidden (x0 : FVec Ideal S1000x256 .f32) (x1 : FVec Ideal S1000x1 .f32) (x2 : FVec Ideal S256x256 .f32) (x3 : FVec Ideal S1x256 .f32)
    (x4 : FVec Ideal S1000x256 .f32) (x5 : FVec Ideal S256x256 .f32) : FVec Ideal S1000x256 .f32 :=
  maximumf (addf (blockAffine (blockScaled x0 x1) x2 x3) (blockTimes (shapeCast S1000x256 x4 shapeCasts_S1000x256_S1000x256) x5))
    (broadcast S1000x256 (Scalar.ofBits .f32 0x00000000#32))

theorem blockHidden_apply (x0 : FVec Ideal S1000x256 .f32) (x1 : FVec Ideal S1000x1 .f32) (x2 : FVec Ideal S256x256 .f32) (x3 : FVec Ideal S1x256 .f32)
    (x4 : FVec Ideal S1000x256 .f32) (x5 : FVec Ideal S256x256 .f32) (p : Fin 1000) (m : Fin 256) :
    blockHidden x0 x1 x2 x3 x4 x5 (ix2 p m)
      = max (((∑ k : Fin 256, (x0 (ix2 p k) * x1 (ix2 p (0 : Fin 1))) * x2 (ix2 k m)) + x3 (ix2 (0 : Fin 1) m)) + ∑ k : Fin 256, x4 (ix2 p k) * x5 (ix2 k m))
          (Ideal.ofBits .f32 0x00000000#32) := by
  unfold blockHidden
  rw [maximumf_apply, addf_apply, blockAffine_apply, blockTimes_apply, shapeCast_self]
  simp only [blockScaled_apply]
  rfl

/-- The layer on a block: `leaky (blockHidden … · x6 + x7)`. -/
def blockLayer (x0 : FVec Ideal S1000x256 .f32) (x1 : FVec Ideal S1000x1 .f32) (x2 : FVec Ideal S256x256 .f32) (x3 : FVec Ideal S1x256 .f32)
    (x4 : FVec Ideal S1000x256 .f32) (x5 x6 : FVec Ideal S256x256 .f32) (x7 : FVec Ideal S1x256 .f32) : FVec Ideal S1000x256 .f32 :=
  select (cmpf .oge (blockAffine (blockHidden x0 x1 x2 x3 x4 x5) x6 x7) (broadcast S1000x256 (Scalar.ofBits .f32 0x00000000#32)))
    (blockAffine (blockHidden x0 x1 x2 x3 x4 x5) x6 x7)
    (mulf (broadcast S1000x256 (Scalar.ofBits .f32 0x3C23D70A#32)) (blockAffine (blockHidden x0 x1 x2 x3 x4 x5) x6 x7))

/-- Entry `(p, j)` of the layer on a block is `cell` of row `p` of the row blocks and the whole of the weight blocks. -/
theorem blockLayer_apply (x0 : FVec Ideal S1000x256 .f32) (x1 : FVec Ideal S1000x1 .f32) (x2 : FVec Ideal S256x256 .f32) (x3 : FVec Ideal S1x256 .f32)
    (x4 : FVec Ideal S1000x256 .f32) (x5 x6 : FVec Ideal S256x256 .f32) (x7 : FVec Ideal S1x256 .f32) (p : Fin 1000) (j : Fin 256) :
    blockLayer x0 x1 x2 x3 x4 x5 x6 x7 (ix2 p j)
      = cell (fun k => x0 (ix2 p k)) (x1 (ix2 p (0 : Fin 1))) (fun k m => x2 (ix2 k m)) (fun m => x3 (ix2 (0 : Fin 1) m))
          (fun k => x4 (ix2 p k)) (fun k m => x5 (ix2 k m)) (fun k m => x6 (ix2 k m)) (fun m => x7 (ix2 (0 : Fin 1) m)) j := by
  unfold blockLayer cell leak
  rw [select_apply, cmpf_apply, mulf_apply, broadcast_apply, broadcast_apply, blockAffine_apply]
  simp only [blockHidden_apply]
  rfl

/-! ## The layer on the whole array -/

/-- The dense part of the convolution before its relu, at entry `(i, m)`. -/
theorem conv256_apply (s : FVec Ideal Cert.ReferenceIdeal.S10000x256 .f32) (dg : FVec Ideal Cert.ReferenceIdeal.S10000x1 .f32)
    (wl : FVec Ideal Cert.ReferenceIdeal.S256x256 .f32) (bl : FVec Ideal Cert.ReferenceIdeal.S256 .f32)
    (h : FVec Ideal Cert.ReferenceIdeal.S10000x256 .f32) (wr : FVec Ideal Cert.ReferenceIdeal.S256x256 .f32) (i : Fin 10000) (m : Fin 256) :
    R.conv256 (F := Ideal) s dg wl bl h wr (ix2 i m)
      = ((∑ k : Fin 256, Ideal.div (s (ix2 i k)) (dg (ix2 i (0 : Fin 1))) * wl (ix2 k m)) + bl (ix1 m)) + ∑ k : Fin 256, h (ix2 i k) * wr (ix2 k m) := by
  unfold R.conv256
  rw [addf_apply, addf_apply, rowsDot_apply, rowsDot_apply, biasSpread_apply]
  refine congrArg (fun z => z + bl (ix1 m) + ∑ k : Fin 256, h (ix2 i k) * wr (ix2 k m)) (Finset.sum_congr rfl fun k _ => ?_)
  rw [hostDivf_apply, colSpread_apply]

/-- Entry `(i, j)` of the layer on the whole array is `cell` of row `i` of `s` and `h`, the reciprocal of row `i`'s
    (nonzero) degree, and the weights and biases: the one place where the quotient becomes a product. -/
theorem post256_apply (s : FVec Ideal Cert.ReferenceIdeal.S10000x256 .f32) (dg : FVec Ideal Cert.ReferenceIdeal.S10000x1 .f32)
    (wl : FVec Ideal Cert.ReferenceIdeal.S256x256 .f32) (bl : FVec Ideal Cert.ReferenceIdeal.S256 .f32)
    (h : FVec Ideal Cert.ReferenceIdeal.S10000x256 .f32) (wr w2 : FVec Ideal Cert.ReferenceIdeal.S256x256 .f32)
    (b2 : FVec Ideal Cert.ReferenceIdeal.S256 .f32) (i : Fin 10000) (j : Fin 256) (hd : dg (ix2 i (0 : Fin 1)) ≠ 0) :
    R.post256 (F := Ideal) s dg wl bl h wr w2 b2 (ix2 i j)
      = cell (fun k => s (ix2 i k)) (Ideal.div 1 (dg (ix2 i (0 : Fin 1)))) (fun k m => wl (ix2 k m)) (fun m => bl (ix1 m))
          (fun k => h (ix2 i k)) (fun k m => wr (ix2 k m)) (fun k m => w2 (ix2 k m)) (fun m => b2 (ix1 m)) j := by
  unfold R.post256 R.leaky256 cell leak
  rw [wordSpread_eq, wordSpread_eq]
  rw [select_apply, cmpf_apply, mulf_apply, addf_apply, rowsDot_apply, biasSpread_apply]
  simp only [maximumf_apply, conv256_apply, fun x => mul_recip_eq_div x _ hd]

/-! ## Two arrays the host prepares -/

/-- A bias vector reshaped to one row, at `(0, j)`: its `j`-th number. -/
theorem biasRow_apply (hc : S256.ShapeCasts S1x256) (b : FVec Ideal S256 .f32) (j : Fin 256) :
    shapeCast S1x256 b hc (ix2 (0 : Fin 1) j) = b (ix1 j) :=
  shapeCast_apply b hc (ix2 (0 : Fin 1) j) (ix1 j)
    (by rewrite [Shape.rowMajor_val_two, Shape.rowMajor_val_one]; show j.val = 0 * 256 + j.val; omega)

/-- One over the in-degree, as the quotient of the all-ones column by the degree column, at row `i`. -/
theorem recip_apply (hb : S_.BroadcastsInDim S10000x1 ![]) (dg : FVec Ideal S10000x1 .f32) (i : Fin 10000) :
    Host.divf (broadcastInDim S10000x1 ![] hb (constant (F := Ideal) S_ .f32 0x3F800000#32)) dg (ix2 i (0 : Fin 1))
      = Ideal.div 1 (dg (ix2 i (0 : Fin 1))) := by
  rw [hostDivf_apply]
  unfold broadcastInDim
  exact congrArg (fun z => Ideal.div z (dg (ix2 i (0 : Fin 1)))) one_f32

end Cert.Bridge.Dense256

end
-- ==== Proof.Reg1.lean ====
/-
  The first convolution's dense layer, run over a grid of 10 row blocks of 1000: the array it leaves is
  `leaky (relu ((s · 1/deg) · wl + bl + h · wr) · w2 + b2)` of the arrays it found, which is the reference's layer function
  because dividing by a nonzero in-degree is multiplying by its reciprocal.
-/
import proofs.«403348_j26843545600712_3_alg».proof.Proof.Gen.KernelIdeal.Frame
import proofs.«403348_j26843545600712_3_alg».proof.Proof.SharedR
import proofs.«403348_j26843545600712_3_alg».proof.Proof.Dense256
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! The facts about region 1's windows and blocks. -/
namespace Reg1

/-! ## Where a point's blocks sit

Point `t` of the grid reads rows [1000 t, 1000 t + 1000) of the three row-blocked inputs (the message sums, the reciprocal
degrees, the node features) and writes the same rows of the output: block index (t, 0). The three weight matrices and the
two bias rows are read whole at every point: block index (0, 0). An element of a block sits in its array, on each axis, at
block index × block size + its own coordinate. -/

/-- The accesses' zero offsets, as the constant function. -/
theorem offsets_zero : (![0, 0] : Fin 2 → Nat) = fun _ => 0 := funext fun a => by fin_cases a <;> rfl

/-- The grid has ten points. -/
theorem points_eq : cfg1.N = 10 := by decide

/-- The printed index maps, decided over the grid, window by window. -/
theorem index_map_0 : ∀ t : Fin cfg1.N, win1_0.index t (0 : Fin 2) = t.val ∧ win1_0.index t (1 : Fin 2) = 0 :=
  (by decide +kernel : ∀ t : Fin grid1.N, _)
theorem index_map_1 : ∀ t : Fin cfg1.N, win1_1.index t (0 : Fin 2) = t.val ∧ win1_1.index t (1 : Fin 2) = 0 :=
  (by decide +kernel : ∀ t : Fin grid1.N, _)
theorem index_map_2 : ∀ t : Fin cfg1.N, win1_2.index t (0 : Fin 2) = 0 ∧ win1_2.index t (1 : Fin 2) = 0 :=
  (by decide +kernel : ∀ t : Fin grid1.N, _)
theorem index_map_3 : ∀ t : Fin cfg1.N, win1_3.index t (0 : Fin 2) = 0 ∧ win1_3.index t (1 : Fin 2) = 0 :=
  (by decide +kernel : ∀ t : Fin grid1.N, _)
theorem index_map_4 : ∀ t : Fin cfg1.N, win1_4.index t (0 : Fin 2) = t.val ∧ win1_4.index t (1 : Fin 2) = 0 :=
  (by decide +kernel : ∀ t : Fin grid1.N, _)
theorem index_map_5 : ∀ t : Fin cfg1.N, win1_5.index t (0 : Fin 2) = 0 ∧ win1_5.index t (1 : Fin 2) = 0 :=
  (by decide +kernel : ∀ t : Fin grid1.N, _)
theorem index_map_6 : ∀ t : Fin cfg1.N, win1_6.index t (0 : Fin 2) = 0 ∧ win1_6.index t (1 : Fin 2) = 0 :=
  (by decide +kernel : ∀ t : Fin grid1.N, _)
theorem index_map_7 : ∀ t : Fin cfg1.N, win1_7.index t (0 : Fin 2) = 0 ∧ win1_7.index t (1 : Fin 2) = 0 :=
  (by decide +kernel : ∀ t : Fin grid1.N, _)
theorem index_map_8 : ∀ t : Fin cfg1.N, win1_8.index t (0 : Fin 2) = t.val ∧ win1_8.index t (1 : Fin 2) = 0 :=
  (by decide +kernel : ∀ t : Fin grid1.N, _)

/-- Row `p` of point `t`'s blocks is row 1000 t + p of the arrays. -/
def rowAt (t : Fin cfg1.N) (p : Fin 1000) : Fin 10000 :=
  ⟨t.val * 1000 + p.val, by have ht : t.val < 10 := lt_of_lt_of_eq t.isLt points_eq; have hp := p.isLt; omega⟩

section Blocks
variable (V : (c : Dev nD) → (b : Ref sig .tc) → Buf (Elt Ideal) ((c : Thread nD τ).loc b)) (c : Dev nD) (t : Fin cfg1.N)

/-- The message-sum block of point `t` at (p, k) is the array at (1000 t + p, k). -/
theorem sumBlock_apply (p : Fin 1000) (k : Fin 256) : iblk1 V c 0 t (ix2 p k) = V c main_v24 (ix2 (rowAt t p) k) := by
  show V c main_v24 (((cfg1.win 0).blk t).view.emb (ix2 p k)) = _
  obtain ⟨e0, e1⟩ := index_map_0 t
  refine congrArg (V c main_v24) (funext fun a => Fin.ext ?_)
  match a with
  | ⟨0, _⟩ => show win1_0.index t (0 : Fin 2) * 1000 + 1 * p.val = t.val * 1000 + p.val; omega
  | ⟨1, _⟩ => show win1_0.index t (1 : Fin 2) * 256 + 1 * k.val = k.val; omega

/-- The reciprocal-degree block of point `t` at (p, 0) is the column at (1000 t + p, 0). -/
theorem recipBlock_apply (p : Fin 1000) : iblk1 V c 1 t (ix2 p (0 : Fin 1)) = V c main_v11 (ix2 (rowAt t p) (0 : Fin 1)) := by
  show V c main_v11 (((cfg1.win 1).blk t).view.emb (ix2 p (0 : Fin 1))) = _
  obtain ⟨e0, e1⟩ := index_map_1 t
  refine congrArg (V c main_v11) (funext fun a => Fin.ext ?_)
  match a with
  | ⟨0, _⟩ => show win1_1.index t (0 : Fin 2) * 1000 + 1 * p.val = t.val * 1000 + p.val; omega
  | ⟨1, _⟩ => show win1_1.index t (1 : Fin 2) * 1 + 1 * 0 = 0; omega

/-- The first weight block of every point is the whole matrix. -/
theorem wlBlock_apply (k m : Fin 256) : iblk1 V c 2 t (ix2 k m) = V c main_arg6 (ix2 k m) := by
  show V c main_arg6 (((cfg1.win 2).blk t).view.emb (ix2 k m)) = _
  obtain ⟨e0, e1⟩ := index_map_2 t
  refine congrArg (V c main_arg6) (funext fun a => Fin.ext ?_)
  match a with
  | ⟨0, _⟩ => show win1_2.index t (0 : Fin 2) * 256 + 1 * k.val = k.val; omega
  | ⟨1, _⟩ => show win1_2.index t (1 : Fin 2) * 256 + 1 * m.val = m.val; omega

/-- The first bias block of every point is the whole bias row. -/
theorem blBlock_apply (m : Fin 256) : iblk1 V c 3 t (ix2 (0 : Fin 1) m) = V c main_v25 (ix2 (0 : Fin 1) m) := by
  show V c main_v25 (((cfg1.win 3).blk t).view.emb (ix2 (0 : Fin 1) m)) = _
  obtain ⟨e0, e1⟩ := index_map_3 t
  refine congrArg (V c main_v25) (funext fun a => Fin.ext ?_)
  match a with
  | ⟨0, _⟩ => show win1_3.index t (0 : Fin 2) * 1 + 1 * 0 = 0; omega
  | ⟨1, _⟩ => show win1_3.index t (1 : Fin 2) * 256 + 1 * m.val = m.val; omega

/-- The node-feature block of point `t` at (p, k) is the array at (1000 t + p, k). -/
theorem featBlock_apply (p : Fin 1000) (k : Fin 256) : iblk1 V c 4 t (ix2 p k) = V c main_v13 (ix2 (rowAt t p) k) := by
  show V c main_v13 (((cfg1.win 4).blk t).view.emb (ix2 p k)) = _
  obtain ⟨e0, e1⟩ := index_map_4 t
  refine congrArg (V c main_v13) (funext fun a => Fin.ext ?_)
  match a with
  | ⟨0, _⟩ => show win1_4.index t (0 : Fin 2) * 1000 + 1 * p.val = t.val * 1000 + p.val; omega
  | ⟨1, _⟩ => show win1_4.index t (1 : Fin 2) * 256 + 1 * k.val = k.val; omega

/-- The second weight block of every point is the whole matrix. -/
theorem wrBlock_apply (k m : Fin 256) : iblk1 V c 5 t (ix2 k m) = V c main_arg8 (ix2 k m) := by
  show V c main_arg8 (((cfg1.win 5).blk t).view.emb (ix2 k m)) = _
  obtain ⟨e0, e1⟩ := index_map_5 t
  refine congrArg (V c main_arg8) (funext fun a => Fin.ext ?_)
  match a with
  | ⟨0, _⟩ => show win1_5.index t (0 : Fin 2) * 256 + 1 * k.val = k.val; omega
  | ⟨1, _⟩ => show win1_5.index t (1 : Fin 2) * 256 + 1 * m.val = m.val; omega

/-- The third weight block of every point is the whole matrix. -/
theorem w2Block_apply (k m : Fin 256) : iblk1 V c 6 t (ix2 k m) = V c main_arg21 (ix2 k m) := by
  show V c main_arg21 (((cfg1.win 6).blk t).view.emb (ix2 k m)) = _
  obtain ⟨e0, e1⟩ := index_map_6 t
  refine congrArg (V c main_arg21) (funext fun a => Fin.ext ?_)
  match a with
  | ⟨0, _⟩ => show win1_6.index t (0 : Fin 2) * 256 + 1 * k.val = k.val; omega
  | ⟨1, _⟩ => show win1_6.index t (1 : Fin 2) * 256 + 1 * m.val = m.val; omega

/-- The second bias block of every point is the whole bias row. -/
theorem b2Block_apply (m : Fin 256) : iblk1 V c 7 t (ix2 (0 : Fin 1) m) = V c main_v26 (ix2 (0 : Fin 1) m) := by
  show V c main_v26 (((cfg1.win 7).blk t).view.emb (ix2 (0 : Fin 1) m)) = _
  obtain ⟨e0, e1⟩ := index_map_7 t
  refine congrArg (V c main_v26) (funext fun a => Fin.ext ?_)
  match a with
  | ⟨0, _⟩ => show win1_7.index t (0 : Fin 2) * 1 + 1 * 0 = 0; omega
  | ⟨1, _⟩ => show win1_7.index t (1 : Fin 2) * 256 + 1 * m.val = m.val; omega

end Blocks

/-- An element (p, j) of the output block of point `t` sits at (1000 t + p, j) of the output array. -/
theorem outBlock_emb (t : Fin cfg1.N) (p : Fin 1000) (j : Fin 256) :
    ((cfg1.win 8).blk t).view.emb (ix2 p j) = ix2 (rowAt t p) j := by
  obtain ⟨e0, e1⟩ := index_map_8 t
  refine funext fun a => Fin.ext ?_
  match a with
  | ⟨0, _⟩ => show win1_8.index t (0 : Fin 2) * 1000 + 1 * p.val = t.val * 1000 + p.val; omega
  | ⟨1, _⟩ => show win1_8.index t (1 : Fin 2) * 256 + 1 * j.val = j.val; omega

/-! ## What a point writes back -/

/-- The body's arithmetic is the layer on a block of 1000 rows. -/
theorem body_eq (x0 : Vec Ideal S1000x256 .f32) (x1 : Vec Ideal S1000x1 .f32) (x2 : Vec Ideal S256x256 .f32) (x3 : Vec Ideal S1x256 .f32)
    (x4 : Vec Ideal S1000x256 .f32) (x5 x6 : Vec Ideal S256x256 .f32) (x7 : Vec Ideal S1x256 .f32) :
    k1_pay1 (F := Ideal) x0 x1 x2 x3 x4 x5 x6 x7 = Dense256.blockLayer x0 x1 x2 x3 x4 x5 x6 x7 := rfl

/-- WHAT POINT `t` WRITES BACK is block `t` of the layer's function of the arrays the region found: row p of its blocks is
    row 1000 t + p of the arrays, the reciprocal column is one over the (nonzero) degree there, and the two bias rows are
    the bias vectors. -/
theorem flushed_eq (V : (c : Dev nD) → (b : Ref sig .tc) → Buf (Elt Ideal) ((c : Thread nD τ).loc b)) (c : Dev nD)
    (dg : FVec Ideal S10000x1 .f32) (hdg : ∀ i, dg i ≠ 0) (hr : V c main_v11 = Host.divf (broadcastInDim S10000x1 ![] bcast_S_S10000x1 (constant S_ .f32 0x3F800000#32)) dg)
    (bl b2 : FVec Ideal S256 .f32) (hbl : V c main_v25 = shapeCast S1x256 bl shapeCasts_S256_S1x256)
    (hb2 : V c main_v26 = shapeCast S1x256 b2 shapeCasts_S256_S1x256) (t : Fin cfg1.N) :
    (dat1 (F := Ideal) V c).flushed 8 t
      = ((cfg1.win 8).blk t).view.read (Elt Ideal)
          (R.post256 (F := Ideal) (V c main_v24) dg (V c main_arg6) bl (V c main_v13) (V c main_arg8) (V c main_arg21) b2) := by
  show (cfg1.win 8).cut (grid1.coords t) ((dat1 (F := Ideal) V c).after 8 t) = _
  rw [after1_8]
  unfold out1_8
  rw [View.canon_unit_zero offsets_zero]
  simp only [View.ld_unit_zero (S := S1000x256) offsets_zero, View.ld_unit_zero (S := S1000x1) offsets_zero,
    View.ld_unit_zero (S := S256x256) offsets_zero, View.ld_unit_zero (S := S1x256) offsets_zero]
  funext y
  obtain ⟨p, j, rfl⟩ : ∃ (p : Fin 1000) (j : Fin 256), y = ix2 p j := ⟨y 0, y 1, eq_ix2 (n0 := 1000) (n1 := 256) y⟩
  have hx : (win1 8).xinj (grid1.coords t) (ix2 p j) = ix2 p j :=
    funext fun a => Fin.ext (by match a with | ⟨0, _⟩ => rfl | ⟨1, _⟩ => rfl)
  show k1_pay1 (F := Ideal) (iblk1 V c 0 t) (iblk1 V c 1 t) (iblk1 V c 2 t) (iblk1 V c 3 t) (iblk1 V c 4 t) (iblk1 V c 5 t) (iblk1 V c 6 t) (iblk1 V c 7 t)
      ((win1 8).xinj (grid1.coords t) (ix2 p j))
    = R.post256 (F := Ideal) (V c main_v24) dg (V c main_arg6) bl (V c main_v13) (V c main_arg8) (V c main_arg21) b2
        (((cfg1.win 8).blk t).view.emb (ix2 p j))
  rw [hx, outBlock_emb, body_eq, Dense256.blockLayer_apply, Dense256.post256_apply _ _ _ _ _ _ _ _ _ _ (hdg _)]
  refine Dense256.cell_congr j (fun k => sumBlock_apply V c t p k) ?_ (fun k m => wlBlock_apply V c t k m) (fun m => ?_)
    (fun k => featBlock_apply V c t p k) (fun k m => wrBlock_apply V c t k m) (fun k m => w2Block_apply V c t k m) (fun m => ?_)
  · rw [recipBlock_apply, hr, Dense256.recip_apply]
  · rw [blBlock_apply, hbl, Dense256.biasRow_apply]
  · rw [b2Block_apply, hb2, Dense256.biasRow_apply]

/-! ## From the blocks to the array

The ten output blocks tile the array: row i is in the block of point i / 1000, and every point writes its block back. -/

/-- An index of the output array is in point `t`'s block iff each coordinate is in the block's range on its axis. -/
theorem mem_outBlock (t : Fin cfg1.N) (i : S10000x256.Idx) :
    i ∈ ((cfg1.win 8).blk t).view.set ↔ ∀ a : Fin 2, win1_8.index t a * S1000x256.size a ≤ (i a).val ∧ (i a).val < win1_8.index t a * S1000x256.size a + S1000x256.size a := by
  show i ∈ ((View.whole main_v27).slice (win1_8.rect t)).set ↔ _
  rw [View.set_slice_whole, Rect.mem_set_unit]
  exact Iff.rfl

/-- Every index of the output array is in the block of the point its row falls in. -/
theorem rows_covered (i : S10000x256.Idx) : ∃ t : Fin cfg1.N, (cfg1.win 8).flush t = true ∧ i ∈ ((cfg1.win 8).blk t).view.set := by
  have hi0 : (i 0).val < 10000 := (i 0).isLt
  have hi1 : (i 1).val < 256 := (i 1).isLt
  obtain ⟨t, ht⟩ : ∃ t : Fin cfg1.N, t.val = (i 0).val / 1000 := ⟨⟨(i 0).val / 1000, by rw [points_eq]; omega⟩, rfl⟩
  obtain ⟨e0, e1⟩ := index_map_8 t
  refine ⟨t, flush1_8 t, ?_⟩
  rw [mem_outBlock]
  intro a
  match a with
  | ⟨0, _⟩ => show win1_8.index t (0 : Fin 2) * 1000 ≤ (i 0).val ∧ (i 0).val < win1_8.index t (0 : Fin 2) * 1000 + 1000; omega
  | ⟨1, _⟩ => show win1_8.index t (1 : Fin 2) * 256 ≤ (i 1).val ∧ (i 1).val < win1_8.index t (1 : Fin 2) * 256 + 256; omega

end Reg1

/-- Region 1's output array after its ten points, from the contents `V` the region was entered with: window 1 holds one
    over the in-degree `dg` (nowhere zero), windows 3 and 7 the two bias vectors as one row each. -/
theorem reg1_value (V : (c : Dev nD) → (b : Ref sig .tc) → Buf (Elt Ideal) ((c : Thread nD τ).loc b)) (c : Dev nD)
    (dg : FVec Ideal S10000x1 .f32) (hdg : ∀ i, dg i ≠ 0) (hr : V c main_v11 = Host.divf (broadcastInDim S10000x1 ![] bcast_S_S10000x1 (constant S_ .f32 0x3F800000#32)) dg)
    (bl b2 : FVec Ideal S256 .f32) (hbl : V c main_v25 = shapeCast S1x256 bl shapeCasts_S256_S1x256)
    (hb2 : V c main_v26 = shapeCast S1x256 b2 shapeCasts_S256_S1x256) :
    (dat1 (F := Ideal) V c).arrAt 8 cfg1.N
      = R.post256 (F := Ideal) (V c main_v24) dg (V c main_arg6) bl (V c main_v13) (V c main_arg8) (V c main_arg21) b2 :=
  (dat1 (F := Ideal) V c).arrAt_eq_of_cover 8
    (R.post256 (F := Ideal) (V c main_v24) dg (V c main_arg6) bl (V c main_v13) (V c main_arg8) (V c main_arg21) b2)
    (fun t _ => Reg1.flushed_eq V c dg hdg hr bl b2 hbl hb2 t) Reg1.rows_covered

end Cert.Bridge

end
-- ==== Proof.Reg3.lean ====
/-
  The third convolution's pallas_call (256 → 128 → 128): the array it leaves is the reference's last layer function of the arrays it found.

  Each of the ten grid points reads a block of 1000 rows of the aggregated messages `s`, of the reciprocal in-degree and of the
  nodes' own rows `h`, and the whole of the weights and of the two bias rows, and writes 1000 rows of
  `leak (relu ((s ⊙ 1/deg) · wl + bl + h · wr) · w2 + b2)`. The reference computes `leak (relu ((s / deg) · wl + bl + h · wr) · w2 + b2)`
  on whole arrays. Entry by entry the two are the same sums over the contraction indices; the one law joining them is that a
  product with the reciprocal of a nonzero number is the quotient by it.
-/
import proofs.«403348_j26843545600712_3_alg».proof.Proof.Gen.KernelIdeal.Frame
import proofs.«403348_j26843545600712_3_alg».proof.Proof.SharedR
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.Bridge

open Cert.KernelIdeal Cert.KernelIdeal.Gen Idealize.ShloMosaic Idealize.ShloMosaic.TcCoe Idealize.SL.Sem
open Idealize.ShloMosaic.Pipeline (Dat Cfg Window)

namespace Reg3

/-! ## The dot products at an index -/

/-- The whole-array product [10000, 256] · [256, 128]: on the left operand the row is the result's row, -/
theorem refDotIn_lhs_0 (i : Cert.ReferenceIdeal.S10000x128.Idx) (q : Cert.ReferenceIdeal.dot_S10000x256_S256x128_S10000x128_1_0_0_1_n_n.contr.Idx) :
    (Cert.ReferenceIdeal.dot_S10000x256_S256x128_S10000x128_1_0_0_1_n_n.lhsIdx i q 0).val = (i 0).val := by
  unfold DotDims.lhsIdx
  rw [dif_neg (show ¬(0 : Fin Cert.ReferenceIdeal.S10000x256.rank) ∈ Cert.ReferenceIdeal.dot_S10000x256_S256x128_S10000x128_1_0_0_1_n_n.lhsBatch by decide), dif_pos (show (0 : Fin Cert.ReferenceIdeal.S10000x256.rank) ∈ Cert.ReferenceIdeal.dot_S10000x256_S256x128_S10000x128_1_0_0_1_n_n.lhsNonContracting by decide)]
  rfl
/-- the column the contraction index; -/
theorem refDotIn_lhs_1 (i : Cert.ReferenceIdeal.S10000x128.Idx) (q : Cert.ReferenceIdeal.dot_S10000x256_S256x128_S10000x128_1_0_0_1_n_n.contr.Idx) :
    (Cert.ReferenceIdeal.dot_S10000x256_S256x128_S10000x128_1_0_0_1_n_n.lhsIdx i q 1).val = (q ⟨0, by decide⟩).val :=
  Cert.ReferenceIdeal.dot_S10000x256_S256x128_S10000x128_1_0_0_1_n_n.lhsIdx_val_of_single rfl i q
/-- on the right operand the row is the contraction index, -/
theorem refDotIn_rhs_0 (i : Cert.ReferenceIdeal.S10000x128.Idx) (q : Cert.ReferenceIdeal.dot_S10000x256_S256x128_S10000x128_1_0_0_1_n_n.contr.Idx) :
    (Cert.ReferenceIdeal.dot_S10000x256_S256x128_S10000x128_1_0_0_1_n_n.rhsIdx i q 0).val = (q ⟨0, by decide⟩).val :=
  Cert.ReferenceIdeal.dot_S10000x256_S256x128_S10000x128_1_0_0_1_n_n.rhsIdx_val_of_single rfl i q
/-- the column the result's column. -/
theorem refDotIn_rhs_1 (i : Cert.ReferenceIdeal.S10000x128.Idx) (q : Cert.ReferenceIdeal.dot_S10000x256_S256x128_S10000x128_1_0_0_1_n_n.contr.Idx) :
    (Cert.ReferenceIdeal.dot_S10000x256_S256x128_S10000x128_1_0_0_1_n_n.rhsIdx i q 1).val = (i 1).val := by
  unfold DotDims.rhsIdx
  rw [dif_neg (show ¬(1 : Fin Cert.ReferenceIdeal.S256x128.rank) ∈ Cert.ReferenceIdeal.dot_S10000x256_S256x128_S10000x128_1_0_0_1_n_n.rhsBatch by decide), dif_pos (show (1 : Fin Cert.ReferenceIdeal.S256x128.rank) ∈ Cert.ReferenceIdeal.dot_S10000x256_S256x128_S10000x128_1_0_0_1_n_n.rhsNonContracting by decide)]
  rfl
/-- So its entry (i, j) is the sum over k of a (i, k) · b (k, j). -/
theorem refDotIn_apply (a : FVec Ideal Cert.ReferenceIdeal.S10000x256 .f32) (b : FVec Ideal Cert.ReferenceIdeal.S256x128 .f32) (i : Fin 10000) (j : Fin 128) :
    Host.dotGeneral (F := Ideal) Cert.ReferenceIdeal.dot_S10000x256_S256x128_S10000x128_1_0_0_1_n_n none a b (ValueIdx.ix2 i j) = ∑ k : Fin 256, a (ValueIdx.ix2 i k) * b (ValueIdx.ix2 k j) := by
  simp only [Host.dotGeneral]
  rw [Ideal.dotGeneral_apply, ← Equiv.sum_comp (ValueIdx.contrEquiv1 Cert.ReferenceIdeal.dot_S10000x256_S256x128_S10000x128_1_0_0_1_n_n 256 rfl rfl).symm]
  refine Finset.sum_congr rfl fun k _ => ?_
  have hk := ValueIdx.contrEquiv1_symm_val Cert.ReferenceIdeal.dot_S10000x256_S256x128_S10000x128_1_0_0_1_n_n 256 rfl rfl k
  have el : Cert.ReferenceIdeal.dot_S10000x256_S256x128_S10000x128_1_0_0_1_n_n.lhsIdx (ValueIdx.ix2 i j) ((ValueIdx.contrEquiv1 Cert.ReferenceIdeal.dot_S10000x256_S256x128_S10000x128_1_0_0_1_n_n 256 rfl rfl).symm k) = ValueIdx.ix2 i k := funext fun x => Fin.ext (by
    match x with
    | ⟨0, _⟩ => exact refDotIn_lhs_0 _ _
    | ⟨1, _⟩ => exact (refDotIn_lhs_1 _ _).trans hk)
  have er : Cert.ReferenceIdeal.dot_S10000x256_S256x128_S10000x128_1_0_0_1_n_n.rhsIdx (ValueIdx.ix2 i j) ((ValueIdx.contrEquiv1 Cert.ReferenceIdeal.dot_S10000x256_S256x128_S10000x128_1_0_0_1_n_n 256 rfl rfl).symm k) = ValueIdx.ix2 k j := funext fun x => Fin.ext (by
    match x with
    | ⟨0, _⟩ => exact (refDotIn_rhs_0 _ _).trans hk
    | ⟨1, _⟩ => exact refDotIn_rhs_1 _ _)
  rw [el, er]
/-- The same as one function of the result's index. -/
theorem refDotIn_fun (a : FVec Ideal Cert.ReferenceIdeal.S10000x256 .f32) (b : FVec Ideal Cert.ReferenceIdeal.S256x128 .f32) :
    Host.dotGeneral (F := Ideal) Cert.ReferenceIdeal.dot_S10000x256_S256x128_S10000x128_1_0_0_1_n_n none a b = fun x : Cert.ReferenceIdeal.S10000x128.Idx => ∑ k : Fin 256, a (ValueIdx.ix2 (x 0) k) * b (ValueIdx.ix2 k (x 1)) :=
  funext fun x => (congrArg (Host.dotGeneral (F := Ideal) Cert.ReferenceIdeal.dot_S10000x256_S256x128_S10000x128_1_0_0_1_n_n none a b) (ValueIdx.eq_ix2 x)).trans (refDotIn_apply a b (x 0) (x 1))

/-- The whole-array product [10000, 128] · [128, 128]: on the left operand the row is the result's row, -/
theorem refDotOut_lhs_0 (i : Cert.ReferenceIdeal.S10000x128.Idx) (q : Cert.ReferenceIdeal.dot_S10000x128_S128x128_S10000x128_1_0_0_1_n_n.contr.Idx) :
    (Cert.ReferenceIdeal.dot_S10000x128_S128x128_S10000x128_1_0_0_1_n_n.lhsIdx i q 0).val = (i 0).val := by
  unfold DotDims.lhsIdx
  rw [dif_neg (show ¬(0 : Fin Cert.ReferenceIdeal.S10000x128.rank) ∈ Cert.ReferenceIdeal.dot_S10000x128_S128x128_S10000x128_1_0_0_1_n_n.lhsBatch by decide), dif_pos (show (0 : Fin Cert.ReferenceIdeal.S10000x128.rank) ∈ Cert.ReferenceIdeal.dot_S10000x128_S128x128_S10000x128_1_0_0_1_n_n.lhsNonContracting by decide)]
  rfl
/-- the column the contraction index; -/
theorem refDotOut_lhs_1 (i : Cert.ReferenceIdeal.S10000x128.Idx) (q : Cert.ReferenceIdeal.dot_S10000x128_S128x128_S10000x128_1_0_0_1_n_n.contr.Idx) :
    (Cert.ReferenceIdeal.dot_S10000x128_S128x128_S10000x128_1_0_0_1_n_n.lhsIdx i q 1).val = (q ⟨0, by decide⟩).val :=
  Cert.ReferenceIdeal.dot_S10000x128_S128x128_S10000x128_1_0_0_1_n_n.lhsIdx_val_of_single rfl i q
/-- on the right operand the row is the contraction index, -/
theorem refDotOut_rhs_0 (i : Cert.ReferenceIdeal.S10000x128.Idx) (q : Cert.ReferenceIdeal.dot_S10000x128_S128x128_S10000x128_1_0_0_1_n_n.contr.Idx) :
    (Cert.ReferenceIdeal.dot_S10000x128_S128x128_S10000x128_1_0_0_1_n_n.rhsIdx i q 0).val = (q ⟨0, by decide⟩).val :=
  Cert.ReferenceIdeal.dot_S10000x128_S128x128_S10000x128_1_0_0_1_n_n.rhsIdx_val_of_single rfl i q
/-- the column the result's column. -/
theorem refDotOut_rhs_1 (i : Cert.ReferenceIdeal.S10000x128.Idx) (q : Cert.ReferenceIdeal.dot_S10000x128_S128x128_S10000x128_1_0_0_1_n_n.contr.Idx) :
    (Cert.ReferenceIdeal.dot_S10000x128_S128x128_S10000x128_1_0_0_1_n_n.rhsIdx i q 1).val = (i 1).val := by
  unfold DotDims.rhsIdx
  rw [dif_neg (show ¬(1 : Fin Cert.ReferenceIdeal.S128x128.rank) ∈ Cert.ReferenceIdeal.dot_S10000x128_S128x128_S10000x128_1_0_0_1_n_n.rhsBatch by decide), dif_pos (show (1 : Fin Cert.ReferenceIdeal.S128x128.rank) ∈ Cert.ReferenceIdeal.dot_S10000x128_S128x128_S10000x128_1_0_0_1_n_n.rhsNonContracting by decide)]
  rfl
/-- So its entry (i, j) is the sum over k of a (i, k) · b (k, j). -/
theorem refDotOut_apply (a : FVec Ideal Cert.ReferenceIdeal.S10000x128 .f32) (b : FVec Ideal Cert.ReferenceIdeal.S128x128 .f32) (i : Fin 10000) (j : Fin 128) :
    Host.dotGeneral (F := Ideal) Cert.ReferenceIdeal.dot_S10000x128_S128x128_S10000x128_1_0_0_1_n_n none a b (ValueIdx.ix2 i j) = ∑ k : Fin 128, a (ValueIdx.ix2 i k) * b (ValueIdx.ix2 k j) := by
  simp only [Host.dotGeneral]
  rw [Ideal.dotGeneral_apply, ← Equiv.sum_comp (ValueIdx.contrEquiv1 Cert.ReferenceIdeal.dot_S10000x128_S128x128_S10000x128_1_0_0_1_n_n 128 rfl rfl).symm]
  refine Finset.sum_congr rfl fun k _ => ?_
  have hk := ValueIdx.contrEquiv1_symm_val Cert.ReferenceIdeal.dot_S10000x128_S128x128_S10000x128_1_0_0_1_n_n 128 rfl rfl k
  have el : Cert.ReferenceIdeal.dot_S10000x128_S128x128_S10000x128_1_0_0_1_n_n.lhsIdx (ValueIdx.ix2 i j) ((ValueIdx.contrEquiv1 Cert.ReferenceIdeal.dot_S10000x128_S128x128_S10000x128_1_0_0_1_n_n 128 rfl rfl).symm k) = ValueIdx.ix2 i k := funext fun x => Fin.ext (by
    match x with
    | ⟨0, _⟩ => exact refDotOut_lhs_0 _ _
    | ⟨1, _⟩ => exact (refDotOut_lhs_1 _ _).trans hk)
  have er : Cert.ReferenceIdeal.dot_S10000x128_S128x128_S10000x128_1_0_0_1_n_n.rhsIdx (ValueIdx.ix2 i j) ((ValueIdx.contrEquiv1 Cert.ReferenceIdeal.dot_S10000x128_S128x128_S10000x128_1_0_0_1_n_n 128 rfl rfl).symm k) = ValueIdx.ix2 k j := funext fun x => Fin.ext (by
    match x with
    | ⟨0, _⟩ => exact (refDotOut_rhs_0 _ _).trans hk
    | ⟨1, _⟩ => exact refDotOut_rhs_1 _ _)
  rw [el, er]
/-- The same as one function of the result's index. -/
theorem refDotOut_fun (a : FVec Ideal Cert.ReferenceIdeal.S10000x128 .f32) (b : FVec Ideal Cert.ReferenceIdeal.S128x128 .f32) :
    Host.dotGeneral (F := Ideal) Cert.ReferenceIdeal.dot_S10000x128_S128x128_S10000x128_1_0_0_1_n_n none a b = fun x : Cert.ReferenceIdeal.S10000x128.Idx => ∑ k : Fin 128, a (ValueIdx.ix2 (x 0) k) * b (ValueIdx.ix2 k (x 1)) :=
  funext fun x => (congrArg (Host.dotGeneral (F := Ideal) Cert.ReferenceIdeal.dot_S10000x128_S128x128_S10000x128_1_0_0_1_n_n none a b) (ValueIdx.eq_ix2 x)).trans (refDotOut_apply a b (x 0) (x 1))

/-- One block's product [1000, 256] · [256, 128] into a zero accumulator: on the left operand the row is the result's row, -/
theorem blkDotIn_lhs_0 (i : Cert.KernelIdeal.S1000x128.Idx) (q : Cert.KernelIdeal.dot_S1000x256_S256x128_S1000x128_1_0_0_1_n_n.contr.Idx) :
    (Cert.KernelIdeal.dot_S1000x256_S256x128_S1000x128_1_0_0_1_n_n.lhsIdx i q 0).val = (i 0).val := by
  unfold DotDims.lhsIdx
  rw [dif_neg (show ¬(0 : Fin Cert.KernelIdeal.S1000x256.rank) ∈ Cert.KernelIdeal.dot_S1000x256_S256x128_S1000x128_1_0_0_1_n_n.lhsBatch by decide), dif_pos (show (0 : Fin Cert.KernelIdeal.S1000x256.rank) ∈ Cert.KernelIdeal.dot_S1000x256_S256x128_S1000x128_1_0_0_1_n_n.lhsNonContracting by decide)]
  rfl
/-- the column the contraction index; -/
theorem blkDotIn_lhs_1 (i : Cert.KernelIdeal.S1000x128.Idx) (q : Cert.KernelIdeal.dot_S1000x256_S256x128_S1000x128_1_0_0_1_n_n.contr.Idx) :
    (Cert.KernelIdeal.dot_S1000x256_S256x128_S1000x128_1_0_0_1_n_n.lhsIdx i q 1).val = (q ⟨0, by decide⟩).val :=
  Cert.KernelIdeal.dot_S1000x256_S256x128_S1000x128_1_0_0_1_n_n.lhsIdx_val_of_single rfl i q
/-- on the right operand the row is the contraction index, -/
theorem blkDotIn_rhs_0 (i : Cert.KernelIdeal.S1000x128.Idx) (q : Cert.KernelIdeal.dot_S1000x256_S256x128_S1000x128_1_0_0_1_n_n.contr.Idx) :
    (Cert.KernelIdeal.dot_S1000x256_S256x128_S1000x128_1_0_0_1_n_n.rhsIdx i q 0).val = (q ⟨0, by decide⟩).val :=
  Cert.KernelIdeal.dot_S1000x256_S256x128_S1000x128_1_0_0_1_n_n.rhsIdx_val_of_single rfl i q
/-- the column the result's column. -/
theorem blkDotIn_rhs_1 (i : Cert.KernelIdeal.S1000x128.Idx) (q : Cert.KernelIdeal.dot_S1000x256_S256x128_S1000x128_1_0_0_1_n_n.contr.Idx) :
    (Cert.KernelIdeal.dot_S1000x256_S256x128_S1000x128_1_0_0_1_n_n.rhsIdx i q 1).val = (i 1).val := by
  unfold DotDims.rhsIdx
  rw [dif_neg (show ¬(1 : Fin Cert.KernelIdeal.S256x128.rank) ∈ Cert.KernelIdeal.dot_S1000x256_S256x128_S1000x128_1_0_0_1_n_n.rhsBatch by decide), dif_pos (show (1 : Fin Cert.KernelIdeal.S256x128.rank) ∈ Cert.KernelIdeal.dot_S1000x256_S256x128_S1000x128_1_0_0_1_n_n.rhsNonContracting by decide)]
  rfl
/-- So its entry (i, j) is the sum over k of a (i, k) · b (k, j). -/
theorem blkDotIn_apply {φ₁ φ₂ : FTy} (a : FVec Ideal Cert.KernelIdeal.S1000x256 φ₁) (b : FVec Ideal Cert.KernelIdeal.S256x128 φ₂) (i : Fin 1000) (j : Fin 128) :
    matmul (F := Ideal) Cert.KernelIdeal.dot_S1000x256_S256x128_S1000x128_1_0_0_1_n_n none a b (constant Cert.KernelIdeal.S1000x128 .f32 0x00000000#32) (ValueIdx.ix2 i j) = ∑ k : Fin 256, a (ValueIdx.ix2 i k) * b (ValueIdx.ix2 k j) := by
  show FloatOps.matmul Cert.KernelIdeal.dot_S1000x256_S256x128_S1000x128_1_0_0_1_n_n none a b (constant Cert.KernelIdeal.S1000x128 .f32 0x00000000#32) (ValueIdx.ix2 i j) = _
  rw [Ideal.matmul_constant_zero_apply, ← Equiv.sum_comp (ValueIdx.contrEquiv1 Cert.KernelIdeal.dot_S1000x256_S256x128_S1000x128_1_0_0_1_n_n 256 rfl rfl).symm]
  refine Finset.sum_congr rfl fun k _ => ?_
  have hk := ValueIdx.contrEquiv1_symm_val Cert.KernelIdeal.dot_S1000x256_S256x128_S1000x128_1_0_0_1_n_n 256 rfl rfl k
  have el : Cert.KernelIdeal.dot_S1000x256_S256x128_S1000x128_1_0_0_1_n_n.lhsIdx (ValueIdx.ix2 i j) ((ValueIdx.contrEquiv1 Cert.KernelIdeal.dot_S1000x256_S256x128_S1000x128_1_0_0_1_n_n 256 rfl rfl).symm k) = ValueIdx.ix2 i k := funext fun x => Fin.ext (by
    match x with
    | ⟨0, _⟩ => exact blkDotIn_lhs_0 _ _
    | ⟨1, _⟩ => exact (blkDotIn_lhs_1 _ _).trans hk)
  have er : Cert.KernelIdeal.dot_S1000x256_S256x128_S1000x128_1_0_0_1_n_n.rhsIdx (ValueIdx.ix2 i j) ((ValueIdx.contrEquiv1 Cert.KernelIdeal.dot_S1000x256_S256x128_S1000x128_1_0_0_1_n_n 256 rfl rfl).symm k) = ValueIdx.ix2 k j := funext fun x => Fin.ext (by
    match x with
    | ⟨0, _⟩ => exact (blkDotIn_rhs_0 _ _).trans hk
    | ⟨1, _⟩ => exact blkDotIn_rhs_1 _ _)
  rw [el, er]
/-- The same as one function of the result's index. -/
theorem blkDotIn_fun {φ₁ φ₂ : FTy} (a : FVec Ideal Cert.KernelIdeal.S1000x256 φ₁) (b : FVec Ideal Cert.KernelIdeal.S256x128 φ₂) :
    matmul (F := Ideal) Cert.KernelIdeal.dot_S1000x256_S256x128_S1000x128_1_0_0_1_n_n none a b (constant Cert.KernelIdeal.S1000x128 .f32 0x00000000#32) = fun x : Cert.KernelIdeal.S1000x128.Idx => ∑ k : Fin 256, a (ValueIdx.ix2 (x 0) k) * b (ValueIdx.ix2 k (x 1)) :=
  funext fun x => (congrArg (matmul (F := Ideal) Cert.KernelIdeal.dot_S1000x256_S256x128_S1000x128_1_0_0_1_n_n none a b (constant Cert.KernelIdeal.S1000x128 .f32 0x00000000#32)) (ValueIdx.eq_ix2 x)).trans (blkDotIn_apply a b (x 0) (x 1))

/-- One block's product [1000, 128] · [128, 128] into a zero accumulator: on the left operand the row is the result's row, -/
theorem blkDotOut_lhs_0 (i : Cert.KernelIdeal.S1000x128.Idx) (q : Cert.KernelIdeal.dot_S1000x128_S128x128_S1000x128_1_0_0_1_n_n.contr.Idx) :
    (Cert.KernelIdeal.dot_S1000x128_S128x128_S1000x128_1_0_0_1_n_n.lhsIdx i q 0).val = (i 0).val := by
  unfold DotDims.lhsIdx
  rw [dif_neg (show ¬(0 : Fin Cert.KernelIdeal.S1000x128.rank) ∈ Cert.KernelIdeal.dot_S1000x128_S128x128_S1000x128_1_0_0_1_n_n.lhsBatch by decide), dif_pos (show (0 : Fin Cert.KernelIdeal.S1000x128.rank) ∈ Cert.KernelIdeal.dot_S1000x128_S128x128_S1000x128_1_0_0_1_n_n.lhsNonContracting by decide)]
  rfl
/-- the column the contraction index; -/
theorem blkDotOut_lhs_1 (i : Cert.KernelIdeal.S1000x128.Idx) (q : Cert.KernelIdeal.dot_S1000x128_S128x128_S1000x128_1_0_0_1_n_n.contr.Idx) :
    (Cert.KernelIdeal.dot_S1000x128_S128x128_S1000x128_1_0_0_1_n_n.lhsIdx i q 1).val = (q ⟨0, by decide⟩).val :=
  Cert.KernelIdeal.dot_S1000x128_S128x128_S1000x128_1_0_0_1_n_n.lhsIdx_val_of_single rfl i q
/-- on the right operand the row is the contraction index, -/
theorem blkDotOut_rhs_0 (i : Cert.KernelIdeal.S1000x128.Idx) (q : Cert.KernelIdeal.dot_S1000x128_S128x128_S1000x128_1_0_0_1_n_n.contr.Idx) :
    (Cert.KernelIdeal.dot_S1000x128_S128x128_S1000x128_1_0_0_1_n_n.rhsIdx i q 0).val = (q ⟨0, by decide⟩).val :=
  Cert.KernelIdeal.dot_S1000x128_S128x128_S1000x128_1_0_0_1_n_n.rhsIdx_val_of_single rfl i q
/-- the column the result's column. -/
theorem blkDotOut_rhs_1 (i : Cert.KernelIdeal.S1000x128.Idx) (q : Cert.KernelIdeal.dot_S1000x128_S128x128_S1000x128_1_0_0_1_n_n.contr.Idx) :
    (Cert.KernelIdeal.dot_S1000x128_S128x128_S1000x128_1_0_0_1_n_n.rhsIdx i q 1).val = (i 1).val := by
  unfold DotDims.rhsIdx
  rw [dif_neg (show ¬(1 : Fin Cert.KernelIdeal.S128x128.rank) ∈ Cert.KernelIdeal.dot_S1000x128_S128x128_S1000x128_1_0_0_1_n_n.rhsBatch by decide), dif_pos (show (1 : Fin Cert.KernelIdeal.S128x128.rank) ∈ Cert.KernelIdeal.dot_S1000x128_S128x128_S1000x128_1_0_0_1_n_n.rhsNonContracting by decide)]
  rfl
/-- So its entry (i, j) is the sum over k of a (i, k) · b (k, j). -/
theorem blkDotOut_apply {φ₁ φ₂ : FTy} (a : FVec Ideal Cert.KernelIdeal.S1000x128 φ₁) (b : FVec Ideal Cert.KernelIdeal.S128x128 φ₂) (i : Fin 1000) (j : Fin 128) :
    matmul (F := Ideal) Cert.KernelIdeal.dot_S1000x128_S128x128_S1000x128_1_0_0_1_n_n none a b (constant Cert.KernelIdeal.S1000x128 .f32 0x00000000#32) (ValueIdx.ix2 i j) = ∑ k : Fin 128, a (ValueIdx.ix2 i k) * b (ValueIdx.ix2 k j) := by
  show FloatOps.matmul Cert.KernelIdeal.dot_S1000x128_S128x128_S1000x128_1_0_0_1_n_n none a b (constant Cert.KernelIdeal.S1000x128 .f32 0x00000000#32) (ValueIdx.ix2 i j) = _
  rw [Ideal.matmul_constant_zero_apply, ← Equiv.sum_comp (ValueIdx.contrEquiv1 Cert.KernelIdeal.dot_S1000x128_S128x128_S1000x128_1_0_0_1_n_n 128 rfl rfl).symm]
  refine Finset.sum_congr rfl fun k _ => ?_
  have hk := ValueIdx.contrEquiv1_symm_val Cert.KernelIdeal.dot_S1000x128_S128x128_S1000x128_1_0_0_1_n_n 128 rfl rfl k
  have el : Cert.KernelIdeal.dot_S1000x128_S128x128_S1000x128_1_0_0_1_n_n.lhsIdx (ValueIdx.ix2 i j) ((ValueIdx.contrEquiv1 Cert.KernelIdeal.dot_S1000x128_S128x128_S1000x128_1_0_0_1_n_n 128 rfl rfl).symm k) = ValueIdx.ix2 i k := funext fun x => Fin.ext (by
    match x with
    | ⟨0, _⟩ => exact blkDotOut_lhs_0 _ _
    | ⟨1, _⟩ => exact (blkDotOut_lhs_1 _ _).trans hk)
  have er : Cert.KernelIdeal.dot_S1000x128_S128x128_S1000x128_1_0_0_1_n_n.rhsIdx (ValueIdx.ix2 i j) ((ValueIdx.contrEquiv1 Cert.KernelIdeal.dot_S1000x128_S128x128_S1000x128_1_0_0_1_n_n 128 rfl rfl).symm k) = ValueIdx.ix2 k j := funext fun x => Fin.ext (by
    match x with
    | ⟨0, _⟩ => exact (blkDotOut_rhs_0 _ _).trans hk
    | ⟨1, _⟩ => exact blkDotOut_rhs_1 _ _)
  rw [el, er]
/-- The same as one function of the result's index. -/
theorem blkDotOut_fun {φ₁ φ₂ : FTy} (a : FVec Ideal Cert.KernelIdeal.S1000x128 φ₁) (b : FVec Ideal Cert.KernelIdeal.S128x128 φ₂) :
    matmul (F := Ideal) Cert.KernelIdeal.dot_S1000x128_S128x128_S1000x128_1_0_0_1_n_n none a b (constant Cert.KernelIdeal.S1000x128 .f32 0x00000000#32) = fun x : Cert.KernelIdeal.S1000x128.Idx => ∑ k : Fin 128, a (ValueIdx.ix2 (x 0) k) * b (ValueIdx.ix2 k (x 1)) :=
  funext fun x => (congrArg (matmul (F := Ideal) Cert.KernelIdeal.dot_S1000x128_S128x128_S1000x128_1_0_0_1_n_n none a b (constant Cert.KernelIdeal.S1000x128 .f32 0x00000000#32)) (ValueIdx.eq_ix2 x)).trans (blkDotOut_apply a b (x 0) (x 1))

/-! ## One entry of the layer -/

/-- `x` where it is nonnegative, the f32 constant 0.01 times it elsewhere. -/
def leak (x : EReal) : EReal :=
  Scalar.select (FloatOps.cmpf (F := Ideal) (φ := .f32) .oge x (Ideal.ofBits .f32 0x00000000#32)) x (Ideal.ofBits .f32 0x3C23D70A#32 * x)

/-- Entry `k` of a node's hidden row: `relu (a · wl + bl + h · wr)`, from the node's aggregated row `a` and own row `h`. -/
def hidEntry (a h : Fin 256 → EReal) (wl wr : Fin 256 → Fin 128 → EReal) (bl : Fin 128 → EReal) (k : Fin 128) : EReal :=
  max ((∑ q : Fin 256, a q * wl q k) + bl k + ∑ q : Fin 256, h q * wr q k) (Ideal.ofBits .f32 0x00000000#32)

/-- Entry `j` of a node's output row: `leak (hidden · w2 + b2)`. -/
def rowEntry (a h : Fin 256 → EReal) (wl wr : Fin 256 → Fin 128 → EReal) (bl : Fin 128 → EReal)
    (w2 : Fin 128 → Fin 128 → EReal) (b2 : Fin 128 → EReal) (j : Fin 128) : EReal :=
  leak ((∑ k : Fin 128, hidEntry a h wl wr bl k * w2 k j) + b2 j)

/-! ## The reference's layer function at an index -/

/-- A bias vector laid as one row and repeated down the 10000 rows reads the vector at the column. -/
theorem refBiasRows_fun (b : FVec Ideal Cert.ReferenceIdeal.S128 .f32) :
    broadcastInDim Cert.ReferenceIdeal.S10000x128 ![0, 1] Cert.ReferenceIdeal.Gen.bcast_S1x128_S10000x128_0_1
      (broadcastInDim Cert.ReferenceIdeal.S1x128 ![1] Cert.ReferenceIdeal.Gen.bcast_S128_S1x128_1 b)
      = fun x : Cert.ReferenceIdeal.S10000x128.Idx => b (ValueIdx.ix1 (x 1)) := by
  funext x
  rw [broadcastInDim_apply _ Cert.ReferenceIdeal.Gen.bcast_S1x128_S10000x128_0_1 _ x (ValueIdx.ix2 (0 : Fin 1) (x 1)) (fun a => match a with
    | ⟨0, _⟩ => by show 0 = if (1 : Nat) = 1 then 0 else (x 0).val; rw [if_pos rfl]
    | ⟨1, _⟩ => by show (x 1).val = if (128 : Nat) = 1 then 0 else (x 1).val; rw [if_neg (by decide)])]
  exact broadcastInDim_apply _ Cert.ReferenceIdeal.Gen.bcast_S128_S1x128_1 b (ValueIdx.ix2 (0 : Fin 1) (x 1)) (ValueIdx.ix1 (x 1)) (fun a => match a with
    | ⟨0, _⟩ => by show (x 1).val = if (128 : Nat) = 1 then 0 else (x 1).val; rw [if_neg (by decide)])

/-- The in-degree column repeated across the 256 columns reads the row's degree. -/
theorem refDegCols_fun (dg : FVec Ideal Cert.ReferenceIdeal.S10000x1 .f32) :
    broadcastInDim Cert.ReferenceIdeal.S10000x256 ![0, 1] Cert.ReferenceIdeal.Gen.bcast_S10000x1_S10000x256_0_1 dg
      = fun x : Cert.ReferenceIdeal.S10000x256.Idx => dg (ValueIdx.ix2 (x 0) (0 : Fin 1)) :=
  funext fun x => broadcastInDim_apply _ Cert.ReferenceIdeal.Gen.bcast_S10000x1_S10000x256_0_1 dg x (ValueIdx.ix2 (x 0) (0 : Fin 1)) (fun a => match a with
    | ⟨0, _⟩ => by show (x 0).val = if (10000 : Nat) = 1 then 0 else (x 0).val; rw [if_neg (by decide)]
    | ⟨1, _⟩ => by show 0 = if (1 : Nat) = 1 then 0 else (x 1).val; rw [if_pos rfl])

/-- The reference's last layer at row `i`, column `j`: the row entry of the aggregated row divided by the row's in-degree. -/
theorem refPost_apply (s : FVec Ideal Cert.ReferenceIdeal.S10000x256 .f32) (dg : FVec Ideal Cert.ReferenceIdeal.S10000x1 .f32)
    (wl : FVec Ideal Cert.ReferenceIdeal.S256x128 .f32) (bl : FVec Ideal Cert.ReferenceIdeal.S128 .f32)
    (h : FVec Ideal Cert.ReferenceIdeal.S10000x256 .f32) (wr : FVec Ideal Cert.ReferenceIdeal.S256x128 .f32)
    (w2 : FVec Ideal Cert.ReferenceIdeal.S128x128 .f32) (b2 : FVec Ideal Cert.ReferenceIdeal.S128 .f32) (i : Fin 10000) (j : Fin 128) :
    R.post128 (F := Ideal) s dg wl bl h wr w2 b2 (ValueIdx.ix2 i j)
      = rowEntry (fun q => Ideal.div (s (ValueIdx.ix2 i q)) (dg (ValueIdx.ix2 i (0 : Fin 1)))) (fun q => h (ValueIdx.ix2 i q))
          (fun q k => wl (ValueIdx.ix2 q k)) (fun q k => wr (ValueIdx.ix2 q k)) (fun k => bl (ValueIdx.ix1 k))
          (fun k j => w2 (ValueIdx.ix2 k j)) (fun j => b2 (ValueIdx.ix1 j)) j := by
  unfold R.post128 R.leaky128 R.conv128
  rw [refDotOut_fun, refDotIn_fun, refDotIn_fun, refBiasRows_fun, refBiasRows_fun, refDegCols_fun]
  rfl

/-! ## The body's payload at an index -/

/-- The reciprocal column of a block repeated across its 256 columns reads the row's reciprocal. -/
theorem blkRecipCols_fun (v : FVec Ideal S1000x1 .f32) :
    broadcastTo S1000x256 v broadcasts_S1000x1_S1000x256 = fun y : S1000x256.Idx => v (ValueIdx.ix2 (y 0) (0 : Fin 1)) :=
  funext fun y => broadcastTo_apply v broadcasts_S1000x1_S1000x256 y (ValueIdx.ix2 (y 0) (0 : Fin 1)) (fun a => match a with
    | ⟨0, _⟩ => by show (y 0).val = if (1000 : Nat) = 1 then 0 else (y 0).val; rw [if_neg (by decide)]
    | ⟨1, _⟩ => by show 0 = if (1 : Nat) = 1 then 0 else (y 1).val; rw [if_pos rfl])

/-- A bias row repeated down a block's 1000 rows reads the row at the column. -/
theorem blkBiasRows_fun (v : FVec Ideal S1x128 .f32) :
    broadcastTo S1000x128 v broadcasts_S1x128_S1000x128 = fun y : S1000x128.Idx => v (ValueIdx.ix2 (0 : Fin 1) (y 1)) :=
  funext fun y => broadcastTo_apply v broadcasts_S1x128_S1000x128 y (ValueIdx.ix2 (0 : Fin 1) (y 1)) (fun a => match a with
    | ⟨0, _⟩ => by show 0 = if (1 : Nat) = 1 then 0 else (y 0).val; rw [if_pos rfl]
    | ⟨1, _⟩ => by show (y 1).val = if (128 : Nat) = 1 then 0 else (y 1).val; rw [if_neg (by decide)])

/-- The body's result at local row `p`, column `j`: the row entry of the aggregated row times the row's reciprocal. -/
theorem pay_apply (x0 : Vec Ideal S1000x256 .f32) (x1 : Vec Ideal S1000x1 .f32) (x2 : Vec Ideal S256x128 .f32) (x3 : Vec Ideal S1x128 .f32)
    (x4 : Vec Ideal S1000x256 .f32) (x5 : Vec Ideal S256x128 .f32) (x6 : Vec Ideal S128x128 .f32) (x7 : Vec Ideal S1x128 .f32)
    (p : Fin 1000) (j : Fin 128) :
    k3_pay1 (F := Ideal) x0 x1 x2 x3 x4 x5 x6 x7 (ValueIdx.ix2 p j)
      = rowEntry (fun q => x0 (ValueIdx.ix2 p q) * x1 (ValueIdx.ix2 p (0 : Fin 1))) (fun q => x4 (ValueIdx.ix2 p q))
          (fun q k => x2 (ValueIdx.ix2 q k)) (fun q k => x5 (ValueIdx.ix2 q k)) (fun k => x3 (ValueIdx.ix2 (0 : Fin 1) k))
          (fun k j => x6 (ValueIdx.ix2 k j)) (fun j => x7 (ValueIdx.ix2 (0 : Fin 1) j)) j := by
  unfold k3_pay1
  rw [shapeCast_self x0, shapeCast_self x1, shapeCast_self x3, shapeCast_self x4, shapeCast_self x7]
  rw [blkDotOut_fun, blkDotIn_fun, blkDotIn_fun, blkRecipCols_fun, blkBiasRows_fun, blkBiasRows_fun]
  rfl

/-! ## A point's block of the output -/

/-- The grid has ten points. -/
theorem points_eq : cfg3.N = 10 := by decide

/-- The array row that local row `p` of point `t`'s block is. -/
def rowAt (t : Fin cfg3.N) (p : Fin 1000) : Fin 10000 := ⟨t.val * 1000 + p.val, by have ht : t.val < 10 := points_eq ▸ t.isLt; have := p.isLt; omega⟩

/-- Where the body's inputs at local row `p` are the arrays' entries at row `i`, the reciprocal one over a nonzero in-degree,
    the body's result at (p, j) is the reference's at (i, j): a product with the reciprocal of a nonzero number is the quotient by it. -/
theorem point_eq (s : FVec Ideal Cert.ReferenceIdeal.S10000x256 .f32) (dg : FVec Ideal Cert.ReferenceIdeal.S10000x1 .f32) (hdg : ∀ i, dg i ≠ 0)
    (wl : FVec Ideal Cert.ReferenceIdeal.S256x128 .f32) (bl : FVec Ideal Cert.ReferenceIdeal.S128 .f32)
    (h : FVec Ideal Cert.ReferenceIdeal.S10000x256 .f32) (wr : FVec Ideal Cert.ReferenceIdeal.S256x128 .f32)
    (w2 : FVec Ideal Cert.ReferenceIdeal.S128x128 .f32) (b2 : FVec Ideal Cert.ReferenceIdeal.S128 .f32)
    (x0 : Vec Ideal S1000x256 .f32) (x1 : Vec Ideal S1000x1 .f32) (x2 : Vec Ideal S256x128 .f32) (x3 : Vec Ideal S1x128 .f32)
    (x4 : Vec Ideal S1000x256 .f32) (x5 : Vec Ideal S256x128 .f32) (x6 : Vec Ideal S128x128 .f32) (x7 : Vec Ideal S1x128 .f32)
    (i : Fin 10000) (p : Fin 1000) (j : Fin 128)
    (e0 : ∀ q, x0 (ValueIdx.ix2 p q) = s (ValueIdx.ix2 i q))
    (e1 : x1 (ValueIdx.ix2 p (0 : Fin 1)) = Ideal.div 1 (dg (ValueIdx.ix2 i (0 : Fin 1))))
    (e2 : ∀ q k, x2 (ValueIdx.ix2 q k) = wl (ValueIdx.ix2 q k))
    (e3 : ∀ k, x3 (ValueIdx.ix2 (0 : Fin 1) k) = bl (ValueIdx.ix1 k))
    (e4 : ∀ q, x4 (ValueIdx.ix2 p q) = h (ValueIdx.ix2 i q))
    (e5 : ∀ q k, x5 (ValueIdx.ix2 q k) = wr (ValueIdx.ix2 q k))
    (e6 : ∀ k j, x6 (ValueIdx.ix2 k j) = w2 (ValueIdx.ix2 k j))
    (e7 : ∀ j, x7 (ValueIdx.ix2 (0 : Fin 1) j) = b2 (ValueIdx.ix1 j)) :
    k3_pay1 (F := Ideal) x0 x1 x2 x3 x4 x5 x6 x7 (ValueIdx.ix2 p j) = R.post128 (F := Ideal) s dg wl bl h wr w2 b2 (ValueIdx.ix2 i j) := by
  rw [pay_apply, refPost_apply]
  have ha : (fun q => x0 (ValueIdx.ix2 p q) * x1 (ValueIdx.ix2 p (0 : Fin 1)))
      = fun q => Ideal.div (s (ValueIdx.ix2 i q)) (dg (ValueIdx.ix2 i (0 : Fin 1))) :=
    funext fun q => by rw [e0 q, e1, Ideal.mul_one_div (hdg _)]
  have hh : (fun q => x4 (ValueIdx.ix2 p q)) = fun q => h (ValueIdx.ix2 i q) := funext e4
  have hwl : (fun q k => x2 (ValueIdx.ix2 q k)) = fun q k => wl (ValueIdx.ix2 q k) := funext fun q => funext fun k => e2 q k
  have hwr : (fun q k => x5 (ValueIdx.ix2 q k)) = fun q k => wr (ValueIdx.ix2 q k) := funext fun q => funext fun k => e5 q k
  have hbl : (fun k => x3 (ValueIdx.ix2 (0 : Fin 1) k)) = fun k => bl (ValueIdx.ix1 k) := funext e3
  have hw2 : (fun k j => x6 (ValueIdx.ix2 k j)) = fun k j => w2 (ValueIdx.ix2 k j) := funext fun k => funext fun j => e6 k j
  have hb2 : (fun j => x7 (ValueIdx.ix2 (0 : Fin 1) j)) = fun j => b2 (ValueIdx.ix1 j) := funext e7
  rw [ha, hh, hwl, hwr, hbl, hw2, hb2]

/-- The zero offsets of a whole-block access. -/
theorem zero_offsets : (![0, 0] : Fin 2 → Nat) = fun _ => 0 := funext fun a => by fin_cases a <;> rfl

/-- The printed index maps, decided over the grid: the row-blocked windows sit at block (t, 0), the weights and bias rows at block (0, 0). -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-! ## What a point reads -/

/-- Point `t`'s block of the aggregated rows at (p, q) is the array at (1000 t + p, q). -/
theorem read_agg (V : (c : Dev nD) → (b : Ref sig .tc) → Buf (Elt Ideal) ((c : Thread nD τ).loc b)) (c : Dev nD) (t : Fin cfg3.N) (p : Fin 1000) (q : Fin 256) :
    iblk3 V c 0 t (ValueIdx.ix2 p q) = V c main_v52 (ValueIdx.ix2 (rowAt t p) q) := by
  show V c main_v52 (((cfg3.win 0).blk t).view.emb (ValueIdx.ix2 p q)) = _
  obtain ⟨e0, e1, -⟩ := index_facts t
  refine congrArg (V c main_v52) (funext fun a => Fin.ext ?_)
  match a with
  | ⟨0, _⟩ => show win3_0.index t (0 : Fin 2) * 1000 + 1 * p.val = t.val * 1000 + p.val; omega
  | ⟨1, _⟩ => show win3_0.index t (1 : Fin 2) * 256 + 1 * q.val = q.val; omega

/-- Point `t`'s block of the reciprocal column at (p, 0) is the array at (1000 t + p, 0). -/
theorem read_recip (V : (c : Dev nD) → (b : Ref sig .tc) → Buf (Elt Ideal) ((c : Thread nD τ).loc b)) (c : Dev nD) (t : Fin cfg3.N) (p : Fin 1000) (z : Fin 1) :
    iblk3 V c 1 t (ValueIdx.ix2 p z) = V c main_v11 (ValueIdx.ix2 (rowAt t p) z) := by
  show V c main_v11 (((cfg3.win 1).blk t).view.emb (ValueIdx.ix2 p z)) = _
  obtain ⟨-, -, e0, e1, -⟩ := index_facts t
  refine congrArg (V c main_v11) (funext fun a => Fin.ext ?_)
  match a with
  | ⟨0, _⟩ => show win3_1.index t (0 : Fin 2) * 1000 + 1 * p.val = t.val * 1000 + p.val; omega
  | ⟨1, _⟩ => show win3_1.index t (1 : Fin 2) * 1 + 1 * z.val = z.val; omega

/-- Every point's block of the left weights is the whole array. -/
theorem read_wl (V : (c : Dev nD) → (b : Ref sig .tc) → Buf (Elt Ideal) ((c : Thread nD τ).loc b)) (c : Dev nD) (t : Fin cfg3.N) (q : Fin 256) (k : Fin 128) :
    iblk3 V c 2 t (ValueIdx.ix2 q k) = V c main_arg16 (ValueIdx.ix2 q k) := by
  show V c main_arg16 (((cfg3.win 2).blk t).view.emb (ValueIdx.ix2 q k)) = _
  obtain ⟨-, -, -, -, e0, e1, -⟩ := index_facts t
  refine congrArg (V c main_arg16) (funext fun a => Fin.ext ?_)
  match a with
  | ⟨0, _⟩ => show win3_2.index t (0 : Fin 2) * 256 + 1 * q.val = q.val; omega
  | ⟨1, _⟩ => show win3_2.index t (1 : Fin 2) * 128 + 1 * k.val = k.val; omega

/-- Every point's block of the first bias row is the whole row. -/
theorem read_blrow (V : (c : Dev nD) → (b : Ref sig .tc) → Buf (Elt Ideal) ((c : Thread nD τ).loc b)) (c : Dev nD) (t : Fin cfg3.N) (z : Fin 1) (k : Fin 128) :
    iblk3 V c 3 t (ValueIdx.ix2 z k) = V c main_v53 (ValueIdx.ix2 z k) := by
  show V c main_v53 (((cfg3.win 3).blk t).view.emb (ValueIdx.ix2 z k)) = _
  obtain ⟨-, -, -, -, -, -, e0, e1, -⟩ := index_facts t
  refine congrArg (V c main_v53) (funext fun a => Fin.ext ?_)
  match a with
  | ⟨0, _⟩ => show win3_3.index t (0 : Fin 2) * 1 + 1 * z.val = z.val; omega
  | ⟨1, _⟩ => show win3_3.index t (1 : Fin 2) * 128 + 1 * k.val = k.val; omega

/-- Point `t`'s block of the nodes' own rows at (p, q) is the array at (1000 t + p, q). -/
theorem read_own (V : (c : Dev nD) → (b : Ref sig .tc) → Buf (Elt Ideal) ((c : Thread nD τ).loc b)) (c : Dev nD) (t : Fin cfg3.N) (p : Fin 1000) (q : Fin 256) :
    iblk3 V c 4 t (ValueIdx.ix2 p q) = V c main_v41 (ValueIdx.ix2 (rowAt t p) q) := by
  show V c main_v41 (((cfg3.win 4).blk t).view.emb (ValueIdx.ix2 p q)) = _
  obtain ⟨-, -, -, -, -, -, -, -, e0, e1, -⟩ := index_facts t
  refine congrArg (V c main_v41) (funext fun a => Fin.ext ?_)
  match a with
  | ⟨0, _⟩ => show win3_4.index t (0 : Fin 2) * 1000 + 1 * p.val = t.val * 1000 + p.val; omega
  | ⟨1, _⟩ => show win3_4.index t (1 : Fin 2) * 256 + 1 * q.val = q.val; omega

/-- Every point's block of the right weights is the whole array. -/
theorem read_wr (V : (c : Dev nD) → (b : Ref sig .tc) → Buf (Elt Ideal) ((c : Thread nD τ).loc b)) (c : Dev nD) (t : Fin cfg3.N) (q : Fin 256) (k : Fin 128) :
    iblk3 V c 5 t (ValueIdx.ix2 q k) = V c main_arg18 (ValueIdx.ix2 q k) := by
  show V c main_arg18 (((cfg3.win 5).blk t).view.emb (ValueIdx.ix2 q k)) = _
  obtain ⟨-, -, -, -, -, -, -, -, -, -, e0, e1, -⟩ := index_facts t
  refine congrArg (V c main_arg18) (funext fun a => Fin.ext ?_)
  match a with
  | ⟨0, _⟩ => show win3_5.index t (0 : Fin 2) * 256 + 1 * q.val = q.val; omega
  | ⟨1, _⟩ => show win3_5.index t (1 : Fin 2) * 128 + 1 * k.val = k.val; omega

/-- Every point's block of the second layer's weights is the whole array. -/
theorem read_w2 (V : (c : Dev nD) → (b : Ref sig .tc) → Buf (Elt Ideal) ((c : Thread nD τ).loc b)) (c : Dev nD) (t : Fin cfg3.N) (k : Fin 128) (j : Fin 128) :
    iblk3 V c 6 t (ValueIdx.ix2 k j) = V c main_arg25 (ValueIdx.ix2 k j) := by
  show V c main_arg25 (((cfg3.win 6).blk t).view.emb (ValueIdx.ix2 k j)) = _
  obtain ⟨-, -, -, -, -, -, -, -, -, -, -, -, e0, e1, -⟩ := index_facts t
  refine congrArg (V c main_arg25) (funext fun a => Fin.ext ?_)
  match a with
  | ⟨0, _⟩ => show win3_6.index t (0 : Fin 2) * 128 + 1 * k.val = k.val; omega
  | ⟨1, _⟩ => show win3_6.index t (1 : Fin 2) * 128 + 1 * j.val = j.val; omega

/-- Every point's block of the second bias row is the whole row. -/
theorem read_b2row (V : (c : Dev nD) → (b : Ref sig .tc) → Buf (Elt Ideal) ((c : Thread nD τ).loc b)) (c : Dev nD) (t : Fin cfg3.N) (z : Fin 1) (j : Fin 128) :
    iblk3 V c 7 t (ValueIdx.ix2 z j) = V c main_v54 (ValueIdx.ix2 z j) := by
  show V c main_v54 (((cfg3.win 7).blk t).view.emb (ValueIdx.ix2 z j)) = _
  obtain ⟨-, -, -, -, -, -, -, -, -, -, -, -, -, -, e0, e1, -⟩ := index_facts t
  refine congrArg (V c main_v54) (funext fun a => Fin.ext ?_)
  match a with
  | ⟨0, _⟩ => show win3_7.index t (0 : Fin 2) * 1 + 1 * z.val = z.val; omega
  | ⟨1, _⟩ => show win3_7.index t (1 : Fin 2) * 128 + 1 * j.val = j.val; omega

/-- One over the in-degree, as the host computes it, at an index. -/
theorem recip_apply (dg : FVec Ideal S10000x1 .f32) (z : S10000x1.Idx) :
    Host.divf (F := Ideal) (broadcastInDim S10000x1 ![] bcast_S_S10000x1 (constant S_ .f32 0x3F800000#32)) dg z = Ideal.div 1 (dg z) := by
  show Ideal.div (Ideal.ofBits .f32 0x3F800000#32) (dg z) = _
  rw [Ideal.ofBits_one_f32]

/-- The 128 biases laid as one row, at (0, k). -/
theorem biasRow_apply (b : FVec Ideal S128 .f32) (k : Fin 128) :
    shapeCast S1x128 b shapeCasts_S128_S1x128 (ValueIdx.ix2 (0 : Fin 1) k) = b (ValueIdx.ix1 k) :=
  shapeCast_apply b shapeCasts_S128_S1x128 (ValueIdx.ix2 (0 : Fin 1) k) (ValueIdx.ix1 k)
    (by rewrite [Shape.rowMajor_val_two, Shape.rowMajor_val_one]; show k.val = 0 * 128 + k.val; omega)

/-! ## What a point writes back -/

/-- Local entry (p, j) of point `t`'s output block is array entry (1000 t + p, j). -/
theorem emb_out (t : Fin cfg3.N) (p : Fin 1000) (j : Fin 128) :
    ((cfg3.win 8).blk t).view.emb (ValueIdx.ix2 p j) = ValueIdx.ix2 (rowAt t p) j := by
  obtain ⟨-, -, -, -, -, -, -, -, -, -, -, -, -, -, -, -, e0, e1⟩ := index_facts t
  refine funext fun a => Fin.ext ?_
  match a with
  | ⟨0, _⟩ => show win3_8.index t (0 : Fin 2) * 1000 + 1 * p.val = t.val * 1000 + p.val; omega
  | ⟨1, _⟩ => show win3_8.index t (1 : Fin 2) * 128 + 1 * j.val = j.val; omega

/-- WHAT POINT `t` WRITES BACK is block `t` of the reference's layer function of the arrays the region found. -/
theorem flushed_eq (V : (c : Dev nD) → (b : Ref sig .tc) → Buf (Elt Ideal) ((c : Thread nD τ).loc b)) (c : Dev nD)
    (dg : FVec Ideal S10000x1 .f32) (hdg : ∀ i, dg i ≠ 0) (hr : V c main_v11 = Host.divf (broadcastInDim S10000x1 ![] bcast_S_S10000x1 (constant S_ .f32 0x3F800000#32)) dg)
    (bl b2 : FVec Ideal S128 .f32) (hbl : V c main_v53 = shapeCast S1x128 bl shapeCasts_S128_S1x128)
    (hb2 : V c main_v54 = shapeCast S1x128 b2 shapeCasts_S128_S1x128) (t : Fin cfg3.N) :
    (dat3 (F := Ideal) V c).flushed 8 t
      = ((cfg3.win 8).blk t).view.read (Elt Ideal) (R.post128 (F := Ideal) (V c main_v52) dg (V c main_arg16) bl (V c main_v41) (V c main_arg18) (V c main_arg25) b2) := by
  show (cfg3.win 8).cut (grid3.coords t) ((dat3 (F := Ideal) V c).after 8 t) = _
  rw [after3_8]
  unfold out3_8
  rw [View.canon_unit_zero zero_offsets]
  simp only [View.ld_unit_zero (S := S1000x256) zero_offsets, View.ld_unit_zero (S := S1000x1) zero_offsets, View.ld_unit_zero (S := S256x128) zero_offsets,
    View.ld_unit_zero (S := S1x128) zero_offsets, View.ld_unit_zero (S := S128x128) zero_offsets]
  funext y
  obtain ⟨p, j, rfl⟩ : ∃ (p : Fin 1000) (j : Fin 128), y = ValueIdx.ix2 p j := ⟨y 0, y 1, ValueIdx.eq_ix2 (n0 := 1000) (n1 := 128) y⟩
  have hx : (win3 8).xinj (grid3.coords t) (ValueIdx.ix2 p j) = ValueIdx.ix2 p j :=
    funext fun a => Fin.ext (by match a with | ⟨0, _⟩ => rfl | ⟨1, _⟩ => rfl)
  show k3_pay1 (F := Ideal) (iblk3 V c 0 t) (iblk3 V c 1 t) (iblk3 V c 2 t) (iblk3 V c 3 t) (iblk3 V c 4 t) (iblk3 V c 5 t) (iblk3 V c 6 t) (iblk3 V c 7 t)
      ((win3 8).xinj (grid3.coords t) (ValueIdx.ix2 p j))
    = R.post128 (F := Ideal) (V c main_v52) dg (V c main_arg16) bl (V c main_v41) (V c main_arg18) (V c main_arg25) b2 (((cfg3.win 8).blk t).view.emb (ValueIdx.ix2 p j))
  rw [hx, emb_out]
  exact point_eq (V c main_v52) dg hdg (V c main_arg16) bl (V c main_v41) (V c main_arg18) (V c main_arg25) b2
    (iblk3 V c 0 t) (iblk3 V c 1 t) (iblk3 V c 2 t) (iblk3 V c 3 t) (iblk3 V c 4 t) (iblk3 V c 5 t) (iblk3 V c 6 t) (iblk3 V c 7 t) (rowAt t p) p j
    (fun q => read_agg V c t p q)
    (by rw [read_recip V c t p (0 : Fin 1), hr, recip_apply])
    (fun q k => read_wl V c t q k)
    (fun k => by rw [read_blrow V c t (0 : Fin 1) k, hbl, biasRow_apply])
    (fun q => read_own V c t p q)
    (fun q k => read_wr V c t q k)
    (fun k j => read_w2 V c t k j)
    (fun j => by rw [read_b2row V c t (0 : Fin 1) j, hb2, biasRow_apply])

/-! ## From the blocks to the array

The ten output blocks tile the array: row i is in the block of point i / 1000, and every point writes its block back. -/

/-- An index of the output array is in point `t`'s block iff each coordinate is in the block's range on its axis. -/
theorem mem_out (t : Fin cfg3.N) (i : S10000x128.Idx) :
    i ∈ ((cfg3.win 8).blk t).view.set ↔ ∀ a : Fin 2, win3_8.index t a * S1000x128.size a ≤ (i a).val ∧ (i a).val < win3_8.index t a * S1000x128.size a + S1000x128.size a := by
  show i ∈ ((View.whole main_v55).slice (win3_8.rect t)).set ↔ _
  rw [View.set_slice_whole, Rect.mem_set_unit]
  exact Iff.rfl

/-- Every index of the output array is in the block of the point its row falls in, and that point writes back. -/
theorem covered (i : S10000x128.Idx) : ∃ t : Fin cfg3.N, (cfg3.win 8).flush t = true ∧ i ∈ ((cfg3.win 8).blk t).view.set := by
  have hi0 : (i 0).val < 10000 := (i 0).isLt
  have hi1 : (i 1).val < 128 := (i 1).isLt
  obtain ⟨t, ht⟩ : ∃ t : Fin cfg3.N, t.val = (i 0).val / 1000 := ⟨⟨(i 0).val / 1000, by rw [points_eq]; omega⟩, rfl⟩
  obtain ⟨-, -, -, -, -, -, -, -, -, -, -, -, -, -, -, -, e0, e1⟩ := index_facts t
  refine ⟨t, flush3_8 t, ?_⟩
  rw [mem_out]
  intro a
  match a with
  | ⟨0, _⟩ => show win3_8.index t (0 : Fin 2) * 1000 ≤ (i 0).val ∧ (i 0).val < win3_8.index t (0 : Fin 2) * 1000 + 1000; omega
  | ⟨1, _⟩ => show win3_8.index t (1 : Fin 2) * 128 ≤ (i 1).val ∧ (i 1).val < win3_8.index t (1 : Fin 2) * 128 + 128; omega

end Reg3

/-- Region 3's output array after its ten points, from the contents `V` the region was entered with: window 1 holds one
    over the in-degree `dg` (nowhere zero), windows 3 and 7 the two bias vectors as one row each. -/
theorem reg3_value (V : (c : Dev nD) → (b : Ref sig .tc) → Buf (Elt Ideal) ((c : Thread nD τ).loc b)) (c : Dev nD)
    (dg : FVec Ideal S10000x1 .f32) (hdg : ∀ i, dg i ≠ 0) (hr : V c main_v11 = Host.divf (broadcastInDim S10000x1 ![] bcast_S_S10000x1 (constant S_ .f32 0x3F800000#32)) dg)
    (bl b2 : FVec Ideal S128 .f32) (hbl : V c main_v53 = shapeCast S1x128 bl shapeCasts_S128_S1x128)
    (hb2 : V c main_v54 = shapeCast S1x128 b2 shapeCasts_S128_S1x128) :
    (dat3 (F := Ideal) V c).arrAt 8 cfg3.N
      = R.post128 (F := Ideal) (V c main_v52) dg (V c main_arg16) bl (V c main_v41) (V c main_arg18) (V c main_arg25) b2 :=
  (dat3 (F := Ideal) V c).arrAt_eq_of_cover 8
    (R.post128 (F := Ideal) (V c main_v52) dg (V c main_arg16) bl (V c main_v41) (V c main_arg18) (V c main_arg25) b2)
    (fun t _ => Reg3.flushed_eq V c dg hdg hr bl b2 hbl hb2 t) Reg3.covered

end Cert.Bridge

end
-- ==== Proof.KChain.lean ====
/-
  The kernel program's result, read back through its whole run: each pallas_call's output array is the reference's
  layer function of the arrays the call found, each host stretch's message sum is the reference's under the
  precondition, and the graph-level tail is the same operations; so the result buffer ends at the network's result of
  the launch memory's inputs.
-/
import proofs.«403348_j26843545600712_3_alg».proof.Proof.KFold
import proofs.«403348_j26843545600712_3_alg».proof.Proof.SharedEq
import proofs.«403348_j26843545600712_3_alg».proof.Proof.Degree
import proofs.«403348_j26843545600712_3_alg».proof.Proof.PreDecode
import proofs.«403348_j26843545600712_3_alg».proof.Proof.Reg0
import proofs.«403348_j26843545600712_3_alg».proof.Proof.Reg1
import proofs.«403348_j26843545600712_3_alg».proof.Proof.Reg2
import proofs.«403348_j26843545600712_3_alg».proof.Proof.Reg3

set_option maxRecDepth 16384

noncomputable section

namespace Cert.Bridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The kernel program's launch memory as the network's inputs. -/
def argsK : R.Args Ideal where
  x := m ((c : Thread nD τ).loc main_arg0)
  ei := m ((c : Thread nD τ).loc main_arg1)
  ea := m ((c : Thread nD τ).loc main_arg2)
  batch := m ((c : Thread nD τ).loc main_arg3)
  pw := m ((c : Thread nD τ).loc main_arg4)
  pb := m ((c : Thread nD τ).loc main_arg5)
  wl1 := m ((c : Thread nD τ).loc main_arg6)
  bl1 := m ((c : Thread nD τ).loc main_arg7)
  wr1 := m ((c : Thread nD τ).loc main_arg8)
  we1 := m ((c : Thread nD τ).loc main_arg9)
  be1 := m ((c : Thread nD τ).loc main_arg10)
  wl2 := m ((c : Thread nD τ).loc main_arg11)
  bl2 := m ((c : Thread nD τ).loc main_arg12)
  wr2 := m ((c : Thread nD τ).loc main_arg13)
  we2 := m ((c : Thread nD τ).loc main_arg14)
  be2 := m ((c : Thread nD τ).loc main_arg15)
  wl3 := m ((c : Thread nD τ).loc main_arg16)
  bl3 := m ((c : Thread nD τ).loc main_arg17)
  wr3 := m ((c : Thread nD τ).loc main_arg18)
  we3 := m ((c : Thread nD τ).loc main_arg19)
  be3 := m ((c : Thread nD τ).loc main_arg20)
  hw1 := m ((c : Thread nD τ).loc main_arg21)
  hb1 := m ((c : Thread nD τ).loc main_arg22)
  hw2 := m ((c : Thread nD τ).loc main_arg23)
  hb2 := m ((c : Thread nD τ).loc main_arg24)
  ow := m ((c : Thread nD τ).loc main_arg25)
  ob := m ((c : Thread nD τ).loc main_arg26)
  ohw := m ((c : Thread nD τ).loc main_arg27)
  ohb := m ((c : Thread nD τ).loc main_arg28)
  h1w := m ((c : Thread nD τ).loc main_arg29)
  h1b := m ((c : Thread nD τ).loc main_arg30)
  gamma := m ((c : Thread nD τ).loc main_arg31)
  beta := m ((c : Thread nD τ).loc main_arg32)

set_option maxHeartbeats 16000000 in
/-- The input layer's pallas_call leaves `relu (x · w + b)`. -/
theorem W2_h0 : W2 m ρ c (Proc.devRef .tc main_v13) = R.h0 (argsK m c) := by
  have a0 : V1 m ρ c main_arg0 = m ((c : Thread nD τ).loc main_arg0) := by read_back; rfl
  have a4 : V1 m ρ c main_arg4 = m ((c : Thread nD τ).loc main_arg4) := by read_back; rfl
  refine (W2_arr m ρ c 3).trans ((reg0_value (V1 m ρ) c _ (W1_bias (F := Ideal) m ρ c)).trans ?_)
  rw [a0, a4]
  rfl

set_option maxHeartbeats 16000000 in
/-- Layer 1's message sum is the reference's: the row read with a fill is the plain gather under the precondition, and
    the rest is the same operations. -/
theorem W4_s1 (hpre : Cert.Pre_KernelIdeal m) : W4 m ρ c (Proc.devRef .tc main_v24) = R.s1 (argsK m c) := by
  have e2 : W2 m ρ c (Proc.devRef .tc main_arg2) = m ((c : Thread nD τ).loc main_arg2) := by read_back; rfl
  have ew : W2 m ρ c (Proc.devRef .tc main_arg9) = m ((c : Thread nD τ).loc main_arg9) := by read_back; rfl
  have eb : W2 m ρ c (Proc.devRef .tc main_arg10) = m ((c : Thread nD τ).loc main_arg10) := by read_back; rfl
  rw [W4_sum_raw (F := Ideal) m ρ c, W2_h0 m ρ c, W2_src m ρ c, W2_dst m ρ c, e2, ew, eb,
    ← srcCol_of, ← dstCol_of, take_eq_gather m hpre c]
  rfl

set_option maxHeartbeats 16000000 in
/-- Layer 1's pallas_call leaves the reference's layer function of what it found. -/
theorem W5_h1 (hpre : Cert.Pre_KernelIdeal m) : W5 m ρ c (Proc.devRef .tc main_v27) = R.h1 (argsK m c) := by
  have hr : V4 m ρ c main_v11 = Host.divf (broadcastInDim S10000x1 ![] bcast_S_S10000x1 (constant S_ .f32 0x3F800000#32)) (R.deg (argsK m c)) :=
    (W4_recip (F := Ideal) m ρ c).trans rfl
  have ebl : W2 m ρ c (Proc.devRef .tc main_arg7) = m ((c : Thread nD τ).loc main_arg7) := by read_back; rfl
  have eb2 : W2 m ρ c (Proc.devRef .tc main_arg22) = m ((c : Thread nD τ).loc main_arg22) := by read_back; rfl
  have hbl : V4 m ρ c main_v25 = shapeCast S1x256 (m ((c : Thread nD τ).loc main_arg7)) shapeCasts_S256_S1x256 := by
    refine (W4_bl_raw (F := Ideal) m ρ c).trans ?_; rw [ebl]
  have hb2 : V4 m ρ c main_v26 = shapeCast S1x256 (m ((c : Thread nD τ).loc main_arg22)) shapeCasts_S256_S1x256 := by
    refine (W4_b2_raw (F := Ideal) m ρ c).trans ?_; rw [eb2]
  have es : V4 m ρ c main_v24 = R.s1 (argsK m c) := W4_s1 m ρ c hpre
  have eh : V4 m ρ c main_v13 = R.h0 (argsK m c) := by read_back; exact W2_h0 m ρ c
  have ewl : V4 m ρ c main_arg6 = m ((c : Thread nD τ).loc main_arg6) := by read_back; rfl
  have ewr : V4 m ρ c main_arg8 = m ((c : Thread nD τ).loc main_arg8) := by read_back; rfl
  have ew2 : V4 m ρ c main_arg21 = m ((c : Thread nD τ).loc main_arg21) := by read_back; rfl
  refine (W5_arr m ρ c 8).trans ((reg1_value (V4 m ρ) c (R.deg (argsK m c)) (fun i => degree_ne_zero _ i) hr _ _ hbl hb2).trans ?_)
  rw [es, eh, ewl, ewr, ew2]
  rfl

set_option maxHeartbeats 16000000 in
/-- Layer 2's message sum is the reference's: the row read with a fill is the plain gather under the precondition, and
    the rest is the same operations. -/
theorem W7_s2 (hpre : Cert.Pre_KernelIdeal m) : W7 m ρ c (Proc.devRef .tc main_v38) = R.s2 (argsK m c) := by
  have e2 : W5 m ρ c (Proc.devRef .tc main_arg2) = m ((c : Thread nD τ).loc main_arg2) := by read_back; rfl
  have ew : W5 m ρ c (Proc.devRef .tc main_arg14) = m ((c : Thread nD τ).loc main_arg14) := by read_back; rfl
  have eb : W5 m ρ c (Proc.devRef .tc main_arg15) = m ((c : Thread nD τ).loc main_arg15) := by read_back; rfl
  rw [W7_sum_raw (F := Ideal) m ρ c, W5_h1 m ρ c hpre, W5_src m ρ c, W5_dst m ρ c, e2, ew, eb,
    ← srcCol_of, ← dstCol_of, take_eq_gather m hpre c]
  rfl

set_option maxHeartbeats 16000000 in
/-- Layer 2's pallas_call leaves the reference's layer function of what it found. -/
theorem W8_h2 (hpre : Cert.Pre_KernelIdeal m) : W8 m ρ c (Proc.devRef .tc main_v41) = R.h2 (argsK m c) := by
  have hr : V7 m ρ c main_v11 = Host.divf (broadcastInDim S10000x1 ![] bcast_S_S10000x1 (constant S_ .f32 0x3F800000#32)) (R.deg (argsK m c)) :=
    (W7_recip (F := Ideal) m ρ c).trans rfl
  have ebl : W5 m ρ c (Proc.devRef .tc main_arg12) = m ((c : Thread nD τ).loc main_arg12) := by read_back; rfl
  have eb2 : W5 m ρ c (Proc.devRef .tc main_arg24) = m ((c : Thread nD τ).loc main_arg24) := by read_back; rfl
  have hbl : V7 m ρ c main_v39 = shapeCast S1x256 (m ((c : Thread nD τ).loc main_arg12)) shapeCasts_S256_S1x256 := by
    refine (W7_bl_raw (F := Ideal) m ρ c).trans ?_; rw [ebl]
  have hb2 : V7 m ρ c main_v40 = shapeCast S1x256 (m ((c : Thread nD τ).loc main_arg24)) shapeCasts_S256_S1x256 := by
    refine (W7_b2_raw (F := Ideal) m ρ c).trans ?_; rw [eb2]
  have es : V7 m ρ c main_v38 = R.s2 (argsK m c) := W7_s2 m ρ c hpre
  have eh : V7 m ρ c main_v27 = R.h1 (argsK m c) := by read_back; exact W5_h1 m ρ c hpre
  have ewl : V7 m ρ c main_arg11 = m ((c : Thread nD τ).loc main_arg11) := by read_back; rfl
  have ewr : V7 m ρ c main_arg13 = m ((c : Thread nD τ).loc main_arg13) := by read_back; rfl
  have ew2 : V7 m ρ c main_arg23 = m ((c : Thread nD τ).loc main_arg23) := by read_back; rfl
  refine (W8_arr m ρ c 8).trans ((reg2_value (V7 m ρ) c (R.deg (argsK m c)) (fun i => degree_ne_zero _ i) hr _ _ hbl hb2).trans ?_)
  rw [es, eh, ewl, ewr, ew2]
  rfl

set_option maxHeartbeats 16000000 in
/-- Layer 3's message sum is the reference's: the row read with a fill is the plain gather under the precondition, and
    the rest is the same operations. -/
theorem W10_s3 (hpre : Cert.Pre_KernelIdeal m) : W10 m ρ c (Proc.devRef .tc main_v52) = R.s3 (argsK m c) := by
  have e2 : W8 m ρ c (Proc.devRef .tc main_arg2) = m ((c : Thread nD τ).loc main_arg2) := by read_back; rfl
  have ew : W8 m ρ c (Proc.devRef .tc main_arg19) = m ((c : Thread nD τ).loc main_arg19) := by read_back; rfl
  have eb : W8 m ρ c (Proc.devRef .tc main_arg20) = m ((c : Thread nD τ).loc main_arg20) := by read_back; rfl
  rw [W10_sum_raw (F := Ideal) m ρ c, W8_h2 m ρ c hpre, W8_src m ρ c, W8_dst m ρ c, e2, ew, eb,
    ← srcCol_of, ← dstCol_of, take_eq_gather m hpre c]
  rfl

set_option maxHeartbeats 16000000 in
/-- Layer 3's pallas_call leaves the reference's layer function of what it found. -/
theorem W11_h3 (hpre : Cert.Pre_KernelIdeal m) : W11 m ρ c (Proc.devRef .tc main_v55) = R.h3 (argsK m c) := by
  have hr : V10 m ρ c main_v11 = Host.divf (broadcastInDim S10000x1 ![] bcast_S_S10000x1 (constant S_ .f32 0x3F800000#32)) (R.deg (argsK m c)) :=
    (W10_recip (F := Ideal) m ρ c).trans rfl
  have ebl : W8 m ρ c (Proc.devRef .tc main_arg17) = m ((c : Thread nD τ).loc main_arg17) := by read_back; rfl
  have eb2 : W8 m ρ c (Proc.devRef .tc main_arg26) = m ((c : Thread nD τ).loc main_arg26) := by read_back; rfl
  have hbl : V10 m ρ c main_v53 = shapeCast S1x128 (m ((c : Thread nD τ).loc main_arg17)) shapeCasts_S128_S1x128 := by
    refine (W10_bl_raw (F := Ideal) m ρ c).trans ?_; rw [ebl]
  have hb2 : V10 m ρ c main_v54 = shapeCast S1x128 (m ((c : Thread nD τ).loc main_arg26)) shapeCasts_S128_S1x128 := by
    refine (W10_b2_raw (F := Ideal) m ρ c).trans ?_; rw [eb2]
  have es : V10 m ρ c main_v52 = R.s3 (argsK m c) := W10_s3 m ρ c hpre
  have eh : V10 m ρ c main_v41 = R.h2 (argsK m c) := by read_back; exact W8_h2 m ρ c hpre
  have ewl : V10 m ρ c main_arg16 = m ((c : Thread nD τ).loc main_arg16) := by read_back; rfl
  have ewr : V10 m ρ c main_arg18 = m ((c : Thread nD τ).loc main_arg18) := by read_back; rfl
  have ew2 : V10 m ρ c main_arg25 = m ((c : Thread nD τ).loc main_arg25) := by read_back; rfl
  refine (W11_arr m ρ c 8).trans ((reg3_value (V10 m ρ) c (R.deg (argsK m c)) (fun i => degree_ne_zero _ i) hr _ _ hbl hb2).trans ?_)
  rw [es, eh, ewl, ewr, ew2]
  rfl

set_option maxHeartbeats 16000000 in
/-- The result buffer ends at the network's result of the launch memory's inputs. -/
theorem W15_out (hpre : Cert.Pre_KernelIdeal m) : W15 m ρ c (Proc.devRef .tc main_v105) = R.out (argsK m c) := by
  have a3 : W11 m ρ c (Proc.devRef .tc main_arg3) = m ((c : Thread nD τ).loc main_arg3) := by read_back; rfl
  have a27 : W11 m ρ c (Proc.devRef .tc main_arg27) = m ((c : Thread nD τ).loc main_arg27) := by read_back; rfl
  have a28 : W11 m ρ c (Proc.devRef .tc main_arg28) = m ((c : Thread nD τ).loc main_arg28) := by read_back; rfl
  have a29 : W11 m ρ c (Proc.devRef .tc main_arg29) = m ((c : Thread nD τ).loc main_arg29) := by read_back; rfl
  have a30 : W11 m ρ c (Proc.devRef .tc main_arg30) = m ((c : Thread nD τ).loc main_arg30) := by read_back; rfl
  have a31 : W11 m ρ c (Proc.devRef .tc main_arg31) = m ((c : Thread nD τ).loc main_arg31) := by read_back; rfl
  have a32 : W11 m ρ c (Proc.devRef .tc main_arg32) = m ((c : Thread nD τ).loc main_arg32) := by read_back; rfl
  rw [W15_tail_raw (F := Ideal) m ρ c, W11_h3 m ρ c hpre, a3, a27, a28, a29, a30, a31, a32]
  rfl

end Cert.Bridge

end
-- ==== Proof.lean ====
/-
  The certificate of the graph network's kernel against its reference: three graph convolutions (SAGE with an edge
  term) over 10000 nodes and 320000 edges, each fused with the linear layer after it, then mean pooling over 64 graphs,
  a linear layer, batch normalisation, leaky relu and a one-column readout.

  The two programs differ in three ways, none of which changes a value over the extended reals. The kernel runs the
  four dense layers as row-blocked pallas_calls (ten blocks of 1000 rows, bf16 matrix products into f32 accumulators):
  a change of float format is the identity and a blocked product into a zero accumulator is the plain sum, so block t of
  each output is rows [1000 t, 1000 t + 1000) of the reference's whole-array layer. The kernel multiplies a message sum
  by one over the in-degree where the reference divides by the in-degree; the in-degree is a maximum with 1, so it is not
  zero and both are the product with its inverse. The kernel reads node rows by source index with a fill on indices out
  of range where the reference's gather clamps them: the precondition keeps every source index in [-10000, 10000), the
  range in which the reference's own indexing is defined, and there, after the wrap of the negative indices both
  programs make, no index is out of range and the two reads agree. Everything else (the wrap, the edge term, the relu,
  the scatter by destination, the whole graph-level tail) is the same operations in the same order in both programs.
-/
import proofs.«403348_j26843545600712_3_alg».proof.Defs
import proofs.«403348_j26843545600712_3_alg».proof.Proof.Gen.Kernel
import proofs.«403348_j26843545600712_3_alg».proof.Proof.Gen.Kernel.Skeleton
import proofs.«403348_j26843545600712_3_alg».proof.Proof.Gen.Kernel.Launch
import proofs.«403348_j26843545600712_3_alg».proof.Proof.Gen.Kernel.Points
import proofs.«403348_j26843545600712_3_alg».proof.Proof.Gen.Kernel.Frame
import proofs.«403348_j26843545600712_3_alg».proof.Proof.Gen.KernelIdeal
import proofs.«403348_j26843545600712_3_alg».proof.Proof.Gen.KernelIdeal.Skeleton
import proofs.«403348_j26843545600712_3_alg».proof.Proof.Gen.KernelIdeal.Launch
import proofs.«403348_j26843545600712_3_alg».proof.Proof.Gen.KernelIdeal.Points
import proofs.«403348_j26843545600712_3_alg».proof.Proof.Gen.KernelIdeal.Frame
import proofs.«403348_j26843545600712_3_alg».proof.Proof.Gen.ReferenceIdeal
import proofs.«403348_j26843545600712_3_alg».proof.Proof.Gen.Pre_finite_inputs
import proofs.«403348_j26843545600712_3_alg».proof.Proof.KernelRun
import proofs.«403348_j26843545600712_3_alg».proof.Proof.RefRun
import proofs.«403348_j26843545600712_3_alg».proof.Proof.KChain
import Idealize.ShloMosaic.Adequacy
import Idealize.ShloMosaic.Init

noncomputable section

namespace Cert.Proof

open Idealize.ShloMosaic Idealize.SL.Sem Cert.Bridge

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.Bridge.ref_run m ρ)

/-- The two memories hold the same 33 inputs. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) :
    Cert.Bridge.argsR m' c = Cert.Bridge.argsK m c := by
  obtain ⟨e0, e1, e2, e3, e4, e5, e6, e7, e8, e9, e10, e11, e12, e13, e14, e15, e16, e17, e18, e19, e20, e21, e22, e23, e24, e25, e26, e27, e28, e29, e30, e31, e32⟩ := h
  unfold Cert.Bridge.argsR Cert.Bridge.argsK
  rw [e0, e1, e2, e3, e4, e5, e6, e7, e8, e9, e10, e11, e12, e13, e14, e15, e16, e17, e18, e19, e20, e21, e22, e23, e24, e25, e26, e27, e28, e29, e30, e31, e32]

/-- Both idealized programs end with the network's result of the shared inputs: the kernel's run read back through its
    segment boundaries, the reference's run stretch by stretch. -/
theorem algebraic : Cert.algebraic_KernelIdeal_ReferenceIdeal := by
  intro m ρ m' ρ' hpre hagree
  refine ⟨fun c => R.out (Cert.Bridge.argsK m c), ?_, ?_⟩
  · exact (θ_run Cert.KernelIdeal.defs _ _).mono
      (fun r h c => ⟨(h c).1.trans (Cert.Bridge.W15_out m ρ c hpre), (h c).2⟩)
      (Cert.KernelIdeal.Gen.run_out (F := Ideal) m ρ)
  · exact (θ_run Cert.ReferenceIdeal.defs _ _).mono
      (fun r h c => ⟨(h c).1.trans (congrArg R.out (args_agree m m' c (hagree c))), (h c).2⟩)
      (Cert.Bridge.ref_run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
